-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10x512x512 : Shape := ⟨4, ![8, 10, 512, 512]⟩
abbrev S8x512x512 : Shape := ⟨3, ![8, 512, 512]⟩
abbrev S_ : Shape := ⟨0, ![]⟩

class Facts : Prop where
  bcast_S_S8x10x512x512 : S_.BroadcastsInDim S8x10x512x512 (![] : Fin 0 → Fin S8x10x512x512.rank)
  reducesTo_S8x10x512x512_S_d0_1_2_3 : S8x10x512x512.ReducesTo [0, 1, 2, 3] S_
  h_S_ : 0 < S_.numel

variable [Facts]

def fn {F : FTy → Type} [FloatOps F] (main_arg0 : FVec F S8x10x512x512 .f32) (main_arg1 : IVec S8x512x512 32) : IVec S_ 1 :=
  let main_v0 : FVec F S8x10x512x512 .f32 := Host.absf main_arg0
  let main_cst : FVec F S_ .f32 := constant S_ .f32 0x7F800000#32
  let main_v1 : FVec F S8x10x512x512 .f32 := broadcastInDim S8x10x512x512 ![] bcast_S_S8x10x512x512 main_cst
  let main_v2 : IVec S8x10x512x512 1 := cmpf .olt main_v0 main_v1
  let main_c : IVec S_ 1 := constantI S_ 1 1#1
  let main_v3 : IVec S_ 1 := (fun x v => Host.reduce IntOp.andi x v reducesTo_S8x10x512x512_S_d0_1_2_3 h_S_) main_v2 main_c
  main_v3
-- ==== Kernel.lean ====
abbrev S8x10x512x512 : Shape := ⟨4, ![8, 10, 512, 512]⟩
abbrev S8x512x512 : Shape := ⟨3, ![8, 512, 512]⟩
abbrev S2x1x62 : Shape := ⟨3, ![2, 1, 62]⟩
abbrev S1x10x512x512 : Shape := ⟨4, ![1, 10, 512, 512]⟩
abbrev S1x512x512 : Shape := ⟨3, ![1, 512, 512]⟩
abbrev S1x1x62 : Shape := ⟨3, ![1, 1, 62]⟩
abbrev S1x62 : Shape := ⟨2, ![1, 62]⟩
abbrev S512x512 : Shape := ⟨2, ![512, 512]⟩
abbrev S1x1x512x512 : Shape := ⟨4, ![1, 1, 512, 512]⟩
abbrev S1 : Shape := ⟨1, ![1]⟩
abbrev S1x1x1 : Shape := ⟨3, ![1, 1, 1]⟩
abbrev S10 : Shape := ⟨1, ![10]⟩
abbrev S62 : Shape := ⟨1, ![62]⟩
abbrev S2x62 : Shape := ⟨2, ![2, 62]⟩
abbrev S_ : Shape := ⟨0, ![]⟩

abbrev nBuf : Space → Nat
  | .hbm => 65
  | .vmem => 7
  | .smem => 0
  | _ => 0

abbrev bufTy : (tb : Table) → Fin (tcTables nBuf tb) → BufTy
  | .hbm, ⟨0, _⟩ => ⟨S8x10x512x512, .f32⟩
  | .hbm, ⟨1, _⟩ => ⟨S8x512x512, .i32⟩
  | .hbm, ⟨2, _⟩ => ⟨S2x1x62, .f32⟩
  | .hbm, ⟨3, _⟩ => ⟨S2x62, .f32⟩
  | .hbm, ⟨4, _⟩ => ⟨S_, .f32⟩
  | .hbm, ⟨5, _⟩ => ⟨S62, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S10, .f32⟩
  | .hbm, ⟨11, _⟩ => ⟨S10, .f32⟩
  | .hbm, ⟨12, _⟩ => ⟨S10, .f32⟩
  | .hbm, ⟨13, _⟩ => ⟨S10, .f32⟩
  | .hbm, ⟨14, _⟩ => ⟨S10, .f32⟩
  | .hbm, ⟨15, _⟩ => ⟨S10, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S_, .f32⟩
  | .hbm, ⟨23, _⟩ => ⟨S10, .f32⟩
  | .hbm, ⟨24, _⟩ => ⟨S10, .f32⟩
  | .hbm, ⟨25, _⟩ => ⟨S10, .f32⟩
  | .hbm, ⟨26, _⟩ => ⟨S_, .f32⟩
  | .hbm, ⟨27, _⟩ => ⟨S10, .f32⟩
  | .hbm, ⟨28, _⟩ => ⟨S10, .f32⟩
  | .hbm, ⟨29, _⟩ => ⟨S10, .f32⟩
  | .hbm, ⟨30, _⟩ => ⟨S_, .f32⟩
  | .hbm, ⟨31, _⟩ => ⟨S10, .f32⟩
  | .hbm, ⟨32, _⟩ => ⟨S10, .f32⟩
  | .hbm, ⟨33, _⟩ => ⟨S10, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S10, .f32⟩
  | .hbm, ⟨42, _⟩ => ⟨S10, .f32⟩
  | .hbm, ⟨43, _⟩ => ⟨S_, .f32⟩
  | .hbm, ⟨44, _⟩ => ⟨S10, .f32⟩
  | .hbm, ⟨45, _⟩ => ⟨S10, .f32⟩
  | .hbm, ⟨46, _⟩ => ⟨S10, .f32⟩
  | .hbm, ⟨47, _⟩ => ⟨S_, .f32⟩
  | .hbm, ⟨48, _⟩ => ⟨S10, .f32⟩
  | .hbm, ⟨49, _⟩ => ⟨S10, .f32⟩
  | .hbm, ⟨50, _⟩ => ⟨S10, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S1x10x512x512, .f32⟩
  | .local _ .vmem, ⟨1, _⟩ => ⟨S1x10x512x512, .f32⟩
  | .local _ .vmem, ⟨2, _⟩ => ⟨S1x512x512, .i32⟩
  | .local _ .vmem, ⟨3, _⟩ => ⟨S1x512x512, .i32⟩
  | .local _ .vmem, ⟨4, _⟩ => ⟨S1x1x62, .f32⟩
  | .local _ .vmem, ⟨5, _⟩ => ⟨S1x1x62, .f32⟩
  | .local _ .vmem, ⟨6, _⟩ => ⟨S1x62, .f32⟩
  | _, _ => ⟨S8x10x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_cst_13 : Ref sig .tc := ⟨.hbm, 55, rfl⟩
abbrev main_v39 : Ref sig .tc := ⟨.hbm, 56, rfl⟩
abbrev main_cst_14 : Ref sig .tc := ⟨.hbm, 57, rfl⟩
abbrev main_v40 : Ref sig .tc := ⟨.hbm, 58, rfl⟩
abbrev main_cst_15 : Ref sig .tc := ⟨.hbm, 59, rfl⟩
abbrev main_v41 : Ref sig .tc := ⟨.hbm, 60, rfl⟩
abbrev main_v42 : Ref sig .tc := ⟨.hbm, 61, rfl⟩
abbrev main_cst_16 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x62 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x62_S1x62_0_0 : ∀ a, (![0, 0] : Fin 2 → Nat) a + S1x62.size a ≤ S1x62.size a
  h_S1x62 : 0 < S1x62.numel
  shapeCasts_S1x62_S1x62 : S1x62.ShapeCasts S1x62
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  natLt_1_32 : 1 < 32
  iota_S512x512_d0_w32 : S512x512.Iotas .tc 32 [0]
  iota_S512x512_d1_w32 : S512x512.Iotas .tc 32 [1]
  inb_S1x10x512x512_S1x1x512x512_0_0_0_0 : ∀ a, (![0, 0, 0, 0] : Fin 4 → Nat) a + S1x1x512x512.size a ≤ S1x10x512x512.size a
  h_S1x1x512x512 : 0 < S1x1x512x512.numel
  shapeCasts_S1x1x512x512_S512x512 : S1x1x512x512.ShapeCasts S512x512
  inb_S1x10x512x512_S1x1x512x512_0_1_0_0 : ∀ a, (![0, 1, 0, 0] : Fin 4 → Nat) a + S1x1x512x512.size a ≤ S1x10x512x512.size a
  inb_S1x10x512x512_S1x1x512x512_0_2_0_0 : ∀ a, (![0, 2, 0, 0] : Fin 4 → Nat) a + S1x1x512x512.size a ≤ S1x10x512x512.size a
  inb_S1x10x512x512_S1x1x512x512_0_3_0_0 : ∀ a, (![0, 3, 0, 0] : Fin 4 → Nat) a + S1x1x512x512.size a ≤ S1x10x512x512.size a
  inb_S1x10x512x512_S1x1x512x512_0_4_0_0 : ∀ a, (![0, 4, 0, 0] : Fin 4 → Nat) a + S1x1x512x512.size a ≤ S1x10x512x512.size a
  inb_S1x10x512x512_S1x1x512x512_0_5_0_0 : ∀ a, (![0, 5, 0, 0] : Fin 4 → Nat) a + S1x1x512x512.size a ≤ S1x10x512x512.size a
  inb_S1x10x512x512_S1x1x512x512_0_6_0_0 : ∀ a, (![0, 6, 0, 0] : Fin 4 → Nat) a + S1x1x512x512.size a ≤ S1x10x512x512.size a
  inb_S1x10x512x512_S1x1x512x512_0_7_0_0 : ∀ a, (![0, 7, 0, 0] : Fin 4 → Nat) a + S1x1x512x512.size a ≤ S1x10x512x512.size a
  inb_S1x10x512x512_S1x1x512x512_0_8_0_0 : ∀ a, (![0, 8, 0, 0] : Fin 4 → Nat) a + S1x1x512x512.size a ≤ S1x10x512x512.size a
  inb_S1x10x512x512_S1x1x512x512_0_9_0_0 : ∀ a, (![0, 9, 0, 0] : Fin 4 → Nat) a + S1x1x512x512.size a ≤ S1x10x512x512.size a
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  rotates_S512x512_d1 : S512x512.Rotates 1 none
  rotates_S512x512_d0 : S512x512.Rotates 0 none
  concatenates_S1_S1_S1_S1_S1_S1_S1_S1_S1_S1_S10_d0 : Shape.Concatenates [S1, S1, S1, S1, S1, S1, S1, S1, S1, S1] S10 0
  concatenates_S1_S1_S10_S10_S10_S10_S10_S10_S62_d0 : Shape.Concatenates [S1, S1, S10, S10, S10, S10, S10, S10] S62 0
  shapeCasts_S62_S1x62 : S62.ShapeCasts S1x62
  shapeCasts_S1x62_S1x1x62 : S1x62.ShapeCasts S1x1x62
  inb_S1x1x62_S1x1x62_0_0_0 : ∀ a, (![0, 0, 0] : Fin 3 → Nat) a + S1x1x62.size a ≤ S1x1x62.size a
  h_S1x1x62 : 0 < S1x1x62.numel
  shapeCasts_S2x1x62_S2x62 : S2x1x62.ShapeCasts S2x62
  reducesTo_S2x62_S62_d0 : S2x62.ReducesTo [0] S62
  h_S_ : 0 < S_.numel
  slices_S62_S1_0 : S62.Slices ![0] S1
  shapeCasts_S1_S_ : S1.ShapeCasts S_
  slices_S62_S1_1 : S62.Slices ![1] S1
  slices_S62_S10_2 : S62.Slices ![2] S10
  slices_S62_S10_12 : S62.Slices ![12] S10
  slices_S62_S10_22 : S62.Slices ![22] S10
  slices_S62_S10_32 : S62.Slices ![32] S10
  slices_S62_S10_42 : S62.Slices ![42] S10
  slices_S62_S10_52 : S62.Slices ![52] S10
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10x512x512.size a ≤ S8x10x512x512.size a
  hwx0_0 : ∀ i : grid0.Coords, EltTy.bits .f32 = 32 ∨ (Rect.block (s := S8x10x512x512) S1x10x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .i32 = 32 ∨ (Rect.block (s := S8x512x512) S1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x62.size a ≤ S2x1x62.size a
  hwx0_2 : ∀ i : grid0.Coords, EltTy.bits .f32 = 32 ∨ (Rect.block (s := S2x1x62) S1x1x62.size (cc0_transform_2 i) (hinb0_2 i)).WholeWords (EltTy.packing .f32)

variable [Facts₀]

abbrev win0_0 : Pipeline.Window sig grid0 :=
  Pipeline.Window.ofSpec (Memref.whole main_arg0) S1x10x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x62.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x10x512x512 : Shape := ⟨4, ![8, 10, 512, 512]⟩
abbrev S8x512x512 : Shape := ⟨3, ![8, 512, 512]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x514x514 : Shape := ⟨3, ![8, 514, 514]⟩
abbrev S1x10x1x1 : Shape := ⟨4, ![1, 10, 1, 1]⟩
abbrev S10 : Shape := ⟨1, ![10]⟩

abbrev nBuf : Space → Nat
  | .hbm => 214
  | .vmem => 0
  | .smem => 0
  | _ => 0

abbrev hbmTy0_0 (i : Nat) : BufTy := match i % 128 with
  | 0 => ⟨S8x10x512x512, .f32⟩
  | 1 => ⟨S8x512x512, .i32⟩
  | 2 => ⟨S_, .i32⟩
  | 3 => ⟨S8x512x512, .i32⟩
  | 4 => ⟨S8x512x512, .i1⟩
  | 5 => ⟨S8x512x512, .f32⟩
  | 6 => ⟨S_, .f32⟩
  | 7 => ⟨S8x512x512, .f32⟩
  | 8 => ⟨S_, .f32⟩
  | 9 => ⟨S8x512x512, .f32⟩
  | 10 => ⟨S8x512x512, .f32⟩
  | 11 => ⟨S8x1x512x512, .f32⟩
  | 12 => ⟨S8x10x512x512, .f32⟩
  | 13 => ⟨S8x10x512x512, .f32⟩
  | 14 => ⟨S8x10x512x512, .f32⟩
  | 15 => ⟨S_, .f32⟩
  | 16 => ⟨S8x512x512, .f32⟩
  | 17 => ⟨S8x1x512x512, .f32⟩
  | 18 => ⟨S8x1x512x512, .f32⟩
  | 19 => ⟨S8x10x512x512, .f32⟩
  | 20 => ⟨S8x10x512x512, .f32⟩
  | 21 => ⟨S_, .i32⟩
  | 22 => ⟨S_, .i32⟩
  | 23 => ⟨S_, .i32⟩
  | 24 => ⟨S8x512x512, .i32⟩
  | 25 => ⟨S8x512x512, .i32⟩
  | 26 => ⟨S_, .i32⟩
  | 27 => ⟨S8x512x512, .i32⟩
  | 28 => ⟨S8x512x512, .i32⟩
  | 29 => ⟨S8x1x512x512, .i32⟩
  | 30 => ⟨S_, .i32⟩
  | 31 => ⟨S8x1x512x512, .i32⟩
  | 32 => ⟨S8x1x512x512, .i1⟩
  | 33 => ⟨S_, .i32⟩
  | 34 => ⟨S8x1x512x512, .i32⟩
  | 35 => ⟨S8x1x512x512, .i32⟩
  | 36 => ⟨S8x1x512x512, .i32⟩
  | 37 => ⟨S8x1x512x512x1, .i32⟩
  | 38 => ⟨S1, .i32⟩
  | 39 => ⟨S_, .i32⟩
  | 40 => ⟨S8x1x512x512x1, .i32⟩
  | 41 => ⟨S8x1x512x512x1, .i1⟩
  | 42 => ⟨S1x1x1x1x1, .i32⟩
  | 43 => ⟨S8x1x512x512x1, .i32⟩
  | 44 => ⟨S8x1x512x512x1, .i1⟩
  | 45 => ⟨S8x1x512x512x1, .i1⟩
  | 46 => ⟨S_, .i1⟩
  | 47 => ⟨S8x1x512x512, .i1⟩
  | 48 => ⟨S8x1x512x512, .f32⟩
  | 49 => ⟨S_, .f32⟩
  | 50 => ⟨S8x1x512x512, .f32⟩
  | 51 => ⟨S8x1x512x512, .f32⟩
  | 52 => ⟨S8x512x512, .f32⟩
  | 53 => ⟨S8x512x512, .f32⟩
  | 54 => ⟨S_, .f32⟩
  | 55 => ⟨S_, .f32⟩
  | 56 => ⟨S8x512x512, .f32⟩
  | 57 => ⟨S8x512x512, .f32⟩
  | 58 => ⟨S8x512x512, .f32⟩
  | 59 => ⟨S8x512x512, .f32⟩
  | 60 => ⟨S_, .f32⟩
  | 61 => ⟨S8x512x512, .f32⟩
  | 62 => ⟨S8x512x512, .f32⟩
  | 63 => ⟨S_, .f32⟩
  | 64 => ⟨S8x512x512, .f32⟩
  | 65 => ⟨S8x512x512, .f32⟩
  | 66 => ⟨S_, .f32⟩
  | 67 => ⟨S8x512x512, .f32⟩
  | 68 => ⟨S8x512x512, .f32⟩
  | 69 => ⟨S8x512x512, .f32⟩
  | 70 => ⟨S_, .i32⟩
  | 71 => ⟨S_, .f32⟩
  | 72 => ⟨S8x514x514, .f32⟩
  | 73 => ⟨S8x512x512, .f32⟩
  | 74 => ⟨S8x512x512, .f32⟩
  | 75 => ⟨S8x512x512, .f32⟩
  | 76 => ⟨S8x512x512, .f32⟩
  | 77 => ⟨S8x512x512, .f32⟩
  | 78 => ⟨S8x512x512, .f32⟩
  | 79 => ⟨S8x512x512, .f32⟩
  | 80 => ⟨S8x512x512, .f32⟩
  | 81 => ⟨S8x512x512, .f32⟩
  | 82 => ⟨S_, .f32⟩
  | 83 => ⟨S8x512x512, .f32⟩
  | 84 => ⟨S8x512x512, .i1⟩
  | 85 => ⟨S8x512x512, .i1⟩
  | 86 => ⟨S8x512x512, .i1⟩
  | 87 => ⟨S_, .f32⟩
  | 88 => ⟨S_, .f32⟩
  | 89 => ⟨S8x512x512, .f32⟩
  | 90 => ⟨S8x512x512, .f32⟩
  | 91 => ⟨S8x512x512, .f32⟩
  | 92 => ⟨S8x512x512, .f32⟩
  | 93 => ⟨S8x512x512, .f32⟩
  | 94 => ⟨S8x512x512, .f32⟩
  | 95 => ⟨S_, .f32⟩
  | 96 => ⟨S_, .f32⟩
  | 97 => ⟨S8x512x512, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S8x512x512, .f32⟩
  | 105 => ⟨S_, .f32⟩
  | 106 => ⟨S8x512x512, .f32⟩
  | 107 => ⟨S8x512x512, .f32⟩
  | 108 => ⟨S8x1x512x512, .f32⟩
  | 109 => ⟨S8x10x512x512, .f32⟩
  | 110 => ⟨S8x10x512x512, .f32⟩
  | 111 => ⟨S8x10x512x512, .f32⟩
  | 112 => ⟨S_, .f32⟩
  | 113 => ⟨S8x512x512, .f32⟩
  | 114 => ⟨S8x1x512x512, .f32⟩
  | 115 => ⟨S8x10x512x512, .f32⟩
  | 116 => ⟨S8x10x512x512, .f32⟩
  | 117 => ⟨S8x1x512x512, .i32⟩
  | 118 => ⟨S1x10x1x1, .i32⟩
  | 119 => ⟨S8x10x512x512, .i32⟩
  | 120 => ⟨S8x10x512x512, .i32⟩
  | 121 => ⟨S8x10x512x512, .i1⟩
  | 122 => ⟨S8x10x512x512, .f32⟩
  | 123 => ⟨S8x10x512x512, .f32⟩
  | 124 => ⟨S_, .f32⟩
  | 125 => ⟨S10, .f32⟩
  | 126 => ⟨S_, .f32⟩
  | 127 => ⟨S8x10x512x512, .f32⟩
  | _ => ⟨S8x10x512x512, .f32⟩

abbrev hbmTy0_1 (i : Nat) : BufTy := match i % 128 with
  | 0 => ⟨S8x10x512x512, .f32⟩
  | 1 => ⟨S8x10x512x512, .f32⟩
  | 2 => ⟨S_, .f32⟩
  | 3 => ⟨S10, .f32⟩
  | 4 => ⟨S_, .f32⟩
  | 5 => ⟨S8x10x512x512, .f32⟩
  | 6 => ⟨S8x10x512x512, .f32⟩
  | 7 => ⟨S8x10x512x512, .f32⟩
  | 8 => ⟨S_, .f32⟩
  | 9 => ⟨S10, .f32⟩
  | 10 => ⟨S_, .f32⟩
  | 11 => ⟨S10, .f32⟩
  | 12 => ⟨S10, .f32⟩
  | 13 => ⟨S_, .f32⟩
  | 14 => ⟨S10, .f32⟩
  | 15 => ⟨S10, .f32⟩
  | 16 => ⟨S10, .f32⟩
  | 17 => ⟨S_, .f32⟩
  | 18 => ⟨S10, .f32⟩
  | 19 => ⟨S10, .f32⟩
  | 20 => ⟨S10, .f32⟩
  | 21 => ⟨S_, .f32⟩
  | 22 => ⟨S10, .f32⟩
  | 23 => ⟨S10, .f32⟩
  | 24 => ⟨S10, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S8x10x512x512, .f32⟩
  | 39 => ⟨S8x10x512x512, .f32⟩
  | 40 => ⟨S_, .f32⟩
  | 41 => ⟨S_, .f32⟩
  | 42 => ⟨S8x10x512x512, .f32⟩
  | 43 => ⟨S8x10x512x512, .f32⟩
  | 44 => ⟨S_, .f32⟩
  | 45 => ⟨S_, .f32⟩
  | 46 => ⟨S8x10x512x512, .f32⟩
  | 47 => ⟨S8x10x512x512, .f32⟩
  | 48 => ⟨S_, .f32⟩
  | 49 => ⟨S_, .f32⟩
  | 50 => ⟨S8x10x512x512, .f32⟩
  | 51 => ⟨S8x10x512x512, .f32⟩
  | 52 => ⟨S8x1x512x512, .f32⟩
  | 53 => ⟨S8x10x512x512, .f32⟩
  | 54 => ⟨S8x10x512x512, .f32⟩
  | 55 => ⟨S8x10x512x512, .f32⟩
  | 56 => ⟨S_, .f32⟩
  | 57 => ⟨S10, .f32⟩
  | 58 => ⟨S8x10x512x512, .f32⟩
  | 59 => ⟨S8x10x512x512, .f32⟩
  | 60 => ⟨S_, .f32⟩
  | 61 => ⟨S10, .f32⟩
  | 62 => ⟨S8x10x512x512, .f32⟩
  | 63 => ⟨S8x10x512x512, .f32⟩
  | 64 => ⟨S_, .f32⟩
  | 65 => ⟨S10, .f32⟩
  | 66 => ⟨S10, .f32⟩
  | 67 => ⟨S_, .f32⟩
  | 68 => ⟨S10, .f32⟩
  | 69 => ⟨S10, .f32⟩
  | 70 => ⟨S_, .f32⟩
  | 71 => ⟨S10, .f32⟩
  | 72 => ⟨S10, .f32⟩
  | 73 => ⟨S_, .f32⟩
  | 74 => ⟨S10, .f32⟩
  | 75 => ⟨S10, .f32⟩
  | 76 => ⟨S10, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | _ => ⟨S8x10x512x512, .f32⟩

abbrev hbmTy (i : Nat) : BufTy := match i / 128 with
  | 0 => hbmTy0_0 i
  | 1 => hbmTy0_1 i
  | _ => ⟨S8x10x512x512, .f32⟩

abbrev bufTy : (tb : Table) → Fin (tcTables nBuf tb) → BufTy
  | .hbm, ⟨i, _⟩ => hbmTy i
  | _, _ => ⟨S8x10x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v3 : Ref sig .tc := ⟨.hbm, 20, rfl⟩
abbrev main_c_0 : Ref sig .tc := ⟨.hbm, 21, rfl⟩
abbrev main_c_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v4 : Ref sig .tc := ⟨.hbm, 28, rfl⟩
abbrev main_v5 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst_2 : Ref sig .tc := ⟨.hbm, 60, rfl⟩
abbrev main_v12 : Ref sig .tc := ⟨.hbm, 61, rfl⟩
abbrev main_v13 : Ref sig .tc := ⟨.hbm, 62, rfl⟩
abbrev main_cst_3 : Ref sig .tc := ⟨.hbm, 63, rfl⟩
abbrev main_v14 : Ref sig .tc := ⟨.hbm, 64, rfl⟩
abbrev main_v15 : Ref sig .tc := ⟨.hbm, 65, rfl⟩
abbrev main_cst_4 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_c_5 : Ref sig .tc := ⟨.hbm, 70, rfl⟩
abbrev main_call4_v0 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_cst_6 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_cst_7 : Ref sig .tc := ⟨.hbm, 87, rfl⟩
abbrev main_cst_8 : Ref sig .tc := ⟨.hbm, 88, rfl⟩
abbrev main_call5_v0 : Ref sig .tc := ⟨.hbm, 89, rfl⟩
abbrev main_call5_v1 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_9 : Ref sig .tc := ⟨.hbm, 95, rfl⟩
abbrev main_v37 : Ref sig .tc := ⟨.hbm, 96, rfl⟩
abbrev main_v38 : Ref sig .tc := ⟨.hbm, 97, rfl⟩
abbrev main_cst_10 : Ref sig .tc := ⟨.hbm, 98, rfl⟩
abbrev main_v39 : Ref sig .tc := ⟨.hbm, 99, rfl⟩
abbrev main_cst_11 : Ref sig .tc := ⟨.hbm, 100, rfl⟩
abbrev main_v40 : Ref sig .tc := ⟨.hbm, 101, rfl⟩
abbrev main_v41 : Ref sig .tc := ⟨.hbm, 102, rfl⟩
abbrev main_cst_12 : Ref sig .tc := ⟨.hbm, 103, rfl⟩
abbrev main_v42 : Ref sig .tc := ⟨.hbm, 104, rfl⟩
abbrev main_cst_13 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_14 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v53 : Ref sig .tc := ⟨.hbm, 122, rfl⟩
abbrev main_v54 : Ref sig .tc := ⟨.hbm, 123, rfl⟩
abbrev main_cst_15 : Ref sig .tc := ⟨.hbm, 124, rfl⟩
abbrev main_v55 : Ref sig .tc := ⟨.hbm, 125, rfl⟩
abbrev main_cst_16 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst_17 : Ref sig .tc := ⟨.hbm, 130, rfl⟩
abbrev main_v59 : Ref sig .tc := ⟨.hbm, 131, rfl⟩
abbrev main_cst_18 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_cst_19 : Ref sig .tc := ⟨.hbm, 136, rfl⟩
abbrev main_v63 : Ref sig .tc := ⟨.hbm, 137, rfl⟩
abbrev main_cst_20 : Ref sig .tc := ⟨.hbm, 138, rfl⟩
abbrev main_v64 : Ref sig .tc := ⟨.hbm, 139, rfl⟩
abbrev main_v65 : Ref sig .tc := ⟨.hbm, 140, rfl⟩
abbrev main_cst_21 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_cst_22 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_cst_23 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_cst_24 : Ref sig .tc := ⟨.hbm, 153, rfl⟩
abbrev main_v75 : Ref sig .tc := ⟨.hbm, 154, rfl⟩
abbrev main_cst_25 : Ref sig .tc := ⟨.hbm, 155, rfl⟩
abbrev main_v76 : Ref sig .tc := ⟨.hbm, 156, rfl⟩
abbrev main_cst_26 : Ref sig .tc := ⟨.hbm, 157, rfl⟩
abbrev main_v77 : Ref sig .tc := ⟨.hbm, 158, rfl⟩
abbrev main_cst_27 : Ref sig .tc := ⟨.hbm, 159, rfl⟩
abbrev main_v78 : Ref sig .tc := ⟨.hbm, 160, rfl⟩
abbrev main_cst_28 : Ref sig .tc := ⟨.hbm, 161, rfl⟩
abbrev main_v79 : Ref sig .tc := ⟨.hbm, 162, rfl⟩
abbrev main_v80 : Ref sig .tc := ⟨.hbm, 163, rfl⟩
abbrev main_cst_29 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_cst_30 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_cst_31 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_cst_32 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_cst_33 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_cst_34 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_cst_35 : Ref sig .tc := ⟨.hbm, 192, rfl⟩
abbrev main_v103 : Ref sig .tc := ⟨.hbm, 193, rfl⟩
abbrev main_v104 : Ref sig .tc := ⟨.hbm, 194, rfl⟩
abbrev main_cst_36 : Ref sig .tc := ⟨.hbm, 195, rfl⟩
abbrev main_v105 : Ref sig .tc := ⟨.hbm, 196, rfl⟩
abbrev main_v106 : Ref sig .tc := ⟨.hbm, 197, rfl⟩
abbrev main_cst_37 : Ref sig .tc := ⟨.hbm, 198, rfl⟩
abbrev main_v107 : Ref sig .tc := ⟨.hbm, 199, rfl⟩
abbrev main_v108 : Ref sig .tc := ⟨.hbm, 200, rfl⟩
abbrev main_cst_38 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_cst_39 : Ref sig .tc := ⟨.hbm, 205, rfl⟩
abbrev main_v112 : Ref sig .tc := ⟨.hbm, 206, rfl⟩
abbrev main_cst_40 : Ref sig .tc := ⟨.hbm, 207, rfl⟩
abbrev main_v113 : Ref sig .tc := ⟨.hbm, 208, rfl⟩
abbrev main_cst_41 : Ref sig .tc := ⟨.hbm, 209, rfl⟩
abbrev main_v114 : Ref sig .tc := ⟨.hbm, 210, rfl⟩
abbrev main_cst_42 : Ref sig .tc := ⟨.hbm, 211, rfl⟩
abbrev main_v115 : Ref sig .tc := ⟨.hbm, 212, rfl⟩
abbrev main_v116 : Ref sig .tc := ⟨.hbm, 213, rfl⟩

abbrev nD : Nat := 1
abbrev τ : Topo := Topo.v7x

variable {F : FTy → Type} [FloatOps F]

class Facts₀ : Prop where
  bcast_S_S8x512x512 : S_.BroadcastsInDim S8x512x512 (![] : Fin 0 → Fin S8x512x512.rank)
  reducesTo_S8x10x512x512_S8x512x512_d1 : S8x10x512x512.ReducesTo [1] S8x512x512
  h_S_ : 0 < S_.numel
  bcast_S8x512x512_S8x1x512x512_0_2_3 : S8x512x512.BroadcastsInDim S8x1x512x512 (![0, 2, 3] : Fin 3 → Fin S8x1x512x512.rank)
  bcast_S8x1x512x512_S8x10x512x512_0_1_2_3 : S8x1x512x512.BroadcastsInDim S8x10x512x512 (![0, 1, 2, 3] : Fin 4 → Fin S8x10x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  pads_S8x512x512_S8x514x514_000_110_110 : S8x512x512.Pads (![0, 1, 1] : Fin 3 → Nat) ![0, 1, 1] ![0, 0, 0] S8x514x514
  slices_S8x514x514_S8x512x512_0_1_1 : S8x514x514.Slices ![0, 1, 1] S8x512x512
  slices_S8x514x514_S8x512x512_0_0_1 : S8x514x514.Slices ![0, 0, 1] S8x512x512
  slices_S8x514x514_S8x512x512_0_2_1 : S8x514x514.Slices ![0, 2, 1] S8x512x512
  slices_S8x514x514_S8x512x512_0_1_0 : S8x514x514.Slices ![0, 1, 0] S8x512x512
  slices_S8x514x514_S8x512x512_0_1_2 : S8x514x514.Slices ![0, 1, 2] S8x512x512
  reducesTo_S8x512x512_S_d0_1_2 : S8x512x512.ReducesTo [0, 1, 2] S_
  bcast_S1x10x1x1_S8x10x512x512_0_1_2_3 : S1x10x1x1.BroadcastsInDim S8x10x512x512 (![0, 1, 2, 3] : Fin 4 → Fin S8x10x512x512.rank)
  reducesTo_S8x10x512x512_S10_d0_2_3 : S8x10x512x512.ReducesTo [0, 2, 3] S10
  bcast_S_S8x10x512x512 : S_.BroadcastsInDim S8x10x512x512 (![] : Fin 0 → Fin S8x10x512x512.rank)
  bcast_S_S10 : S_.BroadcastsInDim S10 (![] : Fin 0 → Fin S10.rank)
  reducesTo_S10_S_d0 : S10.ReducesTo [0] S_
  bcast_S_S_ : S_.BroadcastsInDim S_ (![] : Fin 0 → Fin S_.rank)
  reduceWindows_S8x10x512x512_S8x10x512x512_w1s1p0_0_w1s1p0_0_w3s1p1_1_w3s1p1_1 : S8x10x512x512.ReduceWindows (![1, 1, 3, 3] : Fin 4 → Nat) ![1, 1, 1, 1] ![0, 0, 1, 1] ![0, 0, 1, 1] S8x10x512x512
  gather_S8x10x512x512_S8x1x512x512x1_S8x1x512x512_n_1_023_023_1_4_1111_wf : GatherDims.WF S8x10x512x512 S8x1x512x512x1 S8x1x512x512 [] [1] [0, 2, 3] [1] [0, 2, 3] 4 ![1, 1, 1, 1]

variable [Facts₀]

def gather_S8x10x512x512_S8x1x512x512x1_S8x1x512x512_n_1_023_023_1_4_1111 : GatherDims S8x10x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x10x512x512_S8x1x512x512x1_S8x1x512x512_n_1_023_023_1_4_1111_wf

class Facts : Prop extends Facts₀ where

variable [Facts]
-- ==== Proof.RefRunOps.lean ====
import proofs.«401271_j53171695125135_2_alg».proof.Proof.RefRead
import Idealize.ShloMosaic.Lib.StableHlo.Run

/-! The first 90 of the reference's 212 host operations (the list `ops` of the run module), in order, as four
    consecutive stretches: `ops1` is operations 0 … 20, `ops2` 21 … 49, `ops3` 50 … 68, `ops4` 69 … 89. -/

noncomputable section

namespace Cert.SegLoss.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 0 … 20. -/
abbrev ops1 : List (HloOp τ sig (Elt F)) :=
  [ nullary main_c (constantI S_ 32 255#32),
    unary main_c main_v0 (broadcastInDim S8x512x512 ![] bcast_S_S8x512x512 : (⟨S_, .i32⟩ : BufTy).Contents (Elt F) → (⟨S8x512x512, .i32⟩ : BufTy).Contents (Elt F)),
    binary main_arg1 main_v0 main_v1 (cmpi .ne : (⟨S8x512x512, .i32⟩ : BufTy).Contents (Elt F) → (⟨S8x512x512, .i32⟩ : BufTy).Contents (Elt F) → (⟨S8x512x512, .i1⟩ : BufTy).Contents (Elt F)),
    unary main_v1 main_v2 (uitofp (F := F) .f32 : (⟨S8x512x512, .i1⟩ : BufTy).Contents (Elt F) → (⟨S8x512x512, .f32⟩ : BufTy).Contents (Elt F)),
    TRef.nullary (TRef.of (T := ⟨S_, .f32⟩) main_call0_cst) (constant S_ .f32 0xFF800000#32),
    TRef.binary (TRef.of (T := ⟨S8x10x512x512, .f32⟩) main_arg0) (TRef.of (T := ⟨S_, .f32⟩) main_call0_cst) (TRef.of (T := ⟨S8x512x512, .f32⟩) main_call0_v0) (fun x v => Host.reduce FloatOps.maximumf x v reducesTo_S8x10x512x512_S8x512x512_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8x512x512, .f32⟩) main_call0_v1) (broadcastInDim S8x512x512 ![] bcast_S_S8x512x512),
    TRef.binary (TRef.of (T := ⟨S8x512x512, .f32⟩) main_call0_v1) (TRef.of (T := ⟨S8x512x512, .f32⟩) main_call0_v0) (TRef.of (T := ⟨S8x512x512, .f32⟩) main_call0_v2) maximumf,
    TRef.unary (TRef.of (T := ⟨S8x512x512, .f32⟩) main_call0_v2) (TRef.of (T := ⟨S8x1x512x512, .f32⟩) main_call0_v3) (broadcastInDim S8x1x512x512 ![0, 2, 3] bcast_S8x512x512_S8x1x512x512_0_2_3),
    TRef.unary (TRef.of (T := ⟨S8x1x512x512, .f32⟩) main_call0_v3) (TRef.of (T := ⟨S8x10x512x512, .f32⟩) main_call0_v4) (broadcastInDim S8x10x512x512 ![0, 1, 2, 3] bcast_S8x1x512x512_S8x10x512x512_0_1_2_3),
    TRef.binary (TRef.of (T := ⟨S8x10x512x512, .f32⟩) main_arg0) (TRef.of (T := ⟨S8x10x512x512, .f32⟩) main_call0_v4) (TRef.of (T := ⟨S8x10x512x512, .f32⟩) main_call0_v5) subf,
    TRef.unary (TRef.of (T := ⟨S8x10x512x512, .f32⟩) main_call0_v5) (TRef.of (T := ⟨S8x10x512x512, .f32⟩) main_call0_v6) Host.exp,
    TRef.nullary (TRef.of (T := ⟨S_, .f32⟩) main_call0_cst_1) (constant S_ .f32 0x00000000#32),
    TRef.binary (TRef.of (T := ⟨S8x10x512x512, .f32⟩) main_call0_v6) (TRef.of (T := ⟨S_, .f32⟩) main_call0_cst_1) (TRef.of (T := ⟨S8x512x512, .f32⟩) main_call0_v7) (fun x v => Host.reduceAdd x v reducesTo_S8x10x512x512_S8x512x512_d1 h_S_),
    TRef.unary (TRef.of (T := ⟨S8x512x512, .f32⟩) main_call0_v7) (TRef.of (T := ⟨S8x1x512x512, .f32⟩) main_call0_v8) (broadcastInDim S8x1x512x512 ![0, 2, 3] bcast_S8x512x512_S8x1x512x512_0_2_3),
    TRef.unary (TRef.of (T := ⟨S8x1x512x512, .f32⟩) main_call0_v8) (TRef.of (T := ⟨S8x1x512x512, .f32⟩) main_call0_v9) Host.log,
    TRef.unary (TRef.of (T := ⟨S8x1x512x512, .f32⟩) main_call0_v9) (TRef.of (T := ⟨S8x10x512x512, .f32⟩) main_call0_v10) (broadcastInDim S8x10x512x512 ![0, 1, 2, 3] bcast_S8x1x512x512_S8x10x512x512_0_1_2_3),
    TRef.binary (TRef.of (T := ⟨S8x10x512x512, .f32⟩) main_call0_v5) (TRef.of (T := ⟨S8x10x512x512, .f32⟩) main_call0_v10) (TRef.of (T := ⟨S8x10x512x512, .f32⟩) main_v3) subf,
    nullary main_c_0 (constantI S_ 32 0#32),
    nullary main_c_1 (constantI S_ 32 9#32) ]

/-- Operations 21 … 49. -/
abbrev ops2 : List (HloOp τ sig (Elt F)) :=
  [ TRef.unary (TRef.of (T := ⟨S_, .i32⟩) main_c_0) (TRef.of (T := ⟨S_, .i32⟩) main_call1_v0) id,
    TRef.unary (TRef.of (T := ⟨S_, .i32⟩) main_call1_v0) (TRef.of (T := ⟨S8x512x512, .i32⟩) main_call1_v1) (broadcastInDim S8x512x512 ![] bcast_S_S8x512x512),
    TRef.binary (TRef.of (T := ⟨S8x512x512, .i32⟩) main_call1_v1) (TRef.of (T := ⟨S8x512x512, .i32⟩) main_arg1) (TRef.of (T := ⟨S8x512x512, .i32⟩) main_call1_v2) maxsi,
    TRef.unary (TRef.of (T := ⟨S_, .i32⟩) main_c_1) (TRef.of (T := ⟨S_, .i32⟩) main_call1_v3) id,
    TRef.unary (TRef.of (T := ⟨S_, .i32⟩) main_call1_v3) (TRef.of (T := ⟨S8x512x512, .i32⟩) main_call1_v4) (broadcastInDim S8x512x512 ![] bcast_S_S8x512x512),
    TRef.binary (TRef.of (T := ⟨S8x512x512, .i32⟩) main_call1_v4) (TRef.of (T := ⟨S8x512x512, .i32⟩) main_call1_v2) (TRef.of (T := ⟨S8x512x512, .i32⟩) main_v4) minsi,
    unary main_v4 main_v5 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8x1x512x512, .i32⟩) main_call2_v0) (broadcastInDim S8x1x512x512 ![] bcast_S_S8x1x512x512),
    TRef.binary (TRef.of (T := ⟨S8x1x512x512, .i32⟩) main_v5) (TRef.of (T := ⟨S8x1x512x512, .i32⟩) main_call2_v0) (TRef.of (T := ⟨S8x1x512x512, .i1⟩) main_call2_v1) (cmpi .slt),
    TRef.nullary (TRef.of (T := ⟨S_, .i32⟩) main_call2_c_0) (constantI S_ 32 10#32),
    TRef.unary (TRef.of (T := ⟨S_, .i32⟩) main_call2_c_0) (TRef.of (T := ⟨S8x1x512x512, .i32⟩) main_call2_v2) (broadcastInDim S8x1x512x512 ![] bcast_S_S8x1x512x512),
    TRef.binary (TRef.of (T := ⟨S8x1x512x512, .i32⟩) main_v5) (TRef.of (T := ⟨S8x1x512x512, .i32⟩) main_call2_v2) (TRef.of (T := ⟨S8x1x512x512, .i32⟩) main_call2_v3) addi,
    TRef.ternary (TRef.of (T := ⟨S8x1x512x512, .i1⟩) main_call2_v1) (TRef.of (T := ⟨S8x1x512x512, .i32⟩) main_call2_v3) (TRef.of (T := ⟨S8x1x512x512, .i32⟩) main_v5) (TRef.of (T := ⟨S8x1x512x512, .i32⟩) main_call2_v4) select,
    TRef.reshape (TRef.of (T := ⟨S8x1x512x512, .i32⟩) main_call2_v4) (TRef.of (T := ⟨S8x1x512x512x1, .i32⟩) main_call2_v5) rfl shapeCasts_S8x1x512x512_S8x1x512x512x1,
    TRef.nullary (TRef.of (T := ⟨S1, .i32⟩) main_call2_c_1) (constantI S1 32 9#32),
    TRef.nullary (TRef.of (T := ⟨S_, .i32⟩) main_call2_c_2) (constantI S_ 32 0#32),
    TRef.unary (TRef.of (T := ⟨S_, .i32⟩) main_call2_c_2) (TRef.of (T := ⟨S8x1x512x512x1, .i32⟩) main_call2_v6) (broadcastInDim S8x1x512x512x1 ![] bcast_S_S8x1x512x512x1),
    TRef.binary (TRef.of (T := ⟨S8x1x512x512x1, .i32⟩) main_call2_v5) (TRef.of (T := ⟨S8x1x512x512x1, .i32⟩) main_call2_v6) (TRef.of (T := ⟨S8x1x512x512x1, .i1⟩) main_call2_v7) (cmpi .sge),
    TRef.unary (TRef.of (T := ⟨S1, .i32⟩) main_call2_c_1) (TRef.of (T := ⟨S1x1x1x1x1, .i32⟩) main_call2_v8) (broadcastInDim S1x1x1x1x1 ![4] bcast_S1_S1x1x1x1x1_4),
    TRef.unary (TRef.of (T := ⟨S1x1x1x1x1, .i32⟩) main_call2_v8) (TRef.of (T := ⟨S8x1x512x512x1, .i32⟩) main_call2_v9) (broadcastInDim S8x1x512x512x1 ![0, 1, 2, 3, 4] bcast_S1x1x1x1x1_S8x1x512x512x1_0_1_2_3_4),
    TRef.binary (TRef.of (T := ⟨S8x1x512x512x1, .i32⟩) main_call2_v5) (TRef.of (T := ⟨S8x1x512x512x1, .i32⟩) main_call2_v9) (TRef.of (T := ⟨S8x1x512x512x1, .i1⟩) main_call2_v10) (cmpi .sle),
    TRef.binary (TRef.of (T := ⟨S8x1x512x512x1, .i1⟩) main_call2_v7) (TRef.of (T := ⟨S8x1x512x512x1, .i1⟩) main_call2_v10) (TRef.of (T := ⟨S8x1x512x512x1, .i1⟩) main_call2_v11) andi,
    TRef.nullary (TRef.of (T := ⟨S_, .i1⟩) main_call2_c_3) (constantI S_ 1 1#1),
    TRef.binary (TRef.of (T := ⟨S8x1x512x512x1, .i1⟩) main_call2_v11) (TRef.of (T := ⟨S_, .i1⟩) main_call2_c_3) (TRef.of (T := ⟨S8x1x512x512, .i1⟩) main_call2_v12) (fun x v => Host.reduce IntOp.andi x v reducesTo_S8x1x512x512x1_S8x1x512x512_d4 h_S_),
    TRef.binary (TRef.of (T := ⟨S8x10x512x512, .f32⟩) main_v3) (TRef.of (T := ⟨S8x1x512x512x1, .i32⟩) main_call2_v5) (TRef.of (T := ⟨S8x1x512x512, .f32⟩) main_call2_v13) (fun x i => Host.gather gather_S8x10x512x512_S8x1x512x512x1_S8x1x512x512_n_1_023_023_1_4_1111 x i),
    TRef.nullary (TRef.of (T := ⟨S_, .f32⟩) main_call2_cst) (constant S_ .f32 0x7FC00000#32),
    TRef.unary (TRef.of (T := ⟨S_, .f32⟩) main_call2_cst) (TRef.of (T := ⟨S8x1x512x512, .f32⟩) main_call2_v14) (broadcastInDim S8x1x512x512 ![] bcast_S_S8x1x512x512),
    TRef.ternary (TRef.of (T := ⟨S8x1x512x512, .i1⟩) main_call2_v12) (TRef.of (T := ⟨S8x1x512x512, .f32⟩) main_call2_v13) (TRef.of (T := ⟨S8x1x512x512, .f32⟩) main_call2_v14) (TRef.of (T := ⟨S8x1x512x512, .f32⟩) main_v6) select ]

/-- Operations 50 … 68. -/
abbrev ops3 : List (HloOp τ sig (Elt F)) :=
  [ reshape main_v6 main_v7 rfl shapeCasts_S8x1x512x512_S8x512x512,
    unary main_v7 main_v8 (Host.negf : (⟨S8x512x512, .f32⟩ : BufTy).Contents (Elt F) → (⟨S8x512x512, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S8x512x512, .f32⟩) main_call3_v1) (broadcastInDim S8x512x512 ![] bcast_S_S8x512x512),
    TRef.ternary (TRef.of (T := ⟨S8x512x512, .i1⟩) main_v1) (TRef.of (T := ⟨S8x512x512, .f32⟩) main_v8) (TRef.of (T := ⟨S8x512x512, .f32⟩) main_call3_v1) (TRef.of (T := ⟨S8x512x512, .f32⟩) main_v9) select,
    unary main_v9 main_v10 (Host.negf : (⟨S8x512x512, .f32⟩ : BufTy).Contents (Elt F) → (⟨S8x512x512, .f32⟩ : BufTy).Contents (Elt F)),
    unary main_v10 main_v11 (Host.exp : (⟨S8x512x512, .f32⟩ : BufTy).Contents (Elt F) → (⟨S8x512x512, .f32⟩ : BufTy).Contents (Elt F)),
    nullary main_cst_2 (constant S_ .f32 0x3F800000#32),
    unary main_cst_2 main_v12 (broadcastInDim S8x512x512 ![] bcast_S_S8x512x512 : (⟨S_, .f32⟩ : BufTy).Contents (Elt F) → (⟨S8x512x512, .f32⟩ : BufTy).Contents (Elt F)),
    binary main_v12 main_v11 main_v13 (subf : (⟨S8x512x512, .f32⟩ : BufTy).Contents (Elt F) → (⟨S8x512x512, .f32⟩ : BufTy).Contents (Elt F) → (⟨S8x512x512, .f32⟩ : BufTy).Contents (Elt F)),
    nullary main_cst_3 (constant S_ .f32 0x3F800000#32),
    unary main_cst_3 main_v14 (broadcastInDim S8x512x512 ![] bcast_S_S8x512x512 : (⟨S_, .f32⟩ : BufTy).Contents (Elt F) → (⟨S8x512x512, .f32⟩ : BufTy).Contents (Elt F)),
    binary main_v13 main_v14 main_v15 (Host.powf : (⟨S8x512x512, .f32⟩ : BufTy).Contents (Elt F) → (⟨S8x512x512, .f32⟩ : BufTy).Contents (Elt F) → (⟨S8x512x512, .f32⟩ : BufTy).Contents (Elt F)),
    nullary main_cst_4 (constant S_ .f32 0x3E800000#32),
    unary main_cst_4 main_v16 (broadcastInDim S8x512x512 ![] bcast_S_S8x512x512 : (⟨S_, .f32⟩ : BufTy).Contents (Elt F) → (⟨S8x512x512, .f32⟩ : BufTy).Contents (Elt F)),
    binary main_v16 main_v15 main_v17 (mulf : (⟨S8x512x512, .f32⟩ : BufTy).Contents (Elt F) → (⟨S8x512x512, .f32⟩ : BufTy).Contents (Elt F) → (⟨S8x512x512, .f32⟩ : BufTy).Contents (Elt F)),
    binary main_v17 main_v9 main_v18 (mulf : (⟨S8x512x512, .f32⟩ : BufTy).Contents (Elt F) → (⟨S8x512x512, .f32⟩ : BufTy).Contents (Elt F) → (⟨S8x512x512, .f32⟩ : BufTy).Contents (Elt F)),
    nullary main_c_5 (constantI S_ 32 0#32) ]

/-- Operations 69 … 89. -/
abbrev ops4 : List (HloOp τ sig (Elt F)) :=
  [ TRef.unary (TRef.of (T := ⟨S_, .i32⟩) main_c_5) (TRef.of (T := ⟨S_, .f32⟩) main_call4_v0) (sitofp (F := F) .f32),
    TRef.binary (TRef.of (T := ⟨S8x512x512, .f32⟩) main_v2) (TRef.of (T := ⟨S_, .f32⟩) main_call4_v0) (TRef.of (T := ⟨S8x514x514, .f32⟩) main_v19) (fun x v => pad S8x514x514 ![0, 1, 1] ![0, 1, 1] ![0, 0, 0] x v pads_S8x512x512_S8x514x514_000_110_110 h_S_),
    unary main_v19 main_v20 ((extractStridedSlice S8x512x512 ![0, 1, 1] · slices_S8x514x514_S8x512x512_0_1_1) : (⟨S8x514x514, .f32⟩ : BufTy).Contents (Elt F) → (⟨S8x512x512, .f32⟩ : BufTy).Contents (Elt F)),
    unary main_v19 main_v21 ((extractStridedSlice S8x512x512 ![0, 0, 1] · slices_S8x514x514_S8x512x512_0_0_1) : (⟨S8x514x514, .f32⟩ : BufTy).Contents (Elt F) → (⟨S8x512x512, .f32⟩ : BufTy).Contents (Elt F)),
    binary main_v20 main_v21 main_v22 (maximumf : (⟨S8x512x512, .f32⟩ : BufTy).Contents (Elt F) → (⟨S8x512x512, .f32⟩ : BufTy).Contents (Elt F) → (⟨S8x512x512, .f32⟩ : BufTy).Contents (Elt F)),
    unary main_v19 main_v23 ((extractStridedSlice S8x512x512 ![0, 2, 1] · slices_S8x514x514_S8x512x512_0_2_1) : (⟨S8x514x514, .f32⟩ : BufTy).Contents (Elt F) → (⟨S8x512x512, .f32⟩ : BufTy).Contents (Elt F)),
    binary main_v22 main_v23 main_v24 (maximumf : (⟨S8x512x512, .f32⟩ : BufTy).Contents (Elt F) → (⟨S8x512x512, .f32⟩ : BufTy).Contents (Elt F) → (⟨S8x512x512, .f32⟩ : BufTy).Contents (Elt F)),
    unary main_v19 main_v25 ((extractStridedSlice S8x512x512 ![0, 1, 0] · slices_S8x514x514_S8x512x512_0_1_0) : (⟨S8x514x514, .f32⟩ : BufTy).Contents (Elt F) → (⟨S8x512x512, .f32⟩ : BufTy).Contents (Elt F)),
    unary main_v19 main_v26 ((extractStridedSlice S8x512x512 ![0, 1, 2] · slices_S8x514x514_S8x512x512_0_1_2) : (⟨S8x514x514, .f32⟩ : BufTy).Contents (Elt F) → (⟨S8x512x512, .f32⟩ : BufTy).Contents (Elt F)),
    binary main_v25 main_v26 main_v27 (maximumf : (⟨S8x512x512, .f32⟩ : BufTy).Contents (Elt F) → (⟨S8x512x512, .f32⟩ : BufTy).Contents (Elt F) → (⟨S8x512x512, .f32⟩ : BufTy).Contents (Elt F)),
    binary main_v24 main_v27 main_v28 (maximumf : (⟨S8x512x512, .f32⟩ : BufTy).Contents (Elt F) → (⟨S8x512x512, .f32⟩ : BufTy).Contents (Elt F) → (⟨S8x512x512, .f32⟩ : BufTy).Contents (Elt F)),
    nullary main_cst_6 (constant S_ .f32 0x00000000#32),
    unary main_cst_6 main_v29 (broadcastInDim S8x512x512 ![] bcast_S_S8x512x512 : (⟨S_, .f32⟩ : BufTy).Contents (Elt F) → (⟨S8x512x512, .f32⟩ : BufTy).Contents (Elt F)),
    binary main_v28 main_v29 main_v30 (cmpf (F := F) .ogt : (⟨S8x512x512, .f32⟩ : BufTy).Contents (Elt F) → (⟨S8x512x512, .f32⟩ : BufTy).Contents (Elt F) → (⟨S8x512x512, .i1⟩ : BufTy).Contents (Elt F)),
    unary main_v1 main_v31 (noti : (⟨S8x512x512, .i1⟩ : BufTy).Contents (Elt F) → (⟨S8x512x512, .i1⟩ : BufTy).Contents (Elt F)),
    binary main_v30 main_v31 main_v32 (andi : (⟨S8x512x512, .i1⟩ : BufTy).Contents (Elt F) → (⟨S8x512x512, .i1⟩ : BufTy).Contents (Elt F) → (⟨S8x512x512, .i1⟩ : BufTy).Contents (Elt F)),
    nullary main_cst_7 (constant S_ .f32 0x3E4CCCCD#32),
    nullary main_cst_8 (constant S_ .f32 0x3F800000#32),
    TRef.unary (TRef.of (T := ⟨S_, .f32⟩) main_cst_7) (TRef.of (T := ⟨S8x512x512, .f32⟩) main_call5_v0) (broadcastInDim S8x512x512 ![] bcast_S_S8x512x512),
    TRef.unary (TRef.of (T := ⟨S_, .f32⟩) main_cst_8) (TRef.of (T := ⟨S8x512x512, .f32⟩) main_call5_v1) (broadcastInDim S8x512x512 ![] bcast_S_S8x512x512),
    TRef.ternary (TRef.of (T := ⟨S8x512x512, .i1⟩) main_v32) (TRef.of (T := ⟨S8x512x512, .f32⟩) main_call5_v0) (TRef.of (T := ⟨S8x512x512, .f32⟩) main_call5_v1) (TRef.of (T := ⟨S8x512x512, .f32⟩) main_v33) select ]

end Cert.SegLoss.Ref

end
-- ==== Proof.RefRunLive.lean ====
import proofs.«401271_j53171695125135_2_alg».proof.Proof.RefRead
import Idealize.ShloMosaic.Lib.StableHlo.Run

/-! The first half of the reference's run is cut before operations 0, 21, 50 and 69 of its 212 host operations.
    `LiveAt<k> X T V` says of the buffer contents `V` at the cut before operation `k` that
    the two argument buffers hold the arguments `X`, `T` and that every buffer written before the cut and read
    after it holds its stage as a function of the arguments. -/

noncomputable section

namespace Cert.SegLoss.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

structure LiveAt0 (X : (⟨S8x10x512x512, .f32⟩ : BufTy).Contents (Elt F)) (T : (⟨S8x512x512, .i32⟩ : BufTy).Contents (Elt F))
    (V : Valuation τ sig (Elt F)) : Prop where
  a0 : V (Proc.devRef .tc main_arg0) = X
  a1 : V (Proc.devRef .tc main_arg1) = T

structure LiveAt21 (X : (⟨S8x10x512x512, .f32⟩ : BufTy).Contents (Elt F)) (T : (⟨S8x512x512, .i32⟩ : BufTy).Contents (Elt F))
    (V : Valuation τ sig (Elt F)) : Prop where
  a0 : V (Proc.devRef .tc main_arg0) = X
  a1 : V (Proc.devRef .tc main_arg1) = T
  v1 : V (Proc.devRef .tc main_v1) = val_main_v1 (F := F) T
  v2 : V (Proc.devRef .tc main_v2) = val_main_v2 (F := F) T
  v3 : V (Proc.devRef .tc main_v3) = val_main_v3 (F := F) X
  c_0 : V (Proc.devRef .tc main_c_0) = val_main_c_0 (F := F)
  c_1 : V (Proc.devRef .tc main_c_1) = val_main_c_1 (F := F)

structure LiveAt50 (X : (⟨S8x10x512x512, .f32⟩ : BufTy).Contents (Elt F)) (T : (⟨S8x512x512, .i32⟩ : BufTy).Contents (Elt F))
    (V : Valuation τ sig (Elt F)) : Prop where
  a0 : V (Proc.devRef .tc main_arg0) = X
  a1 : V (Proc.devRef .tc main_arg1) = T
  v1 : V (Proc.devRef .tc main_v1) = val_main_v1 (F := F) T
  v2 : V (Proc.devRef .tc main_v2) = val_main_v2 (F := F) T
  v4 : V (Proc.devRef .tc main_v4) = val_main_v4 (F := F) T
  v6 : V (Proc.devRef .tc main_v6) = val_main_v6 (F := F) X T

structure LiveAt69 (X : (⟨S8x10x512x512, .f32⟩ : BufTy).Contents (Elt F)) (T : (⟨S8x512x512, .i32⟩ : BufTy).Contents (Elt F))
    (V : Valuation τ sig (Elt F)) : Prop where
  a0 : V (Proc.devRef .tc main_arg0) = X
  a1 : V (Proc.devRef .tc main_arg1) = T
  v1 : V (Proc.devRef .tc main_v1) = val_main_v1 (F := F) T
  v2 : V (Proc.devRef .tc main_v2) = val_main_v2 (F := F) T
  v4 : V (Proc.devRef .tc main_v4) = val_main_v4 (F := F) T
  v18 : V (Proc.devRef .tc main_v18) = val_main_v18 (F := F) X T
  c_5 : V (Proc.devRef .tc main_c_5) = val_main_c_5 (F := F)

end Cert.SegLoss.Ref

end
-- ==== Proof.RefRunTablesB.lean ====
import proofs.«401271_j53171695125135_2_alg».proof.Proof.RefRead
import Idealize.ShloMosaic.Lib.StableHlo.Run

/-! Tables for the second half of the reference's run: operations 90 to 211 of @main as five consecutive stretches,
    and per cut the statement that the buffers read from there on hold their stages. -/

noncomputable section

namespace Cert.ReferenceIdeal.StagedB

open Cert.ReferenceIdeal Cert.ReferenceIdeal.Gen Idealize.ShloMosaic Idealize.ShloMosaic.TcCoe Idealize.SL.Sem Idealize.ShloMosaic.StableHlo

variable {F : FTy → Type} [FloatOps F]

/-- Operations 90 to 114 of @main. -/
abbrev ops5 : List (HloOp τ sig (Elt F)) :=
  [ unary main_v33 main_v34 (id : (⟨S8x512x512, .f32⟩ : BufTy).Contents (Elt F) → (⟨S8x512x512, .f32⟩ : BufTy).Contents (Elt F)),
    binary main_v18 main_v2 main_v35 (mulf : (⟨S8x512x512, .f32⟩ : BufTy).Contents (Elt F) → (⟨S8x512x512, .f32⟩ : BufTy).Contents (Elt F) → (⟨S8x512x512, .f32⟩ : BufTy).Contents (Elt F)),
    binary main_v35 main_v34 main_v36 (mulf : (⟨S8x512x512, .f32⟩ : BufTy).Contents (Elt F) → (⟨S8x512x512, .f32⟩ : BufTy).Contents (Elt F) → (⟨S8x512x512, .f32⟩ : BufTy).Contents (Elt F)),
    nullary main_cst_9 (constant S_ .f32 0x00000000#32),
    binary main_v36 main_cst_9 main_v37 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    binary main_v2 main_v34 main_v38 (mulf : (⟨S8x512x512, .f32⟩ : BufTy).Contents (Elt F) → (⟨S8x512x512, .f32⟩ : BufTy).Contents (Elt F) → (⟨S8x512x512, .f32⟩ : BufTy).Contents (Elt F)),
    nullary main_cst_10 (constant S_ .f32 0x00000000#32),
    binary main_v38 main_cst_10 main_v39 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    nullary main_cst_11 (constant S_ .f32 0x322BCC77#32),
    binary main_v39 main_cst_11 main_v40 (maximumf : (⟨S_, .f32⟩ : BufTy).Contents (Elt F) → (⟨S_, .f32⟩ : BufTy).Contents (Elt F) → (⟨S_, .f32⟩ : BufTy).Contents (Elt F)),
    binary main_v37 main_v40 main_v41 (Host.divf : (⟨S_, .f32⟩ : BufTy).Contents (Elt F) → (⟨S_, .f32⟩ : BufTy).Contents (Elt F) → (⟨S_, .f32⟩ : BufTy).Contents (Elt F)),
    nullary main_cst_12 (constant S_ .f32 0xFF800000#32),
    binary main_arg0 main_cst_12 main_v42 ((fun x v => Host.reduce FloatOps.maximumf x v reducesTo_S8x10x512x512_S8x512x512_d1 h_S_) : (⟨S8x10x512x512, .f32⟩ : BufTy).Contents (Elt F) → (⟨S_, .f32⟩ : BufTy).Contents (Elt F) → (⟨S8x512x512, .f32⟩ : BufTy).Contents (Elt F)),
    nullary main_cst_13 (constant S_ .f32 0xFF800000#32),
    unary main_cst_13 main_v43 (broadcastInDim S8x512x512 ![] bcast_S_S8x512x512 : (⟨S_, .f32⟩ : BufTy).Contents (Elt F) → (⟨S8x512x512, .f32⟩ : BufTy).Contents (Elt F)),
    binary main_v43 main_v42 main_v44 (maximumf : (⟨S8x512x512, .f32⟩ : BufTy).Contents (Elt F) → (⟨S8x512x512, .f32⟩ : BufTy).Contents (Elt F) → (⟨S8x512x512, .f32⟩ : BufTy).Contents (Elt F)),
    unary main_v44 main_v45 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v45 main_v46 (broadcastInDim S8x10x512x512 ![0, 1, 2, 3] bcast_S8x1x512x512_S8x10x512x512_0_1_2_3 : (⟨S8x1x512x512, .f32⟩ : BufTy).Contents (Elt F) → (⟨S8x10x512x512, .f32⟩ : BufTy).Contents (Elt F)),
    binary main_arg0 main_v46 main_v47 (subf : (⟨S8x10x512x512, .f32⟩ : BufTy).Contents (Elt F) → (⟨S8x10x512x512, .f32⟩ : BufTy).Contents (Elt F) → (⟨S8x10x512x512, .f32⟩ : BufTy).Contents (Elt F)),
    unary main_v47 main_v48 (Host.exp : (⟨S8x10x512x512, .f32⟩ : BufTy).Contents (Elt F) → (⟨S8x10x512x512, .f32⟩ : BufTy).Contents (Elt F)),
    nullary main_cst_14 (constant S_ .f32 0x00000000#32),
    binary main_v48 main_cst_14 main_v49 ((fun x v => Host.reduceAdd x v reducesTo_S8x10x512x512_S8x512x512_d1 h_S_) : (⟨S8x10x512x512, .f32⟩ : BufTy).Contents (Elt F) → (⟨S_, .f32⟩ : BufTy).Contents (Elt F) → (⟨S8x512x512, .f32⟩ : BufTy).Contents (Elt F)),
    unary main_v49 main_v50 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v50 main_v51 (broadcastInDim S8x10x512x512 ![0, 1, 2, 3] bcast_S8x1x512x512_S8x10x512x512_0_1_2_3 : (⟨S8x1x512x512, .f32⟩ : BufTy).Contents (Elt F) → (⟨S8x10x512x512, .f32⟩ : BufTy).Contents (Elt F)),
    binary main_v48 main_v51 main_v52 (Host.divf : (⟨S8x10x512x512, .f32⟩ : BufTy).Contents (Elt F) → (⟨S8x10x512x512, .f32⟩ : BufTy).Contents (Elt F) → (⟨S8x10x512x512, .f32⟩ : BufTy).Contents (Elt F)) ]

/-- Operations 115 to 135 of @main. -/
abbrev ops6 : List (HloOp τ sig (Elt F)) :=
  [ TRef.unary (TRef.of (T := ⟨S8x512x512, .i32⟩) main_v4) (TRef.of (T := ⟨S8x1x512x512, .i32⟩) main_call6_v0) (broadcastInDim S8x1x512x512 ![0, 2, 3] bcast_S8x512x512_S8x1x512x512_0_2_3),
    TRef.nullary (TRef.of (T := ⟨S1x10x1x1, .i32⟩) main_call6_v1) (iotaInDim S1x10x1x1 32 1),
    TRef.unary (TRef.of (T := ⟨S8x1x512x512, .i32⟩) main_call6_v0) (TRef.of (T := ⟨S8x10x512x512, .i32⟩) main_call6_v2) (broadcastInDim S8x10x512x512 ![0, 1, 2, 3] bcast_S8x1x512x512_S8x10x512x512_0_1_2_3),
    TRef.unary (TRef.of (T := ⟨S1x10x1x1, .i32⟩) main_call6_v1) (TRef.of (T := ⟨S8x10x512x512, .i32⟩) main_call6_v3) (broadcastInDim S8x10x512x512 ![0, 1, 2, 3] bcast_S1x10x1x1_S8x10x512x512_0_1_2_3),
    TRef.binary (TRef.of (T := ⟨S8x10x512x512, .i32⟩) main_call6_v2) (TRef.of (T := ⟨S8x10x512x512, .i32⟩) main_call6_v3) (TRef.of (T := ⟨S8x10x512x512, .i1⟩) main_call6_v4) (cmpi .eq),
    TRef.unary (TRef.of (T := ⟨S8x10x512x512, .i1⟩) main_call6_v4) (TRef.of (T := ⟨S8x10x512x512, .f32⟩) main_v53) (uitofp (F := F) .f32),
    binary main_v52 main_v53 main_v54 (mulf : (⟨S8x10x512x512, .f32⟩ : BufTy).Contents (Elt F) → (⟨S8x10x512x512, .f32⟩ : BufTy).Contents (Elt F) → (⟨S8x10x512x512, .f32⟩ : BufTy).Contents (Elt F)),
    nullary main_cst_15 (constant S_ .f32 0x00000000#32),
    binary main_v54 main_cst_15 main_v55 ((fun x v => Host.reduceAdd x v reducesTo_S8x10x512x512_S10_d0_2_3 h_S_) : (⟨S8x10x512x512, .f32⟩ : BufTy).Contents (Elt F) → (⟨S_, .f32⟩ : BufTy).Contents (Elt F) → (⟨S10, .f32⟩ : BufTy).Contents (Elt F)),
    nullary main_cst_16 (constant S_ .f32 0x3F800000#32),
    unary main_cst_16 main_v56 (broadcastInDim S8x10x512x512 ![] bcast_S_S8x10x512x512 : (⟨S_, .f32⟩ : BufTy).Contents (Elt F) → (⟨S8x10x512x512, .f32⟩ : BufTy).Contents (Elt F)),
    binary main_v56 main_v53 main_v57 (subf : (⟨S8x10x512x512, .f32⟩ : BufTy).Contents (Elt F) → (⟨S8x10x512x512, .f32⟩ : BufTy).Contents (Elt F) → (⟨S8x10x512x512, .f32⟩ : BufTy).Contents (Elt F)),
    binary main_v52 main_v57 main_v58 (mulf : (⟨S8x10x512x512, .f32⟩ : BufTy).Contents (Elt F) → (⟨S8x10x512x512, .f32⟩ : BufTy).Contents (Elt F) → (⟨S8x10x512x512, .f32⟩ : BufTy).Contents (Elt F)),
    nullary main_cst_17 (constant S_ .f32 0x00000000#32),
    binary main_v58 main_cst_17 main_v59 ((fun x v => Host.reduceAdd x v reducesTo_S8x10x512x512_S10_d0_2_3 h_S_) : (⟨S8x10x512x512, .f32⟩ : BufTy).Contents (Elt F) → (⟨S_, .f32⟩ : BufTy).Contents (Elt F) → (⟨S10, .f32⟩ : BufTy).Contents (Elt F)),
    nullary main_cst_18 (constant S_ .f32 0x3F800000#32),
    unary main_cst_18 main_v60 (broadcastInDim S8x10x512x512 ![] bcast_S_S8x10x512x512 : (⟨S_, .f32⟩ : BufTy).Contents (Elt F) → (⟨S8x10x512x512, .f32⟩ : BufTy).Contents (Elt F)),
    binary main_v60 main_v52 main_v61 (subf : (⟨S8x10x512x512, .f32⟩ : BufTy).Contents (Elt F) → (⟨S8x10x512x512, .f32⟩ : BufTy).Contents (Elt F) → (⟨S8x10x512x512, .f32⟩ : BufTy).Contents (Elt F)),
    binary main_v61 main_v53 main_v62 (mulf : (⟨S8x10x512x512, .f32⟩ : BufTy).Contents (Elt F) → (⟨S8x10x512x512, .f32⟩ : BufTy).Contents (Elt F) → (⟨S8x10x512x512, .f32⟩ : BufTy).Contents (Elt F)),
    nullary main_cst_19 (constant S_ .f32 0x00000000#32),
    binary main_v62 main_cst_19 main_v63 ((fun x v => Host.reduceAdd x v reducesTo_S8x10x512x512_S10_d0_2_3 h_S_) : (⟨S8x10x512x512, .f32⟩ : BufTy).Contents (Elt F) → (⟨S_, .f32⟩ : BufTy).Contents (Elt F) → (⟨S10, .f32⟩ : BufTy).Contents (Elt F)) ]

/-- Operations 136 to 161 of @main. -/
abbrev ops7 : List (HloOp τ sig (Elt F)) :=
  [ nullary main_cst_20 (constant S_ .f32 0x358637BD#32),
    unary main_cst_20 main_v64 (broadcastInDim S10 ![] bcast_S_S10 : (⟨S_, .f32⟩ : BufTy).Contents (Elt F) → (⟨S10, .f32⟩ : BufTy).Contents (Elt F)),
    binary main_v55 main_v64 main_v65 (addf : (⟨S10, .f32⟩ : BufTy).Contents (Elt F) → (⟨S10, .f32⟩ : BufTy).Contents (Elt F) → (⟨S10, .f32⟩ : BufTy).Contents (Elt F)),
    nullary main_cst_21 (constant S_ .f32 0x3F000000#32),
    unary main_cst_21 main_v66 (broadcastInDim S10 ![] bcast_S_S10 : (⟨S_, .f32⟩ : BufTy).Contents (Elt F) → (⟨S10, .f32⟩ : BufTy).Contents (Elt F)),
    binary main_v66 main_v59 main_v67 (mulf : (⟨S10, .f32⟩ : BufTy).Contents (Elt F) → (⟨S10, .f32⟩ : BufTy).Contents (Elt F) → (⟨S10, .f32⟩ : BufTy).Contents (Elt F)),
    binary main_v55 main_v67 main_v68 (addf : (⟨S10, .f32⟩ : BufTy).Contents (Elt F) → (⟨S10, .f32⟩ : BufTy).Contents (Elt F) → (⟨S10, .f32⟩ : BufTy).Contents (Elt F)),
    nullary main_cst_22 (constant S_ .f32 0x3F333333#32),
    unary main_cst_22 main_v69 (broadcastInDim S10 ![] bcast_S_S10 : (⟨S_, .f32⟩ : BufTy).Contents (Elt F) → (⟨S10, .f32⟩ : BufTy).Contents (Elt F)),
    binary main_v69 main_v63 main_v70 (mulf : (⟨S10, .f32⟩ : BufTy).Contents (Elt F) → (⟨S10, .f32⟩ : BufTy).Contents (Elt F) → (⟨S10, .f32⟩ : BufTy).Contents (Elt F)),
    binary main_v68 main_v70 main_v71 (addf : (⟨S10, .f32⟩ : BufTy).Contents (Elt F) → (⟨S10, .f32⟩ : BufTy).Contents (Elt F) → (⟨S10, .f32⟩ : BufTy).Contents (Elt F)),
    nullary main_cst_23 (constant S_ .f32 0x358637BD#32),
    unary main_cst_23 main_v72 (broadcastInDim S10 ![] bcast_S_S10 : (⟨S_, .f32⟩ : BufTy).Contents (Elt F) → (⟨S10, .f32⟩ : BufTy).Contents (Elt F)),
    binary main_v71 main_v72 main_v73 (addf : (⟨S10, .f32⟩ : BufTy).Contents (Elt F) → (⟨S10, .f32⟩ : BufTy).Contents (Elt F) → (⟨S10, .f32⟩ : BufTy).Contents (Elt F)),
    binary main_v65 main_v73 main_v74 (Host.divf : (⟨S10, .f32⟩ : BufTy).Contents (Elt F) → (⟨S10, .f32⟩ : BufTy).Contents (Elt F) → (⟨S10, .f32⟩ : BufTy).Contents (Elt F)),
    nullary main_cst_24 (constant S_ .f32 0x00000000#32),
    binary main_v74 main_cst_24 main_v75 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
    nullary main_cst_25 (constant S_ .f32 0x41200000#32),
    binary main_v75 main_cst_25 main_v76 (Host.divf : (⟨S_, .f32⟩ : BufTy).Contents (Elt F) → (⟨S_, .f32⟩ : BufTy).Contents (Elt F) → (⟨S_, .f32⟩ : BufTy).Contents (Elt F)),
    nullary main_cst_26 (constant S_ .f32 0x3F800000#32),
    binary main_cst_26 main_v76 main_v77 (subf : (⟨S_, .f32⟩ : BufTy).Contents (Elt F) → (⟨S_, .f32⟩ : BufTy).Contents (Elt F) → (⟨S_, .f32⟩ : BufTy).Contents (Elt F)),
    nullary main_cst_27 (constant S_ .f32 0x3F000000#32),
    binary main_cst_27 main_v41 main_v78 (mulf : (⟨S_, .f32⟩ : BufTy).Contents (Elt F) → (⟨S_, .f32⟩ : BufTy).Contents (Elt F) → (⟨S_, .f32⟩ : BufTy).Contents (Elt F)),
    nullary main_cst_28 (constant S_ .f32 0x3F000000#32),
    binary main_cst_28 main_v77 main_v79 (mulf : (⟨S_, .f32⟩ : BufTy).Contents (Elt F) → (⟨S_, .f32⟩ : BufTy).Contents (Elt F) → (⟨S_, .f32⟩ : BufTy).Contents (Elt F)),
    binary main_v78 main_v79 main_v80 (addf : (⟨S_, .f32⟩ : BufTy).Contents (Elt F) → (⟨S_, .f32⟩ : BufTy).Contents (Elt F) → (⟨S_, .f32⟩ : BufTy).Contents (Elt F)) ]

/-- Operations 162 to 189 of @main. -/
abbrev ops8 : List (HloOp τ sig (Elt F)) :=
  [ nullary main_cst_29 (constant S_ .f32 0xFF800000#32),
    unary main_cst_29 main_v81 (broadcastInDim S_ ![] bcast_S_S_ : (⟨S_, .f32⟩ : BufTy).Contents (Elt F) → (⟨S_, .f32⟩ : BufTy).Contents (Elt F)),
    binary main_v52 main_v81 main_v82 ((fun x v => Host.reduceWindow FloatOps.maximumf ![1, 1, 3, 3] ![1, 1, 1, 1] ![0, 0, 1, 1] ![0, 0, 1, 1] x v reduceWindows_S8x10x512x512_S8x10x512x512_w1s1p0_0_w1s1p0_0_w3s1p1_1_w3s1p1_1 h_S_) : (⟨S8x10x512x512, .f32⟩ : BufTy).Contents (Elt F) → (⟨S_, .f32⟩ : BufTy).Contents (Elt F) → (⟨S8x10x512x512, .f32⟩ : BufTy).Contents (Elt F)),
    unary main_v52 main_v83 (Host.negf : (⟨S8x10x512x512, .f32⟩ : BufTy).Contents (Elt F) → (⟨S8x10x512x512, .f32⟩ : BufTy).Contents (Elt F)),
    nullary main_cst_30 (constant S_ .f32 0xFF800000#32),
    unary main_cst_30 main_v84 (broadcastInDim S_ ![] bcast_S_S_ : (⟨S_, .f32⟩ : BufTy).Contents (Elt F) → (⟨S_, .f32⟩ : BufTy).Contents (Elt F)),
    binary main_v83 main_v84 main_v85 ((fun x v => Host.reduceWindow FloatOps.maximumf ![1, 1, 3, 3] ![1, 1, 1, 1] ![0, 0, 1, 1] ![0, 0, 1, 1] x v reduceWindows_S8x10x512x512_S8x10x512x512_w1s1p0_0_w1s1p0_0_w3s1p1_1_w3s1p1_1 h_S_) : (⟨S8x10x512x512, .f32⟩ : BufTy).Contents (Elt F) → (⟨S_, .f32⟩ : BufTy).Contents (Elt F) → (⟨S8x10x512x512, .f32⟩ : BufTy).Contents (Elt F)),
    binary main_v82 main_v85 main_v86 (addf : (⟨S8x10x512x512, .f32⟩ : BufTy).Contents (Elt F) → (⟨S8x10x512x512, .f32⟩ : BufTy).Contents (Elt F) → (⟨S8x10x512x512, .f32⟩ : BufTy).Contents (Elt F)),
    nullary main_cst_31 (constant S_ .f32 0xFF800000#32),
    unary main_cst_31 main_v87 (broadcastInDim S_ ![] bcast_S_S_ : (⟨S_, .f32⟩ : BufTy).Contents (Elt F) → (⟨S_, .f32⟩ : BufTy).Contents (Elt F)),
    binary main_v53 main_v87 main_v88 ((fun x v => Host.reduceWindow FloatOps.maximumf ![1, 1, 3, 3] ![1, 1, 1, 1] ![0, 0, 1, 1] ![0, 0, 1, 1] x v reduceWindows_S8x10x512x512_S8x10x512x512_w1s1p0_0_w1s1p0_0_w3s1p1_1_w3s1p1_1 h_S_) : (⟨S8x10x512x512, .f32⟩ : BufTy).Contents (Elt F) → (⟨S_, .f32⟩ : BufTy).Contents (Elt F) → (⟨S8x10x512x512, .f32⟩ : BufTy).Contents (Elt F)),
    unary main_v53 main_v89 (Host.negf : (⟨S8x10x512x512, .f32⟩ : BufTy).Contents (Elt F) → (⟨S8x10x512x512, .f32⟩ : BufTy).Contents (Elt F)),
    nullary main_cst_32 (constant S_ .f32 0xFF800000#32),
    unary main_cst_32 main_v90 (broadcastInDim S_ ![] bcast_S_S_ : (⟨S_, .f32⟩ : BufTy).Contents (Elt F) → (⟨S_, .f32⟩ : BufTy).Contents (Elt F)),
    binary main_v89 main_v90 main_v91 ((fun x v => Host.reduceWindow FloatOps.maximumf ![1, 1, 3, 3] ![1, 1, 1, 1] ![0, 0, 1, 1] ![0, 0, 1, 1] x v reduceWindows_S8x10x512x512_S8x10x512x512_w1s1p0_0_w1s1p0_0_w3s1p1_1_w3s1p1_1 h_S_) : (⟨S8x10x512x512, .f32⟩ : BufTy).Contents (Elt F) → (⟨S_, .f32⟩ : BufTy).Contents (Elt F) → (⟨S8x10x512x512, .f32⟩ : BufTy).Contents (Elt F)),
    binary main_v88 main_v91 main_v92 (addf : (⟨S8x10x512x512, .f32⟩ : BufTy).Contents (Elt F) → (⟨S8x10x512x512, .f32⟩ : BufTy).Contents (Elt F) → (⟨S8x10x512x512, .f32⟩ : BufTy).Contents (Elt F)),
    unary main_v2 main_v93 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    binary main_v86 main_v92 main_v94 (mulf : (⟨S8x10x512x512, .f32⟩ : BufTy).Contents (Elt F) → (⟨S8x10x512x512, .f32⟩ : BufTy).Contents (Elt F) → (⟨S8x10x512x512, .f32⟩ : BufTy).Contents (Elt F)),
    unary main_v93 main_v95 (broadcastInDim S8x10x512x512 ![0, 1, 2, 3] bcast_S8x1x512x512_S8x10x512x512_0_1_2_3 : (⟨S8x1x512x512, .f32⟩ : BufTy).Contents (Elt F) → (⟨S8x10x512x512, .f32⟩ : BufTy).Contents (Elt F)),
    binary main_v94 main_v95 main_v96 (mulf : (⟨S8x10x512x512, .f32⟩ : BufTy).Contents (Elt F) → (⟨S8x10x512x512, .f32⟩ : BufTy).Contents (Elt F) → (⟨S8x10x512x512, .f32⟩ : BufTy).Contents (Elt F)),
    nullary main_cst_33 (constant S_ .f32 0x00000000#32),
    binary main_v96 main_cst_33 main_v97 ((fun x v => Host.reduceAdd x v reducesTo_S8x10x512x512_S10_d0_2_3 h_S_) : (⟨S8x10x512x512, .f32⟩ : BufTy).Contents (Elt F) → (⟨S_, .f32⟩ : BufTy).Contents (Elt F) → (⟨S10, .f32⟩ : BufTy).Contents (Elt F)),
    unary main_v93 main_v98 (broadcastInDim S8x10x512x512 ![0, 1, 2, 3] bcast_S8x1x512x512_S8x10x512x512_0_1_2_3 : (⟨S8x1x512x512, .f32⟩ : BufTy).Contents (Elt F) → (⟨S8x10x512x512, .f32⟩ : BufTy).Contents (Elt F)),
    binary main_v86 main_v98 main_v99 (mulf : (⟨S8x10x512x512, .f32⟩ : BufTy).Contents (Elt F) → (⟨S8x10x512x512, .f32⟩ : BufTy).Contents (Elt F) → (⟨S8x10x512x512, .f32⟩ : BufTy).Contents (Elt F)),
    nullary main_cst_34 (constant S_ .f32 0x00000000#32),
    binary main_v99 main_cst_34 main_v100 ((fun x v => Host.reduceAdd x v reducesTo_S8x10x512x512_S10_d0_2_3 h_S_) : (⟨S8x10x512x512, .f32⟩ : BufTy).Contents (Elt F) → (⟨S_, .f32⟩ : BufTy).Contents (Elt F) → (⟨S10, .f32⟩ : BufTy).Contents (Elt F)),
    unary main_v93 main_v101 (broadcastInDim S8x10x512x512 ![0, 1, 2, 3] bcast_S8x1x512x512_S8x10x512x512_0_1_2_3 : (⟨S8x1x512x512, .f32⟩ : BufTy).Contents (Elt F) → (⟨S8x10x512x512, .f32⟩ : BufTy).Contents (Elt F)),
    binary main_v92 main_v101 main_v102 (mulf : (⟨S8x10x512x512, .f32⟩ : BufTy).Contents (Elt F) → (⟨S8x10x512x512, .f32⟩ : BufTy).Contents (Elt F) → (⟨S8x10x512x512, .f32⟩ : BufTy).Contents (Elt F)) ]

/-- Operations 190 to 211 of @main. -/
abbrev ops9 : List (HloOp τ sig (Elt F)) :=
  [ nullary main_cst_35 (constant S_ .f32 0x00000000#32),
    binary main_v102 main_cst_35 main_v103 ((fun x v => Host.reduceAdd x v reducesTo_S8x10x512x512_S10_d0_2_3 h_S_) : (⟨S8x10x512x512, .f32⟩ : BufTy).Contents (Elt F) → (⟨S_, .f32⟩ : BufTy).Contents (Elt F) → (⟨S10, .f32⟩ : BufTy).Contents (Elt F)),
    binary main_v100 main_v103 main_v104 (addf : (⟨S10, .f32⟩ : BufTy).Contents (Elt F) → (⟨S10, .f32⟩ : BufTy).Contents (Elt F) → (⟨S10, .f32⟩ : BufTy).Contents (Elt F)),
    nullary main_cst_36 (constant S_ .f32 0x40000000#32),
    unary main_cst_36 main_v105 (broadcastInDim S10 ![] bcast_S_S10 : (⟨S_, .f32⟩ : BufTy).Contents (Elt F) → (⟨S10, .f32⟩ : BufTy).Contents (Elt F)),
    binary main_v105 main_v97 main_v106 (mulf : (⟨S10, .f32⟩ : BufTy).Contents (Elt F) → (⟨S10, .f32⟩ : BufTy).Contents (Elt F) → (⟨S10, .f32⟩ : BufTy).Contents (Elt F)),
    nullary main_cst_37 (constant S_ .f32 0x358637BD#32),
    unary main_cst_37 main_v107 (broadcastInDim S10 ![] bcast_S_S10 : (⟨S_, .f32⟩ : BufTy).Contents (Elt F) → (⟨S10, .f32⟩ : BufTy).Contents (Elt F)),
    binary main_v106 main_v107 main_v108 (addf : (⟨S10, .f32⟩ : BufTy).Contents (Elt F) → (⟨S10, .f32⟩ : BufTy).Contents (Elt F) → (⟨S10, .f32⟩ : BufTy).Contents (Elt F)),
    nullary main_cst_38 (constant S_ .f32 0x358637BD#32),
    unary main_cst_38 main_v109 (broadcastInDim S10 ![] bcast_S_S10 : (⟨S_, .f32⟩ : BufTy).Contents (Elt F) → (⟨S10, .f32⟩ : BufTy).Contents (Elt F)),
    binary main_v104 main_v109 main_v110 (addf : (⟨S10, .f32⟩ : BufTy).Contents (Elt F) → (⟨S10, .f32⟩ : BufTy).Contents (Elt F) → (⟨S10, .f32⟩ : BufTy).Contents (Elt F)),
    binary main_v108 main_v110 main_v111 (Host.divf : (⟨S10, .f32⟩ : BufTy).Contents (Elt F) → (⟨S10, .f32⟩ : BufTy).Contents (Elt F) → (⟨S10, .f32⟩ : BufTy).Contents (Elt F)),
    nullary main_cst_39 (constant S_ .f32 0x00000000#32),
    binary main_v111 main_cst_39 main_v112 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
    nullary main_cst_40 (constant S_ .f32 0x41200000#32),
    binary main_v112 main_cst_40 main_v113 (Host.divf : (⟨S_, .f32⟩ : BufTy).Contents (Elt F) → (⟨S_, .f32⟩ : BufTy).Contents (Elt F) → (⟨S_, .f32⟩ : BufTy).Contents (Elt F)),
    nullary main_cst_41 (constant S_ .f32 0x3F800000#32),
    binary main_cst_41 main_v113 main_v114 (subf : (⟨S_, .f32⟩ : BufTy).Contents (Elt F) → (⟨S_, .f32⟩ : BufTy).Contents (Elt F) → (⟨S_, .f32⟩ : BufTy).Contents (Elt F)),
    nullary main_cst_42 (constant S_ .f32 0x3E4CCCCD#32),
    binary main_cst_42 main_v114 main_v115 (mulf : (⟨S_, .f32⟩ : BufTy).Contents (Elt F) → (⟨S_, .f32⟩ : BufTy).Contents (Elt F) → (⟨S_, .f32⟩ : BufTy).Contents (Elt F)),
    binary main_v80 main_v115 main_v116 (addf : (⟨S_, .f32⟩ : BufTy).Contents (Elt F) → (⟨S_, .f32⟩ : BufTy).Contents (Elt F) → (⟨S_, .f32⟩ : BufTy).Contents (Elt F)) ]

/-- The buffers still read from operation 90 on hold the reference's stages of the arguments `X`, `T`. -/
def LiveAt90 (X : (⟨S8x10x512x512, .f32⟩ : BufTy).Contents (Elt F)) (T : (⟨S8x512x512, .i32⟩ : BufTy).Contents (Elt F))
    (V : Valuation τ sig (Elt F)) : Prop :=
    V (Proc.devRef .tc main_arg0) = X ∧
    V (Proc.devRef .tc main_v2) = ReadP.val_main_v2 (F := F) T ∧
    V (Proc.devRef .tc main_v4) = ReadP.val_main_v4 (F := F) T ∧
    V (Proc.devRef .tc main_v18) = ReadP.val_main_v18 (F := F) X T ∧
    V (Proc.devRef .tc main_v33) = ReadP.val_main_v33 (F := F) T

/-- The buffers still read from operation 115 on hold the reference's stages of the arguments `X`, `T`. -/
def LiveAt115 (X : (⟨S8x10x512x512, .f32⟩ : BufTy).Contents (Elt F)) (T : (⟨S8x512x512, .i32⟩ : BufTy).Contents (Elt F))
    (V : Valuation τ sig (Elt F)) : Prop :=
    V (Proc.devRef .tc main_v2) = ReadP.val_main_v2 (F := F) T ∧
    V (Proc.devRef .tc main_v4) = ReadP.val_main_v4 (F := F) T ∧
    V (Proc.devRef .tc main_v41) = ReadP.val_main_v41 (F := F) X T ∧
    V (Proc.devRef .tc main_v52) = ReadP.val_main_v52 (F := F) X

/-- The buffers still read from operation 136 on hold the reference's stages of the arguments `X`, `T`. -/
def LiveAt136 (X : (⟨S8x10x512x512, .f32⟩ : BufTy).Contents (Elt F)) (T : (⟨S8x512x512, .i32⟩ : BufTy).Contents (Elt F))
    (V : Valuation τ sig (Elt F)) : Prop :=
    V (Proc.devRef .tc main_v2) = ReadP.val_main_v2 (F := F) T ∧
    V (Proc.devRef .tc main_v41) = ReadP.val_main_v41 (F := F) X T ∧
    V (Proc.devRef .tc main_v52) = ReadP.val_main_v52 (F := F) X ∧
    V (Proc.devRef .tc main_v53) = ReadP.val_main_v53 (F := F) T ∧
    V (Proc.devRef .tc main_v55) = ReadP.val_main_v55 (F := F) X T ∧
    V (Proc.devRef .tc main_v59) = ReadP.val_main_v59 (F := F) X T ∧
    V (Proc.devRef .tc main_v63) = ReadP.val_main_v63 (F := F) X T

/-- The buffers still read from operation 162 on hold the reference's stages of the arguments `X`, `T`. -/
def LiveAt162 (X : (⟨S8x10x512x512, .f32⟩ : BufTy).Contents (Elt F)) (T : (⟨S8x512x512, .i32⟩ : BufTy).Contents (Elt F))
    (V : Valuation τ sig (Elt F)) : Prop :=
    V (Proc.devRef .tc main_v2) = ReadP.val_main_v2 (F := F) T ∧
    V (Proc.devRef .tc main_v52) = ReadP.val_main_v52 (F := F) X ∧
    V (Proc.devRef .tc main_v53) = ReadP.val_main_v53 (F := F) T ∧
    V (Proc.devRef .tc main_v80) = ReadP.val_main_v80 (F := F) X T

/-- The buffers still read from operation 190 on hold the reference's stages of the arguments `X`, `T`. -/
def LiveAt190 (X : (⟨S8x10x512x512, .f32⟩ : BufTy).Contents (Elt F)) (T : (⟨S8x512x512, .i32⟩ : BufTy).Contents (Elt F))
    (V : Valuation τ sig (Elt F)) : Prop :=
    V (Proc.devRef .tc main_v80) = ReadP.val_main_v80 (F := F) X T ∧
    V (Proc.devRef .tc main_v97) = ReadP.val_main_v97 (F := F) X T ∧
    V (Proc.devRef .tc main_v100) = ReadP.val_main_v100 (F := F) X T ∧
    V (Proc.devRef .tc main_v102) = ReadP.val_main_v102 (F := F) T

/-- The buffers still read by the caller hold the reference's stages of the arguments `X`, `T`. -/
def LiveAtEnd (X : (⟨S8x10x512x512, .f32⟩ : BufTy).Contents (Elt F)) (T : (⟨S8x512x512, .i32⟩ : BufTy).Contents (Elt F))
    (V : Valuation τ sig (Elt F)) : Prop :=
    V (Proc.devRef .tc main_v116) = ReadP.val_main_v116 (F := F) X T

end Cert.ReferenceIdeal.StagedB

end
-- ==== Proof.RefRunStagedB.lean ====
import proofs.«401271_j53171695125135_2_alg».proof.Proof.RefRunTablesB
import Idealize.ShloMosaic.Lib.Pipeline.Frame

/-! The reference's run, second half: operations 90 to 211 of @main in five stretches `ops5` … `ops9`. Each stretch, run from
    buffer contents where every buffer it or a later stretch reads holds its stage (the `val_` term of the arguments), leaves
    every buffer a later stretch reads at its stage; the stretches chain through the contents after each.

    The contents after a stretch are read off its operations one by one: at the buffer an operation writes, its function of
    its operands' contents; at any other buffer, what was there before it. So a buffer no operation of the stretch writes
    keeps its contents, and a buffer one of them writes holds the composition of the operations leading to it, applied to
    the contents at the stretch's start of the earlier buffers it goes back to. With those at their stages, that composition
    is the buffer's own stage: the stages are defined by the same operations, one on the other. -/

noncomputable section

namespace Cert.ReferenceIdeal.StagedB

open Cert.ReferenceIdeal Cert.ReferenceIdeal.Gen Idealize.ShloMosaic Idealize.ShloMosaic.TcCoe Idealize.SL.Sem Idealize.ShloMosaic.StableHlo

variable {F : FTy → Type} [FloatOps F]

/-- A buffer the stretch does not write keeps its contents, and `h` says they were its stage. -/
local macro "carried " h:ident : tactic => `(tactic| (after_results_simp; exact $h))

/-- A buffer the stretch writes holds the composed operations applied to the starting contents of the buffers the hypotheses
    `hs` speak of; with those at their stages the composition is the buffer's stage, by the stages' definitions. -/
local macro "written " "[" hs:Lean.Parser.Tactic.rwRule,* "]" : tactic =>
  `(tactic| (after_results_simp; rw [$hs,*]; rfl))

/-- Operations 90 to 114: the focal quotient `%41 = %37 / max %39 ε` goes back to `%18`, `%2` and `%33`; the softmax `%52` to the
    logits. The mask `%2` and the clipped label `%4` are not written. -/
theorem stage5 (X : (⟨S8x10x512x512, .f32⟩ : BufTy).Contents (Elt F)) (T : (⟨S8x512x512, .i32⟩ : BufTy).Contents (Elt F))
    (V : Valuation τ sig (Elt F)) (h : LiveAt90 (F := F) X T V) : LiveAt115 (F := F) X T (after (ops5 (F := F)) V) := by
  obtain ⟨h_arg0, h_v2, h_v4, h_v18, h_v33⟩ := h
  refine ⟨?_, ?_, ?_, ?_⟩
  · carried h_v2
  · carried h_v4
  · written [h_v18, h_v2, h_v33]
  · written [h_arg0]

/-- Operations 115 to 135: the one-hot array `%53` goes back to the clipped label; the three Tversky sums `%55`, `%59`, `%63` to
    the softmax and the clipped label. -/
theorem stage6 (X : (⟨S8x10x512x512, .f32⟩ : BufTy).Contents (Elt F)) (T : (⟨S8x512x512, .i32⟩ : BufTy).Contents (Elt F))
    (V : Valuation τ sig (Elt F)) (h : LiveAt115 (F := F) X T V) : LiveAt136 (F := F) X T (after (ops6 (F := F)) V) := by
  obtain ⟨h_v2, h_v4, h_v41, h_v52⟩ := h
  refine ⟨?_, ?_, ?_, ?_, ?_, ?_, ?_⟩
  · carried h_v2
  · carried h_v41
  · carried h_v52
  · written [h_v4]
  · written [h_v52, h_v4]
  · written [h_v52, h_v4]
  · written [h_v52, h_v4]

/-- Operations 136 to 161: the focal and Tversky part `%80` of the loss goes back to `%41` and the three sums. -/
theorem stage7 (X : (⟨S8x10x512x512, .f32⟩ : BufTy).Contents (Elt F)) (T : (⟨S8x512x512, .i32⟩ : BufTy).Contents (Elt F))
    (V : Valuation τ sig (Elt F)) (h : LiveAt136 (F := F) X T V) : LiveAt162 (F := F) X T (after (ops7 (F := F)) V) := by
  obtain ⟨h_v2, h_v41, h_v52, h_v53, h_v55, h_v59, h_v63⟩ := h
  refine ⟨?_, ?_, ?_, ?_⟩
  · carried h_v2
  · carried h_v52
  · carried h_v53
  · written [h_v41, h_v55, h_v59, h_v63]

/-- Operations 162 to 189: the boundary intersection `%97` goes back to the softmax, the one-hot array and the mask; the
    predicted boundary mass `%100` to the softmax and the mask; the masked label boundary `%102` to the one-hot array and
    the mask. -/
theorem stage8 (X : (⟨S8x10x512x512, .f32⟩ : BufTy).Contents (Elt F)) (T : (⟨S8x512x512, .i32⟩ : BufTy).Contents (Elt F))
    (V : Valuation τ sig (Elt F)) (h : LiveAt162 (F := F) X T V) : LiveAt190 (F := F) X T (after (ops8 (F := F)) V) := by
  obtain ⟨h_v2, h_v52, h_v53, h_v80⟩ := h
  refine ⟨?_, ?_, ?_, ?_⟩
  · carried h_v80
  · written [h_v52, h_v53, h_v2]
  · written [h_v52, h_v2]
  · written [h_v53, h_v2]

/-- Operations 190 to 211: the loss `%116` goes back to `%80` and the three boundary sums. -/
theorem stage9 (X : (⟨S8x10x512x512, .f32⟩ : BufTy).Contents (Elt F)) (T : (⟨S8x512x512, .i32⟩ : BufTy).Contents (Elt F))
    (V : Valuation τ sig (Elt F)) (h : LiveAt190 (F := F) X T V) : LiveAtEnd (F := F) X T (after (ops9 (F := F)) V) := by
  obtain ⟨h_v80, h_v97, h_v100, h_v102⟩ := h
  show after (ops9 (F := F)) V (Proc.devRef .tc main_v116) = _
  written [h_v80, h_v97, h_v100, h_v102]

/-- Operations 90 to 211 in one piece: from contents where the buffers read from operation 90 on hold their stages, the run
    leaves @main's result at the last stage. -/
theorem stagesB (X : (⟨S8x10x512x512, .f32⟩ : BufTy).Contents (Elt F)) (T : (⟨S8x512x512, .i32⟩ : BufTy).Contents (Elt F))
    (V : Valuation τ sig (Elt F)) (h : LiveAt90 (F := F) X T V) :
    after (ops5 (F := F) ++ ops6 ++ ops7 ++ ops8 ++ ops9) V (Proc.devRef .tc main_v116) = ReadP.val_main_v116 (F := F) X T := by
  rw [after_append, after_append, after_append, after_append]
  exact stage9 X T _ (stage8 X T _ (stage7 X T _ (stage6 X T _ (stage5 X T _ h))))

/-- No operation of a stretch writes an argument of @main. -/
theorem ops5_args (V : Valuation τ sig (Elt F)) :
    after (ops5 (F := F)) V (Proc.devRef .tc main_arg0) = V (Proc.devRef .tc main_arg0)
      ∧ after (ops5 (F := F)) V (Proc.devRef .tc main_arg1) = V (Proc.devRef .tc main_arg1) := by
  constructor <;> after_results_simp
theorem ops6_args (V : Valuation τ sig (Elt F)) :
    after (ops6 (F := F)) V (Proc.devRef .tc main_arg0) = V (Proc.devRef .tc main_arg0)
      ∧ after (ops6 (F := F)) V (Proc.devRef .tc main_arg1) = V (Proc.devRef .tc main_arg1) := by
  constructor <;> after_results_simp
theorem ops7_args (V : Valuation τ sig (Elt F)) :
    after (ops7 (F := F)) V (Proc.devRef .tc main_arg0) = V (Proc.devRef .tc main_arg0)
      ∧ after (ops7 (F := F)) V (Proc.devRef .tc main_arg1) = V (Proc.devRef .tc main_arg1) := by
  constructor <;> after_results_simp
theorem ops8_args (V : Valuation τ sig (Elt F)) :
    after (ops8 (F := F)) V (Proc.devRef .tc main_arg0) = V (Proc.devRef .tc main_arg0)
      ∧ after (ops8 (F := F)) V (Proc.devRef .tc main_arg1) = V (Proc.devRef .tc main_arg1) := by
  constructor <;> after_results_simp
theorem ops9_args (V : Valuation τ sig (Elt F)) :
    after (ops9 (F := F)) V (Proc.devRef .tc main_arg0) = V (Proc.devRef .tc main_arg0)
      ∧ after (ops9 (F := F)) V (Proc.devRef .tc main_arg1) = V (Proc.devRef .tc main_arg1) := by
  constructor <;> after_results_simp

/-- Operations 90 to 211 leave both arguments as they were. -/
theorem argsB (V : Valuation τ sig (Elt F)) :
    after (ops5 (F := F) ++ ops6 ++ ops7 ++ ops8 ++ ops9) V (Proc.devRef .tc main_arg0) = V (Proc.devRef .tc main_arg0)
      ∧ after (ops5 (F := F) ++ ops6 ++ ops7 ++ ops8 ++ ops9) V (Proc.devRef .tc main_arg1) = V (Proc.devRef .tc main_arg1) := by
  rw [after_append, after_append, after_append, after_append]
  exact ⟨(ops9_args _).1.trans ((ops8_args _).1.trans ((ops7_args _).1.trans ((ops6_args _).1.trans (ops5_args V).1))),
    (ops9_args _).2.trans ((ops8_args _).2.trans ((ops7_args _).2.trans ((ops6_args _).2.trans (ops5_args V).2)))⟩

end Cert.ReferenceIdeal.StagedB

end
-- ==== Proof.RefRunStaged.lean ====
import proofs.«401271_j53171695125135_2_alg».proof.Proof.RefRunOps
import proofs.«401271_j53171695125135_2_alg».proof.Proof.RefRunLive
import proofs.«401271_j53171695125135_2_alg».proof.Proof.RefRunStagedB

/-! The reference's run, proved stretch by stretch. The program is a straight line of 212 host operations; run from
    buffer contents `V`, it leaves each buffer at the fold of the operations' results (`after ops V`). The list is cut
    into nine consecutive stretches. Before each cut, every buffer that a later operation reads holds its stage — the
    value of the operation that wrote it, as a function of the two arguments — and a stretch's lemma carries that
    statement from its first operation to the next cut: a buffer the stretch does not write keeps its contents, and a
    buffer it writes holds the stretch's operations composed over the buffers live before it, which is the stage by
    the stages' definitions, one operation at a time. The first four stretches (operations 0 … 89) are proved here,
    the last five in the second-half module; chained, they give the result buffer at the last stage, and the two
    argument buffers are written by no operation. -/

noncomputable section

namespace Cert.SegLoss.Ref

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## Typed references -/

/-- Contents moved to a typed reference's buffer and back are the contents. (A called function's operations are
    stated over typed references; composed, they move every intermediate value to its buffer and back.) -/
theorem ofBuf_toBuf {Val : EltTy → Type} {T : BufTy} (x : TRef sig T) (v : T.Contents Val) : x.ofBuf (x.toBuf v) = v := by
  rcases x with ⟨r, rfl, _, _⟩; rfl

/-! ## The first four stretches

Each buffer live after a stretch is either carried through it (no operation of the stretch writes it) or written by it;
a written one holds the composition of the stretch's operations over the buffers live before the stretch, which is its
stage by the definition of the stages, one operation at a time. -/

set_option maxRecDepth 8192 in
/-- Operations 0 … 20: the validity mask, the log-softmax and the two clip bounds. -/
theorem stage1 (X : (⟨S8x10x512x512, .f32⟩ : BufTy).Contents (Elt F)) (T : (⟨S8x512x512, .i32⟩ : BufTy).Contents (Elt F))
    (V : Valuation τ sig (Elt F)) (h : LiveAt0 X T V) : LiveAt21 X T (after ops1 V) := by
  refine ⟨?_, ?_, ?_, ?_, ?_, ?_, ?_⟩
  · after_results_simp; exact h.a0
  · after_results_simp; exact h.a1
  · after_results_simp; rw [h.a1]; rfl
  · after_results_simp; rw [h.a1]; rfl
  · after_results_simp; simp only [ofBuf_toBuf]; rw [h.a0]; rfl
  · after_results_simp; rfl
  · after_results_simp; rfl

set_option maxRecDepth 8192 in
/-- Operations 21 … 49: the clipped label and the log-probability gathered at it. -/
theorem stage2 (X : (⟨S8x10x512x512, .f32⟩ : BufTy).Contents (Elt F)) (T : (⟨S8x512x512, .i32⟩ : BufTy).Contents (Elt F))
    (V : Valuation τ sig (Elt F)) (h : LiveAt21 X T V) : LiveAt50 X T (after ops2 V) := by
  refine ⟨?_, ?_, ?_, ?_, ?_, ?_⟩
  · after_results_simp; exact h.a0
  · after_results_simp; exact h.a1
  · after_results_simp; exact h.v1
  · after_results_simp; exact h.v2
  · after_results_simp; simp only [ofBuf_toBuf]; rw [h.c_1, h.c_0, h.a1]; rfl
  · after_results_simp; simp only [ofBuf_toBuf]; simp only [TRef.ofBuf, TRef.toBuf, cast_eq]
    rw [h.c_1, h.c_0, h.a1, h.v3]; rfl

set_option maxRecDepth 8192 in
/-- Operations 50 … 68: the focal term per pixel. -/
theorem stage3 (X : (⟨S8x10x512x512, .f32⟩ : BufTy).Contents (Elt F)) (T : (⟨S8x512x512, .i32⟩ : BufTy).Contents (Elt F))
    (V : Valuation τ sig (Elt F)) (h : LiveAt50 X T V) : LiveAt69 X T (after ops3 V) := by
  refine ⟨?_, ?_, ?_, ?_, ?_, ?_, ?_⟩
  · after_results_simp; exact h.a0
  · after_results_simp; exact h.a1
  · after_results_simp; exact h.v1
  · after_results_simp; exact h.v2
  · after_results_simp; exact h.v4
  · after_results_simp; simp only [ofBuf_toBuf]; rw [h.v1, h.v6]; rfl
  · after_results_simp; rfl

set_option maxRecDepth 8192 in
/-- Operations 69 … 89: the boundary weight of the validity mask. -/
theorem stage4 (X : (⟨S8x10x512x512, .f32⟩ : BufTy).Contents (Elt F)) (T : (⟨S8x512x512, .i32⟩ : BufTy).Contents (Elt F))
    (V : Valuation τ sig (Elt F)) (h : LiveAt69 X T V) : StagedB.LiveAt90 X T (after ops4 V) := by
  refine ⟨?_, ?_, ?_, ?_, ?_⟩
  · after_results_simp; exact h.a0
  · after_results_simp; exact h.v2
  · after_results_simp; exact h.v4
  · after_results_simp; exact h.v18
  · after_results_simp; simp only [ofBuf_toBuf]; rw [h.v2, h.c_5, h.v1]; rfl

/-! ## The whole list -/

/-- The program's operation list is the nine stretches in order. -/
theorem ops_eq_stretches : (ops : List (HloOp τ sig (Elt F)))
    = ops1 ++ ops2 ++ ops3 ++ ops4 ++ (StagedB.ops5 ++ StagedB.ops6 ++ StagedB.ops7 ++ StagedB.ops8 ++ StagedB.ops9) := rfl

/-- Run from contents holding the arguments, the program leaves the result buffer at the last stage. -/
theorem after_ops_result (X : (⟨S8x10x512x512, .f32⟩ : BufTy).Contents (Elt F)) (T : (⟨S8x512x512, .i32⟩ : BufTy).Contents (Elt F))
    (V : Valuation τ sig (Elt F)) (h : LiveAt0 X T V) :
    after (ops (F := F)) V (Proc.devRef .tc main_v116) = val_main_v116 (F := F) X T := by
  rw [ops_eq_stretches,
    after_append (ops1 ++ ops2 ++ ops3 ++ ops4) (StagedB.ops5 ++ StagedB.ops6 ++ StagedB.ops7 ++ StagedB.ops8 ++ StagedB.ops9) V,
    after_append (ops1 ++ ops2 ++ ops3) ops4 V, after_append (ops1 ++ ops2) ops3 V, after_append ops1 ops2 V]
  exact StagedB.stagesB X T _ (stage4 X T _ (stage3 X T _ (stage2 X T _ (stage1 X T V h))))

set_option maxRecDepth 65536 in
set_option maxHeartbeats 4000000 in
/-- No operation writes the first argument's buffer. -/
theorem after_ops_arg0 (V : Valuation τ sig (Elt F)) :
    after (ops (F := F)) V (Proc.devRef .tc main_arg0) = V (Proc.devRef .tc main_arg0) := by
  after_results_simp

set_option maxRecDepth 65536 in
set_option maxHeartbeats 4000000 in
/-- No operation writes the second argument's buffer. -/
theorem after_ops_arg1 (V : Valuation τ sig (Elt F)) :
    after (ops (F := F)) V (Proc.devRef .tc main_arg1) = V (Proc.devRef .tc main_arg1) := by
  after_results_simp

set_option maxRecDepth 65536 in
set_option maxHeartbeats 84800000 in
/-- On every device, for any float values, from any memory with zero counters: every weakly fair execution of the
    reference program terminates with the result buffer at the last stage of the two arguments and the arguments
    unchanged. -/
theorem run_staged (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v116) = Cert.ReferenceIdeal.ReadP.val_main_v116 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v116).trans (after_ops_result _ _ _ ⟨rfl, rfl⟩),
      (h c main_arg0).trans (after_ops_arg0 _),
      (h c main_arg1).trans (after_ops_arg1 _)⟩)
    (run_seq scopedRefs_eq scopedSems_eq defs main (fun _ => ops) main_eq (fun _ => ops_sub) m ρ)

end Cert.SegLoss.Ref

end
-- ==== Proof.Spec.lean ====
import Idealize.ShloMosaic.PureOps.Ideal
import Idealize.ShloMosaic.PureOps.Ideal.Laws
import Idealize.ShloMosaic.Lib.ValueIdx

/-! # The per-image statistics of the combined focal / Tversky / boundary-dice loss

One image is ten planes of logits over a 512 × 512 grid and one plane of integer labels. Both programs reduce an
image to 62 numbers — a focal numerator and denominator, and per class the Tversky sums TP, FP, FN and the three
boundary-dice sums — add those over the eight images, and combine the totals by one scalar formula. This module
states the 62 numbers as functions of an image, over the extended reals, pixel by pixel:

* the class maximum `mx`, the shifted exponentials' sum `sumExp`, `lse = mx + log sumExp`, the log-probability
  `logp c = x_c - lse` and the probability `prob c = exp (logp c)`;
* the label clipped to `0 … 9` (`cls`), its indicator `hot c`, and the indicator `valid` of a label other than 255;
* the 3 × 3 maximum and minimum of a plane around a pixel, the window clipped to the image (`maxPool`, `minPool`),
  and the morphological gradients `pb c`, `gb c` of `prob c` and `hot c`;
* the cross-entropy `ce`, the target probability `pt` and the focal term `focal`.
-/

noncomputable section

namespace Cert.SegLoss

open Idealize.ShloMosaic Idealize.ShloMosaic.ValueIdx

/-- One image's logits: class, row, column. -/
abbrev Img := Fin 10 → Fin 512 → Fin 512 → EReal
/-- One image's labels: row, column. -/
abbrev Lab := Fin 512 → Fin 512 → BitVec 32
/-- One value per pixel. -/
abbrev Plane := Fin 512 → Fin 512 → EReal

/-- The batch's logits and labels as the programs hold them. -/
abbrev Logits := (⟨4, ![8, 10, 512, 512]⟩ : Shape).Idx → EReal
abbrev Labels := (⟨3, ![8, 512, 512]⟩ : Shape).Idx → BitVec 32

/-- Every logit is a real number (neither infinity). -/
def Finite (X : Logits) : Prop := ∀ i, X i ≠ ⊤ ∧ X i ≠ ⊥

/-- Image `b` of the batch. -/
def img (X : Logits) (b : Fin 8) : Img := fun c h w => X (ix4 b c h w)
def lab (T : Labels) (b : Fin 8) : Lab := fun h w => T (ix3 b h w)

/-! ## The float words the programs print, as extended reals -/

theorem ofBits_one : Ideal.ofBits .f32 0x3F800000#32 = (1 : EReal) := by
  simp [Ideal.ofBits, Ideal.ieee]
  rw [← EReal.coe_mul]
  norm_num
theorem ofBits_negInf : Ideal.ofBits .f32 0xFF800000#32 = (⊥ : EReal) := by
  simp [Ideal.ofBits, Ideal.ieee]
theorem ofBits_posInf : Ideal.ofBits .f32 0x7F800000#32 = (⊤ : EReal) := by
  simp [Ideal.ofBits, Ideal.ieee]

/-- The focal weight 0.25, as printed. -/
abbrev quarter : EReal := Ideal.ofBits .f32 0x3E800000#32

/-! ## Softmax quantities at a pixel -/

/-- The largest logit at a pixel. -/
def mx (X : Img) (h w : Fin 512) : EReal := (Finset.univ : Finset (Fin 10)).fold max ⊥ (fun c => X c h w)

/-- The sum over the classes of `exp (x_c - mx)`. -/
def sumExp (X : Img) (h w : Fin 512) : EReal := ∑ c : Fin 10, Ideal.exp (X c h w - mx X h w)

def lse (X : Img) (h w : Fin 512) : EReal := mx X h w + Ideal.log (sumExp X h w)

def logp (X : Img) (c : Fin 10) : Plane := fun h w => X c h w - lse X h w

def prob (X : Img) (c : Fin 10) : Plane := fun h w => Ideal.exp (logp X c h w)

/-! ## Labels -/

/-- The label clipped to `0 … 9`, as a signed word. -/
def cls (T : Lab) (h w : Fin 512) : BitVec 32 := IntOp.minsi 9#32 (IntOp.maxsi 0#32 (T h w))

/-- The indicator of class `c` at a pixel. -/
def hot (T : Lab) (c : Fin 10) : Plane := fun h w => if cls T h w = BitVec.ofNat 32 c.val then 1 else 0

/-- The indicator of a pixel whose label is not the ignored one (255). -/
def valid (T : Lab) : Plane := fun h w => if T h w = 255#32 then 0 else 1

/-! ## The 3 × 3 window -/

/-- Plane `f` at row `h + dh - 1`, column `w + dw - 1` (`dh, dw` in `0, 1, 2`), or `s` outside the image. -/
def nb (s : EReal) (f : Plane) (dh dw : ℕ) (h w : Fin 512) : EReal :=
  if hh : (1 ≤ h.val + dh ∧ h.val + dh - 1 < 512) ∧ (1 ≤ w.val + dw ∧ w.val + dw - 1 < 512)
  then f ⟨h.val + dh - 1, hh.1.2⟩ ⟨w.val + dw - 1, hh.2.2⟩ else s

/-- The largest value of `f` in the 3 × 3 window around a pixel, clipped to the image. -/
def maxPool (f : Plane) : Plane := fun h w =>
  max (max (max (max (max (max (max (max (nb ⊥ f 0 0 h w) (nb ⊥ f 0 1 h w)) (nb ⊥ f 0 2 h w))
    (nb ⊥ f 1 0 h w)) (nb ⊥ f 1 1 h w)) (nb ⊥ f 1 2 h w)) (nb ⊥ f 2 0 h w)) (nb ⊥ f 2 1 h w)) (nb ⊥ f 2 2 h w)

/-- The smallest value of `f` in that window. -/
def minPool (f : Plane) : Plane := fun h w =>
  min (min (min (min (min (min (min (min (nb ⊤ f 0 0 h w) (nb ⊤ f 0 1 h w)) (nb ⊤ f 0 2 h w))
    (nb ⊤ f 1 0 h w)) (nb ⊤ f 1 1 h w)) (nb ⊤ f 1 2 h w)) (nb ⊤ f 2 0 h w)) (nb ⊤ f 2 1 h w)) (nb ⊤ f 2 2 h w)

/-- The morphological gradient of a plane: dilation minus erosion. -/
def grad (f : Plane) : Plane := fun h w => maxPool f h w - minPool f h w

def pb (X : Img) (c : Fin 10) : Plane := grad (prob X c)
def gb (T : Lab) (c : Fin 10) : Plane := grad (hot T c)

/-! ## The focal term -/

/-- The cross-entropy at a pixel: minus the log-probability of the clipped label's class, zero at an ignored pixel. -/
def ce (X : Img) (T : Lab) : Plane := fun h w =>
  if T h w = 255#32 then 0 else ∑ c : Fin 10, hot T c h w * (0 - logp X c h w)

/-- The probability of the clipped label's class. -/
def pt (X : Img) (T : Lab) : Plane := fun h w => ∑ c : Fin 10, hot T c h w * prob X c h w

def focal (X : Img) (T : Lab) : Plane := fun h w => quarter * (1 - pt X T h w) * ce X T h w

/-! ## The 62 statistics of an image -/

/-- The sum of a plane over the image. -/
def sum2 (f : Plane) : EReal := ∑ h : Fin 512, ∑ w : Fin 512, f h w

def fnum (X : Img) (T : Lab) : EReal := sum2 fun h w => focal X T h w * valid T h w
def fden (T : Lab) : EReal := sum2 (valid T)
def tp (X : Img) (T : Lab) (c : Fin 10) : EReal := sum2 fun h w => prob X c h w * hot T c h w
def fp (X : Img) (T : Lab) (c : Fin 10) : EReal := sum2 fun h w => prob X c h w * (1 - hot T c h w)
def fn (X : Img) (T : Lab) (c : Fin 10) : EReal := sum2 fun h w => (1 - prob X c h w) * hot T c h w
def inter (X : Img) (T : Lab) (c : Fin 10) : EReal := sum2 fun h w => pb X c h w * gb T c h w * valid T h w
def dpb (X : Img) (T : Lab) (c : Fin 10) : EReal := sum2 fun h w => pb X c h w * valid T h w
def dgb (T : Lab) (c : Fin 10) : EReal := sum2 fun h w => gb T c h w * valid T h w

/-- The statistics in the order both programs lay them out: the focal numerator and denominator, then ten each of
    TP, FP, FN, the boundary intersection, and the two boundary masses. -/
def statVec (X : Img) (T : Lab) (k : Fin 62) : EReal :=
  if k.val = 0 then fnum X T
  else if k.val = 1 then fden T
  else if h2 : k.val < 12 then tp X T ⟨k.val - 2, by omega⟩
  else if h3 : k.val < 22 then fp X T ⟨k.val - 12, by omega⟩
  else if h4 : k.val < 32 then fn X T ⟨k.val - 22, by omega⟩
  else if h5 : k.val < 42 then inter X T ⟨k.val - 32, by omega⟩
  else if h6 : k.val < 52 then dpb X T ⟨k.val - 42, by omega⟩
  else dgb T ⟨k.val - 52, by omega⟩

/-- The batch's totals. -/
def total (X : Logits) (T : Labels) (k : Fin 62) : EReal := ∑ b : Fin 8, statVec (img X b) (lab T b) k

end Cert.SegLoss

end
-- ==== Proof.RefCommon.lean ====
import proofs.«401271_j53171695125135_2_alg».proof.Proof.RefRead
import proofs.«401271_j53171695125135_2_alg».proof.Proof.Spec

/-! The reference's shared stages read at an index: the validity mask, the clipped label, the log-softmax, the
    softmax and the one-hot array are, image by image and pixel by pixel, the specification's `valid`, `cls`, `logp`,
    `prob` and `hot`. The softmax stages need every logit finite.

    At a pixel whose ten logits are real numbers the class maximum `m` is real and `S = Σ exp (x - m)` is a positive
    real, so inside the extended reals `(x - m) - log S = x - (m + log S)` and `exp (x - m) / S = exp (x - (m + log S))`
    are identities of real arithmetic; the first part of the module proves them, the second reads the program's
    stages. -/

noncomputable section

namespace Cert.SegLoss.Ref

open Idealize.ShloMosaic Idealize.ShloMosaic.TcCoe Idealize.ShloMosaic.ValueIdx Cert.ReferenceIdeal Cert.ReferenceIdeal.ReadP
open Cert.SegLoss Cert.ReferenceIdeal.Gen

/-! ## Real arithmetic inside the extended reals -/

/-- The coercion of a finite sum of reals is the sum of the coercions. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- An extended real that is neither infinity is a real number. -/
theorem exists_real {x : EReal} (h : x ≠ ⊤ ∧ x ≠ ⊥) : ∃ r : ℝ, x = (r : EReal) :=
  ⟨x.toReal, (EReal.coe_toReal h.1 h.2).symm⟩

/-- The class maximum at a pixel whose ten logits are real is real: it is at least the first logit and below `⊤`. -/
theorem mx_real (X : Img) (h w : Fin 512) (hX : ∀ c, X c h w ≠ ⊤ ∧ X c h w ≠ ⊥) :
    ∃ m : ℝ, mx X h w = (m : EReal) := by
  apply exists_real
  unfold mx
  constructor
  · apply ne_of_lt
    rw [Finset.fold_max_lt]
    exact ⟨bot_lt_top, fun c _ => lt_top_iff_ne_top.2 (hX c).1⟩
  · apply ne_of_gt
    have h0 : X 0 h w ≤ (Finset.univ : Finset (Fin 10)).fold max ⊥ (fun c => X c h w) :=
      (Finset.le_fold_max _).2 (Or.inr ⟨0, Finset.mem_univ _, le_rfl⟩)
    exact lt_of_lt_of_le (bot_lt_iff_ne_bot.2 (hX 0).2) h0

/-- At such a pixel the logits, their maximum and the sum of the shifted exponentials are real numbers, the sum a
    positive one. -/
theorem pixel_real (X : Img) (h w : Fin 512) (hX : ∀ c, X c h w ≠ ⊤ ∧ X c h w ≠ ⊥) :
    ∃ (x : Fin 10 → ℝ) (m s : ℝ), 0 < s ∧ (∀ c, X c h w = (x c : EReal)) ∧ mx X h w = (m : EReal) ∧
      sumExp X h w = (s : EReal) := by
  obtain ⟨m, hm⟩ := mx_real X h w hX
  choose x hx using fun c => exists_real (hX c)
  refine ⟨x, m, ∑ c, Real.exp (x c - m), Finset.sum_pos (fun c _ => Real.exp_pos _) Finset.univ_nonempty, hx, hm, ?_⟩
  unfold sumExp
  rw [coe_finset_sum]
  refine Finset.sum_congr rfl fun c _ => ?_
  rw [hx c, hm, ← EReal.coe_sub, Ideal.exp_coe]

/-- `(x - m) - log S = x - (m + log S)` at a pixel of real logits. -/
theorem sub_sub_log_eq_logp (X : Img) (c : Fin 10) (h w : Fin 512) (hX : ∀ c, X c h w ≠ ⊤ ∧ X c h w ≠ ⊥) :
    (X c h w - mx X h w) - Ideal.log (sumExp X h w) = logp X c h w := by
  obtain ⟨x, m, s, hs, hx, hm, hS⟩ := pixel_real X h w hX
  unfold logp lse
  rw [hx c, hm, hS, Ideal.log_coe, if_neg (not_le.2 hs), ← EReal.coe_sub, ← EReal.coe_sub, ← EReal.coe_add,
    ← EReal.coe_sub, sub_sub]

/-- The log-probability at a pixel of real logits is real. -/
theorem logp_real (X : Img) (c : Fin 10) (h w : Fin 512) (hX : ∀ c, X c h w ≠ ⊤ ∧ X c h w ≠ ⊥) :
    ∃ r : ℝ, logp X c h w = (r : EReal) := by
  obtain ⟨x, m, s, hs, hx, hm, hS⟩ := pixel_real X h w hX
  refine ⟨x c - (m + Real.log s), ?_⟩
  unfold logp lse
  rw [hx c, hm, hS, Ideal.log_coe, if_neg (not_le.2 hs), ← EReal.coe_add, ← EReal.coe_sub]

/-- The probability at a pixel of real logits is real. -/
theorem prob_real (X : Img) (c : Fin 10) (h w : Fin 512) (hX : ∀ c, X c h w ≠ ⊤ ∧ X c h w ≠ ⊥) :
    ∃ r : ℝ, prob X c h w = (r : EReal) := by
  obtain ⟨r, hr⟩ := logp_real X c h w hX
  exact ⟨Real.exp r, by unfold prob; rw [hr, Ideal.exp_coe]⟩

/-- `exp (x - m) / S = exp (x - (m + log S))` at a pixel of real logits. -/
theorem exp_div_eq_prob (X : Img) (c : Fin 10) (h w : Fin 512) (hX : ∀ c, X c h w ≠ ⊤ ∧ X c h w ≠ ⊥) :
    Ideal.div (Ideal.exp (X c h w - mx X h w)) (sumExp X h w) = prob X c h w := by
  obtain ⟨x, m, s, hs, hx, hm, hS⟩ := pixel_real X h w hX
  unfold prob logp lse
  rw [hx c, hm, hS, Ideal.log_coe, if_neg (not_le.2 hs), ← EReal.coe_sub, ← EReal.coe_add, ← EReal.coe_sub,
    Ideal.exp_coe, Ideal.exp_coe, Ideal.div_coe (ne_of_gt hs), ← EReal.coe_mul]
  congr 1
  rw [← sub_sub, Real.exp_sub (x c - m), Real.exp_log hs, mul_one_div]

/-! ## The label stages -/

/-- `%1 = targets ≠ 255`, the bit. -/
theorem validBit_apply (T : Labels) (b : Fin 8) (h w : Fin 512) :
    val_main_v1 (F := Ideal) T (ix3 b h w) = if T (ix3 b h w) = 255#32 then 0#1 else 1#1 := by
  rw [val_main_v1_apply, val_main_v0_apply, val_main_c_apply]
  unfold IntOp.cmpi
  by_cases hT : T (ix3 b h w) = 255#32
  · simp [hT]
  · have e : (T (ix3 b h w) != 255#32) = true := bne_iff_ne.2 hT
    simp [hT, e]

/-- `%2 = convert (targets ≠ 255)`. -/
theorem valid_apply (T : Labels) (b : Fin 8) (h w : Fin 512) :
    val_main_v2 (F := Ideal) T (ix3 b h w) = valid (lab T b) h w := by
  rw [val_main_v2_apply, validBit_apply]
  unfold valid lab
  by_cases hT : T (ix3 b h w) = 255#32
  · simp [hT, FloatOps.uitofp]
  · simp [hT, FloatOps.uitofp]

/-- `%4 = clip targets 0 9`. -/
theorem cls_apply (T : Labels) (b : Fin 8) (h w : Fin 512) :
    val_main_v4 (F := Ideal) T (ix3 b h w) = cls (lab T b) h w := by
  rw [val_main_v4_apply, val_main_call1_v4_apply, val_main_call1_v3_apply, val_main_c_1_apply,
    val_main_call1_v2_apply, val_main_call1_v1_apply, val_main_call1_v0_apply, val_main_c_0_apply]
  rfl

/-- `%53 = one_hot (clip targets)`: the clipped label, broadcast along the class axis, compared with the class
    index, the bit read as `0` or `1`. -/
theorem hot_apply (T : Labels) (b : Fin 8) (c : Fin 10) (h w : Fin 512) :
    val_main_v53 (F := Ideal) T (ix4 b c h w) = hot (lab T b) c h w := by
  rw [val_main_v53_apply, val_main_call6_v4_apply, val_main_call6_v2_apply, val_main_call6_v0_apply,
    val_main_call6_v3_apply, val_main_call6_v1_apply]
  have e1 : idx_main_call6_v0 (idx_main_call6_v2 (ix4 b c h w)) = ix3 b h w := by
    funext a; match a with | ⟨0, _⟩ => rfl | ⟨1, _⟩ => rfl | ⟨2, _⟩ => rfl
  rw [e1, cls_apply]
  unfold hot
  show FloatOps.uitofp (F := Ideal) .f32 (IntOp.cmpi .eq (cls (lab T b) h w) (BitVec.ofNat 32 c.val)) = _
  unfold IntOp.cmpi
  by_cases hc : cls (lab T b) h w = BitVec.ofNat 32 c.val
  · simp [hc, FloatOps.uitofp]
  · simp [hc, FloatOps.uitofp]

/-- The reference's class maximum — a reduce of `max` from `-∞` along the class axis — at image `b`, pixel `(h, w)`
    is the fold of `max` from `⊥` over the ten logits there. -/
theorem hostMax_apply (X : Logits) (b : Fin 8) (h w : Fin 512) :
    Host.reduce FloatOps.maximumf X (constant (F := Ideal) S_ .f32 0xFF800000#32)
        reducesTo_S8x10x512x512_S8x512x512_d1 h_S_ (ix3 b h w) = mx (img X b) h w := by
  have hr : S8x10x512x512.Reduces [1] S8x512x512 := by decide
  have e := Host.reduce_eq_fold_single (FloatOps.maximumf (F := Ideal) (φ := .f32)) X
    (constant (F := Ideal) S_ .f32 0xFF800000#32) reducesTo_S8x10x512x512_S8x512x512_d1 hr h_S_ (ix3 b h w)
  refine e.trans ?_
  unfold mx img
  have e2 : (X ∘ hr.lift (ix3 b h w)) = fun c : Fin 10 => X (ix4 b c h w) :=
    funext fun k => congrArg X (funext fun a => Fin.ext (by
      match a with | ⟨0, _⟩ => rfl | ⟨1, _⟩ => rfl | ⟨2, _⟩ => rfl | ⟨3, _⟩ => rfl))
  show Finset.fold max (Ideal.ofBits .f32 0xFF800000#32) (X ∘ hr.lift (ix3 b h w)) (Finset.univ : Finset (Fin 10)) = _
  rw [e2, ofBits_negInf]
  rfl

/-- Every logit of image `b` at a pixel is real when the batch's logits are. -/
theorem img_finite (X : Logits) (hX : Finite X) (b : Fin 8) (h w : Fin 512) :
    ∀ c, img X b c h w ≠ ⊤ ∧ img X b c h w ≠ ⊥ := fun c => hX (ix4 b c h w)

/-! ## The log-softmax stages -/

/-- `x - max (-∞, class maximum)`, broadcast back along the class axis: the logit minus `mx`. -/
theorem logShift_apply (X : Logits) (b : Fin 8) (c : Fin 10) (h w : Fin 512) :
    val_main_call0_v5 (F := Ideal) X (ix4 b c h w) = img X b c h w - mx (img X b) h w := by
  rw [val_main_call0_v5_apply, val_main_call0_v4_apply, val_main_call0_v3_apply, val_main_call0_v2_apply,
    val_main_call0_v1_apply, val_main_call0_cst_0_apply]
  have e1 : idx_main_call0_v3 (idx_main_call0_v4 (ix4 b c h w)) = ix3 b h w := by
    funext a; match a with | ⟨0, _⟩ => rfl | ⟨1, _⟩ => rfl | ⟨2, _⟩ => rfl
  rw [e1]
  have e2 : val_main_call0_v0 (F := Ideal) X (ix3 b h w) = mx (img X b) h w := hostMax_apply X b h w
  rw [e2]
  show X (ix4 b c h w) - max (Ideal.ofBits .f32 0xFF800000#32) (mx (img X b) h w) = _
  rw [ofBits_negInf, max_bot_left]
  rfl

/-- The sum over the classes of the exponentials of the shifted logits is `sumExp`. -/
theorem logSum_apply (X : Logits) (b : Fin 8) (h w : Fin 512) :
    val_main_call0_v7 (F := Ideal) X (ix3 b h w) = sumExp (img X b) h w := by
  rw [val_main_call0_v7_apply, val_main_call0_cst_1_apply]
  have e1 : ∀ k : Fin 10, idx_main_call0_v7 (ix3 b h w) k = ix4 b k h w := fun k => by
    funext a; match a with | ⟨0, _⟩ => rfl | ⟨1, _⟩ => rfl | ⟨2, _⟩ => rfl | ⟨3, _⟩ => rfl
  simp only [e1, val_main_call0_v6_apply, logShift_apply]
  show Ideal.ofBits .f32 0x00000000#32 + _ = _
  rw [Ideal.ofBits_zero_f32, zero_add]
  rfl

/-- `%3 = log_softmax inputs`: `(x - m) - log Σ exp (x - m)` is `x - (m + log Σ …)` on finite logits. -/
theorem logp_apply (X : Logits) (hX : Finite X) (b : Fin 8) (c : Fin 10) (h w : Fin 512) :
    val_main_v3 (F := Ideal) X (ix4 b c h w) = logp (img X b) c h w := by
  rw [← sub_sub_log_eq_logp (img X b) c h w (img_finite X hX b h w)]
  rw [val_main_v3_apply, val_main_call0_v10_apply, val_main_call0_v9_apply, val_main_call0_v8_apply, logShift_apply]
  have e1 : idx_main_call0_v8 (idx_main_call0_v10 (ix4 b c h w)) = ix3 b h w := by
    funext a; match a with | ⟨0, _⟩ => rfl | ⟨1, _⟩ => rfl | ⟨2, _⟩ => rfl
  rw [e1, logSum_apply]
  rfl

/-! ## The softmax stages -/

/-- `exp (x - max (-∞, class maximum))`: the exponential of the logit minus `mx`. -/
theorem expShift_apply (X : Logits) (b : Fin 8) (c : Fin 10) (h w : Fin 512) :
    val_main_v48 (F := Ideal) X (ix4 b c h w) = Ideal.exp (img X b c h w - mx (img X b) h w) := by
  rw [val_main_v48_apply, val_main_v47_apply, val_main_v46_apply, val_main_v45_apply, val_main_v44_apply,
    val_main_v43_apply, val_main_cst_13_apply]
  have e1 : idx_main_v45 (idx_main_v46 (ix4 b c h w)) = ix3 b h w := by
    funext a; match a with | ⟨0, _⟩ => rfl | ⟨1, _⟩ => rfl | ⟨2, _⟩ => rfl
  rw [e1]
  have e2 : val_main_v42 (F := Ideal) X (ix3 b h w) = mx (img X b) h w := hostMax_apply X b h w
  rw [e2]
  show Ideal.exp (X (ix4 b c h w) - max (Ideal.ofBits .f32 0xFF800000#32) (mx (img X b) h w)) = _
  rw [ofBits_negInf, max_bot_left]
  rfl

/-- The sum over the classes of those exponentials is `sumExp`. -/
theorem expSum_apply (X : Logits) (b : Fin 8) (h w : Fin 512) :
    val_main_v49 (F := Ideal) X (ix3 b h w) = sumExp (img X b) h w := by
  rw [val_main_v49_apply, val_main_cst_14_apply]
  have e1 : ∀ k : Fin 10, idx_main_v49 (ix3 b h w) k = ix4 b k h w := fun k => by
    funext a; match a with | ⟨0, _⟩ => rfl | ⟨1, _⟩ => rfl | ⟨2, _⟩ => rfl | ⟨3, _⟩ => rfl
  simp only [e1, expShift_apply]
  show Ideal.ofBits .f32 0x00000000#32 + _ = _
  rw [Ideal.ofBits_zero_f32, zero_add]
  rfl

/-- `%52 = softmax inputs`: `exp (x - m) / Σ exp (x - m)` is `exp (x - lse)` on finite logits. -/
theorem prob_apply (X : Logits) (hX : Finite X) (b : Fin 8) (c : Fin 10) (h w : Fin 512) :
    val_main_v52 (F := Ideal) X (ix4 b c h w) = prob (img X b) c h w := by
  rw [← exp_div_eq_prob (img X b) c h w (img_finite X hX b h w)]
  rw [val_main_v52_apply, val_main_v51_apply, val_main_v50_apply, expShift_apply]
  have e1 : idx_main_v50 (idx_main_v51 (ix4 b c h w)) = ix3 b h w := by
    funext a; match a with | ⟨0, _⟩ => rfl | ⟨1, _⟩ => rfl | ⟨2, _⟩ => rfl
  rw [e1, expSum_apply]
  rfl

/-- The log-probability and the probability at a pixel are real numbers when the logits are. -/
theorem logp_finite (X : Logits) (hX : Finite X) (b : Fin 8) (c : Fin 10) (h w : Fin 512) :
    ∃ r : ℝ, logp (img X b) c h w = (r : EReal) :=
  logp_real (img X b) c h w (img_finite X hX b h w)
theorem prob_finite (X : Logits) (hX : Finite X) (b : Fin 8) (c : Fin 10) (h w : Fin 512) :
    ∃ r : ℝ, prob (img X b) c h w = (r : EReal) :=
  prob_real (img X b) c h w (img_finite X hX b h w)

end Cert.SegLoss.Ref

end
-- ==== Proof.LibIdxSums.lean ====
import Idealize.ShloMosaic.PureOps.Ideal
import Idealize.ShloMosaic.PureOps.Ideal.Laws
import Idealize.ShloMosaic.PureOps.Reduce
import Idealize.ShloMosaic.Lib.ValueIdx

/-! General lemmas: a sum over a rank-3 or rank-4 index as iterated sums over its coordinates, and the host's float sum
    over axes 0, 2, 3 of a rank-4 array, read at one index of the kept axis. For any extents. -/

noncomputable section

namespace Cert.LibIdxSums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-3 index is the iterated sum over its three coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-4 index is the iterated sum over its four coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Dropping axes 0, 2 and 3 of a rank-4 index leaves its coordinate on axis 1: the dropped index is the rank-1 index of
    `c` exactly when that coordinate is `c`. -/
theorem drop_keep1_eq_iff {n0 n1 n2 n3 : Nat} (h : (⟨4, ![n0, n1, n2, n3]⟩ : Shape).ReducesTo [0, 2, 3] ⟨1, ![n1]⟩)
    (a : Fin n0) (b : Fin n1) (p : Fin n2) (q : Fin n3) (c : Fin n1) :
    h.drop (ix4 a b p q) = ix1 c ↔ b = c := by
  constructor
  · intro e
    have e0 := congrArg (fun j => ((j 0 : Fin n1) : Nat)) e
    exact Fin.ext e0
  · intro e
    subst e
    funext d
    match d with
    | ⟨0, _⟩ => exact Fin.ext rfl

/-- The host's float sum of a rank-4 array over axes 0, 2 and 3, at index `c` of the kept axis: the initial value plus the
    sum over the three reduced coordinates. -/
theorem hostReduceAdd_keep1 {n0 n1 n2 n3 : Nat} (h : (⟨4, ![n0, n1, n2, n3]⟩ : Shape).ReducesTo [0, 2, 3] ⟨1, ![n1]⟩)
    (x : (⟨4, ![n0, n1, n2, n3]⟩ : Shape).Idx → EReal) (init : EReal) (c : Fin n1) :
    Ideal.hostReduceAdd h x init (ix1 c) = init + ∑ a : Fin n0, ∑ p : Fin n2, ∑ q : Fin n3, x (ix4 a c p q) := by
  unfold Ideal.hostReduceAdd
  congr 1
  rw [Finset.sum_filter, sum_idx4]
  refine Finset.sum_congr rfl fun a _ => ?_
  -- for a fixed first coordinate, only the terms whose second coordinate is `c` survive
  have hb : ∀ b : Fin n1, (∑ p : Fin n2, ∑ q : Fin n3, if h.drop (ix4 a b p q) = ix1 c then x (ix4 a b p q) else 0)
      = if b = c then ∑ p : Fin n2, ∑ q : Fin n3, x (ix4 a b p q) else 0 := by
    intro b
    by_cases e : b = c
    · simp only [drop_keep1_eq_iff, e, if_true]
    · simp only [drop_keep1_eq_iff, e, if_false, Finset.sum_const_zero]
  simp only [hb]
  rw [Finset.sum_ite_eq' Finset.univ c]
  simp

end Cert.LibIdxSums

end
-- ==== Proof.RefFocal.lean ====
import proofs.«401271_j53171695125135_2_alg».proof.Proof.RefCommon
import proofs.«401271_j53171695125135_2_alg».proof.Proof.LibIdxSums
import Idealize.ShloMosaic.Lib.WordArith
import Idealize.ShloMosaic.PureOps.Reduce

/-! The reference's focal numerator and denominator are the sums over the eight images of the specification's. The
    gather along the class axis picks the clipped label's log-probability; `(1 - pt) ^ 1` is `1 - pt`; and the boundary
    weight multiplies only pixels whose validity is zero, so it drops out.

    In order: the clipped label is one of the ten class numbers, so the gather's index normalisation is the identity and
    its in-range mask is true everywhere; the gather, read at a pixel, is the log-softmax at the clipped label's class;
    minus that is the specification's cross-entropy, because the class indicator has exactly one nonzero term; its
    exponential is the target probability; a real number to the power one is itself; the boundary weight is one wherever
    the label is not the ignored one, and where it is the ignored one the validity factor is zero and so is the product.
    Last, the sum over the rank-3 index is the iterated sum over image, row and column. -/

noncomputable section

namespace Cert.SegLoss.Ref.Focal

open Idealize.ShloMosaic Idealize.ShloMosaic.TcCoe Idealize.ShloMosaic.ValueIdx Cert.ReferenceIdeal Cert.ReferenceIdeal.ReadP
open Cert.SegLoss Cert.SegLoss.Ref

/-! ## The clipped label is a class number -/

/-- A label clipped to the signed range from 0 to 9 is one of the ten class numbers. -/
theorem clip_cases (x : BitVec 32) : ∃ k : Fin 10, IntOp.minsi 9#32 (IntOp.maxsi 0#32 x) = BitVec.ofNat 32 k.val := by
  have hm := WordArith.toInt_maxsi_zero x
  generalize IntOp.maxsi 0#32 x = m at hm
  have hm0 : 0 ≤ m.toInt := by rw [hm]; exact le_max_left _ _
  unfold IntOp.minsi
  by_cases h : (9#32 : BitVec 32).slt m = true
  · rw [if_pos h]; exact ⟨⟨9, by omega⟩, rfl⟩
  · rw [if_neg h]
    rw [BitVec.slt_iff_toInt_lt] at h
    have h9 : (9#32 : BitVec 32).toInt = 9 := by decide
    rw [h9] at h
    have e := BitVec.toInt_eq_toNat_cond m
    have hlt := m.isLt
    have h9' : m.toNat ≤ 9 := by split at e <;> omega
    refine ⟨⟨m.toNat, by omega⟩, ?_⟩
    apply BitVec.eq_of_toNat_eq
    rw [BitVec.toNat_ofNat]
    show m.toNat = m.toNat % 2 ^ 32
    omega

/-- The clipped label at any index, from the program's stages. -/
theorem v4_eq (T : Labels) (i : S8x512x512.Idx) :
    val_main_v4 (F := Ideal) T i = IntOp.minsi 9#32 (IntOp.maxsi 0#32 (T i)) := by
  rw [val_main_v4_apply, val_main_call1_v4_apply, val_main_call1_v3_apply, val_main_c_1_apply, val_main_call1_v2_apply,
    val_main_call1_v1_apply, val_main_call1_v0_apply, val_main_c_0_apply]

/-- The broadcast clipped label is a class number at every index. -/
theorem v5_cases (T : Labels) (i : S8x1x512x512.Idx) : ∃ k : Fin 10, val_main_v5 (F := Ideal) T i = BitVec.ofNat 32 k.val := by
  rw [val_main_v5_apply, v4_eq]; exact clip_cases _

/-- A class number is not negative, so the gather's index normalisation leaves it alone. -/
theorem norm_idx (T : Labels) (i : S8x1x512x512.Idx) : val_main_call2_v4 (F := Ideal) T i = val_main_v5 (F := Ideal) T i := by
  obtain ⟨k, hk⟩ := v5_cases T i
  rw [val_main_call2_v4_apply, val_main_call2_v1_apply, val_main_call2_v0_apply, val_main_call2_c_apply, hk]
  have : IntOp.cmpi .slt (BitVec.ofNat 32 k.val) 0#32 = 0#1 := by fin_cases k <;> rfl
  rw [this, select_zero]

/-- A class number is between 0 and 9, so the gather's in-range mask is true at every index. -/
theorem mask_elem (T : Labels) (i : S8x1x512x512x1.Idx) : val_main_call2_v11 (F := Ideal) T i = 1#1 := by
  rw [val_main_call2_v11_apply, val_main_call2_v7_apply, val_main_call2_v10_apply, val_main_call2_v5_apply, norm_idx,
    val_main_call2_v6_apply, val_main_call2_c_2_apply, val_main_call2_v9_apply, val_main_call2_v8_apply, val_main_call2_c_1_apply]
  obtain ⟨k, hk⟩ := v5_cases T (idx_main_call2_v5 i)
  rw [hk]
  fin_cases k <;> rfl

/-! ## The gather's mask and the gather itself -/

/-- A conjunction of bits that are all true, taken from true, is true. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons.2 (Or.inr hi)))]
    rfl

/-- The in-range mask, reduced over its unit axis, is true at every index. -/
theorem mask_all (T : Labels) (j : S8x1x512x512.Idx) : val_main_call2_v12 (F := Ideal) T j = 1#1 := by
  unfold val_main_call2_v12
  rw [Host.reduce_eq_fold]
  exact fold_andi_one _ _ (fun i _ => mask_elem T i)

/-- The gather along the class axis, read at batch `b`, row `h`, column `w`: the operand at the class `k` the start
    index names (read signed and clamped into 0 … 9), at the same batch, row and column. -/
theorem gather_class (x : S8x10x512x512.Idx → EReal) (idx : IVec S8x1x512x512x1 32) (b : Fin 8) (h w : Fin 512) (k : Fin 10)
    (hk : min (idx (ix5 b 0 h w 0)).toInt.toNat 9 = k.val) :
    Host.gather gather_S8x10x512x512_S8x1x512x512x1_S8x1x512x512_n_1_023_023_1_4_1111 x idx (ix4 b 0 h w)
      = x (ix4 b k h w) := by
  have h0 : (gather_S8x10x512x512_S8x1x512x512x1_S8x1x512x512_n_1_023_023_1_4_1111).start (ix4 b 0 h w) idx (0 : Fin 4)
      + (gather_S8x10x512x512_S8x1x512x512x1_S8x1x512x512_n_1_023_023_1_4_1111).batchCoord (ix4 b 0 h w) (0 : Fin 4)
      + (gather_S8x10x512x512_S8x1x512x512x1_S8x1x512x512_n_1_023_023_1_4_1111).offCoord (ix4 b 0 h w) (0 : Fin 4) = b.val := by
    rw [GatherDims.start_batching _ _ _ _ (by decide), GatherDims.offCoord_eq_zero _ _ _ (by decide), Nat.zero_add, Nat.add_zero]
    rfl
  have h2 : (gather_S8x10x512x512_S8x1x512x512x1_S8x1x512x512_n_1_023_023_1_4_1111).start (ix4 b 0 h w) idx (2 : Fin 4)
      + (gather_S8x10x512x512_S8x1x512x512x1_S8x1x512x512_n_1_023_023_1_4_1111).batchCoord (ix4 b 0 h w) (2 : Fin 4)
      + (gather_S8x10x512x512_S8x1x512x512x1_S8x1x512x512_n_1_023_023_1_4_1111).offCoord (ix4 b 0 h w) (2 : Fin 4) = h.val := by
    rw [GatherDims.start_batching _ _ _ _ (by decide), GatherDims.offCoord_eq_zero _ _ _ (by decide), Nat.zero_add, Nat.add_zero]
    rfl
  have h3 : (gather_S8x10x512x512_S8x1x512x512x1_S8x1x512x512_n_1_023_023_1_4_1111).start (ix4 b 0 h w) idx (3 : Fin 4)
      + (gather_S8x10x512x512_S8x1x512x512x1_S8x1x512x512_n_1_023_023_1_4_1111).batchCoord (ix4 b 0 h w) (3 : Fin 4)
      + (gather_S8x10x512x512_S8x1x512x512x1_S8x1x512x512_n_1_023_023_1_4_1111).offCoord (ix4 b 0 h w) (3 : Fin 4) = w.val := by
    rw [GatherDims.start_batching _ _ _ _ (by decide), GatherDims.offCoord_eq_zero _ _ _ (by decide), Nat.zero_add, Nat.add_zero]
    rfl
  have h1 : (gather_S8x10x512x512_S8x1x512x512x1_S8x1x512x512_n_1_023_023_1_4_1111).start (ix4 b 0 h w) idx (1 : Fin 4)
      + (gather_S8x10x512x512_S8x1x512x512x1_S8x1x512x512_n_1_023_023_1_4_1111).batchCoord (ix4 b 0 h w) (1 : Fin 4)
      + (gather_S8x10x512x512_S8x1x512x512x1_S8x1x512x512_n_1_023_023_1_4_1111).offCoord (ix4 b 0 h w) (1 : Fin 4) = k.val := by
    rw [GatherDims.batchCoord_eq_zero _ _ _ (by decide), GatherDims.offCoord_eq_zero _ _ _ (by decide), Nat.add_zero]
    unfold GatherDims.start
    rw [dif_pos (by decide)]
    have hsi : (gather_S8x10x512x512_S8x1x512x512x1_S8x1x512x512_n_1_023_023_1_4_1111).siIdx (ix4 b 0 h w)
        ⟨List.idxOf (1 : Fin 4) (gather_S8x10x512x512_S8x1x512x512x1_S8x1x512x512_n_1_023_023_1_4_1111).startIndexMap,
          List.idxOf_lt_length_iff.2 (by decide)⟩ = ix5 b 0 h w 0 := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    exact hk
  unfold Host.gather
  congr 1
  funext a
  refine Fin.ext ?_
  match a with
  | ⟨0, _⟩ => exact h0
  | ⟨1, _⟩ => exact h1
  | ⟨2, _⟩ => exact h2
  | ⟨3, _⟩ => exact h3

/-! ## The index maps of the reshapes and the broadcast, at an index given by its coordinates -/

theorem idx_v7 (b : Fin 8) (h w : Fin 512) : idx_main_v7 (ix3 b h w) = ix4 b 0 h w := by
  have hb := b.isLt; have hh := h.isLt; have hw := w.isLt
  funext a
  match a with
  | ⟨0, _⟩ => exact Fin.ext (by show ((b.val * 512 + h.val) * 512 + w.val) / 262144 = b.val; omega)
  | ⟨1, _⟩ => rfl
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

theorem idx_call2_v5 (b : Fin 8) (h w : Fin 512) : idx_main_call2_v5 (ix5 b 0 h w 0) = ix4 b 0 h w := by
  have hb := b.isLt; have hh := h.isLt; have hw := w.isLt
  funext a
  match a with
  | ⟨0, _⟩ => exact Fin.ext (by show ((((b.val * 1 + 0) * 512 + h.val) * 512 + w.val) * 1 + 0) / 262144 = b.val; omega)
  | ⟨1, _⟩ => rfl
  | ⟨2, _⟩ => exact Fin.ext (by show ((((b.val * 1 + 0) * 512 + h.val) * 512 + w.val) * 1 + 0) / 512 % 512 = h.val; omega)
  | ⟨3, _⟩ => exact Fin.ext (by show ((((b.val * 1 + 0) * 512 + h.val) * 512 + w.val) * 1 + 0) % 512 = w.val; omega)

theorem idx_v5 (b : Fin 8) (h w : Fin 512) : idx_main_v5 (ix4 b 0 h w) = ix3 b h w := by
  funext a
  match a with
  | ⟨0, _⟩ => rfl
  | ⟨1, _⟩ => rfl
  | ⟨2, _⟩ => rfl

/-- Two class numbers are the same word only when they are the same class. -/
theorem ofNat_class_inj (k c : Fin 10) : BitVec.ofNat 32 k.val = BitVec.ofNat 32 c.val ↔ k = c := by
  constructor
  · intro e
    have := congrArg BitVec.toNat e
    rw [BitVec.toNat_ofNat, BitVec.toNat_ofNat] at this
    have hk := k.isLt; have hc := c.isLt
    exact Fin.ext (by omega)
  · rintro rfl; rfl

/-- The clipped label of a pixel is one of the ten class numbers. -/
theorem cls_cases (T : Labels) (b : Fin 8) (h w : Fin 512) : ∃ k : Fin 10, cls (lab T b) h w = BitVec.ofNat 32 k.val :=
  clip_cases _

/-- The indicator of the clipped label's class is one, of any other class zero. -/
theorem hot_of_cls (T : Labels) (b : Fin 8) (h w : Fin 512) (k : Fin 10) (hk : cls (lab T b) h w = BitVec.ofNat 32 k.val)
    (c : Fin 10) : hot (lab T b) c h w = if c = k then 1 else 0 := by
  unfold hot
  rw [hk]
  by_cases hc : c = k
  · rw [if_pos hc, if_pos ((ofNat_class_inj k c).2 hc.symm)]
  · rw [if_neg hc, if_neg (fun e => hc ((ofNat_class_inj k c).1 e).symm)]

/-- A sum over the classes weighted by the indicator of class `k` is its term at `k`. -/
theorem sum_hot (T : Labels) (b : Fin 8) (h w : Fin 512) (k : Fin 10) (hk : cls (lab T b) h w = BitVec.ofNat 32 k.val)
    (f : Fin 10 → EReal) : ∑ c : Fin 10, hot (lab T b) c h w * f c = f k := by
  rw [Finset.sum_eq_single k]
  · rw [hot_of_cls T b h w k hk, if_pos rfl, one_mul]
  · intro c _ hc
    rw [hot_of_cls T b h w k hk, if_neg hc, zero_mul]
  · intro hk'; exact absurd (Finset.mem_univ k) hk'

/-- `%7`: the gathered log-probability is that of the clipped label's class. -/
theorem v7_apply (X : Logits) (T : Labels) (hX : Finite X) (b : Fin 8) (h w : Fin 512) (k : Fin 10)
    (hk : cls (lab T b) h w = BitVec.ofNat 32 k.val) :
    val_main_v7 (F := Ideal) X T (ix3 b h w) = logp (img X b) k h w := by
  rw [val_main_v7_apply, idx_v7, val_main_v6_apply, mask_all, select_one]
  unfold val_main_call2_v13
  rw [gather_class _ _ b h w k, logp_apply X hX]
  rw [val_main_call2_v5_apply, idx_call2_v5, norm_idx, val_main_v5_apply, idx_v5, cls_apply, hk]
  fin_cases k <;> rfl

/-! ## The focal term at a pixel -/

/-- `%9`: minus the gathered log-probability at a pixel whose label is not the ignored one. -/
theorem v9_of_valid (X : Logits) (T : Labels) (hX : Finite X) (b : Fin 8) (h w : Fin 512) (k : Fin 10)
    (hk : cls (lab T b) h w = BitVec.ofNat 32 k.val) (hv : ¬ T (ix3 b h w) = 255#32) :
    val_main_v9 (F := Ideal) X T (ix3 b h w) = -logp (img X b) k h w := by
  rw [val_main_v9_apply, validBit_apply, if_neg hv, select_one, val_main_v8_apply, v7_apply X T hX b h w k hk]
  rfl

/-- The specification's cross-entropy there: the indicator picks the clipped label's class. -/
theorem ce_of_valid (X : Logits) (T : Labels) (b : Fin 8) (h w : Fin 512) (k : Fin 10)
    (hk : cls (lab T b) h w = BitVec.ofNat 32 k.val) (hv : ¬ T (ix3 b h w) = 255#32) :
    ce (img X b) (lab T b) h w = -logp (img X b) k h w := by
  have hv' : ¬ lab T b h w = 255#32 := hv
  unfold ce
  rw [if_neg hv', sum_hot T b h w k hk (fun c => 0 - logp (img X b) c h w), zero_sub]

/-- A real number to the power one is itself. -/
theorem pow_one_of_real (r : ℝ) : Ideal.pow ((1 : EReal) - (r : EReal)) 1 = 1 - (r : EReal) := by
  rw [← EReal.coe_one, ← EReal.coe_sub, Ideal.pow_coe_coe]
  exact congrArg _ (Real.rpow_one _)

/-- `%18` at a pixel whose label is not the ignored one: the specification's focal term. -/
theorem v18_of_valid (X : Logits) (T : Labels) (hX : Finite X) (b : Fin 8) (h w : Fin 512) (hv : ¬ T (ix3 b h w) = 255#32) :
    val_main_v18 (F := Ideal) X T (ix3 b h w) = focal (img X b) (lab T b) h w := by
  obtain ⟨k, hk⟩ := cls_cases T b h w
  obtain ⟨r, hr⟩ := prob_finite X hX b k h w
  have hpt : pt (img X b) (lab T b) h w = prob (img X b) k h w := by
    unfold pt; exact sum_hot T b h w k hk (fun c => prob (img X b) c h w)
  unfold focal
  rw [ce_of_valid X T b h w k hk hv, hpt]
  rw [val_main_v18_apply, val_main_v17_apply, val_main_v16_apply, val_main_cst_4_apply, val_main_v15_apply,
    val_main_v13_apply, val_main_v12_apply, val_main_cst_2_apply, val_main_v14_apply, val_main_cst_3_apply,
    val_main_v11_apply, val_main_v10_apply, v9_of_valid X T hX b h w k hk hv]
  show quarter * Ideal.pow (Ideal.ofBits .f32 0x3F800000#32 - Ideal.exp (-(-logp (img X b) k h w))) (Ideal.ofBits .f32 0x3F800000#32)
      * (-logp (img X b) k h w) = quarter * (1 - prob (img X b) k h w) * (-logp (img X b) k h w)
  rw [ofBits_one, neg_neg, show Ideal.exp (logp (img X b) k h w) = prob (img X b) k h w from rfl, hr, pow_one_of_real]

/-- `%34`, the boundary weight, is one at a pixel whose label is not the ignored one: the "ignored" bit is zero there, so
    the conjunction with it is. -/
theorem v34_of_valid (T : Labels) (b : Fin 8) (h w : Fin 512) (hv : ¬ T (ix3 b h w) = 255#32) :
    val_main_v34 (F := Ideal) T (ix3 b h w) = 1 := by
  rw [val_main_v34_apply, val_main_v33_apply, val_main_v32_apply, val_main_v31_apply, validBit_apply, if_neg hv]
  generalize val_main_v30 (F := Ideal) T (ix3 b h w) = g
  have hz : IntOp.andi g (~~~(1#1 : BitVec 1)) = 0#1 := by
    rcases BitVec.eq_zero_or_eq_one g with rfl | rfl <;> rfl
  rw [hz, select_zero, val_main_call5_v1_apply, val_main_cst_8_apply]
  exact ofBits_one

/-- `%36` at a pixel: the focal term times the validity. At an ignored pixel the validity is zero and so is the product,
    whatever the other factors are. -/
theorem v36_pixel (X : Logits) (T : Labels) (hX : Finite X) (b : Fin 8) (h w : Fin 512) :
    val_main_v36 (F := Ideal) X T (ix3 b h w) = focal (img X b) (lab T b) h w * valid (lab T b) h w := by
  rw [val_main_v36_apply, val_main_v35_apply, valid_apply]
  show val_main_v18 (F := Ideal) X T (ix3 b h w) * valid (lab T b) h w * val_main_v34 (F := Ideal) T (ix3 b h w) = _
  by_cases hv : T (ix3 b h w) = 255#32
  · have h0 : valid (lab T b) h w = 0 := by unfold valid; exact if_pos hv
    rw [h0, mul_zero, zero_mul, mul_zero]
  · have h1 : valid (lab T b) h w = 1 := by unfold valid; exact if_neg hv
    rw [h1, v34_of_valid T b h w hv, v18_of_valid X T hX b h w hv, mul_one, mul_one]

/-- `%38` at a pixel: the validity (times a weight that is one wherever the validity is not zero). -/
theorem v38_pixel (T : Labels) (b : Fin 8) (h w : Fin 512) :
    val_main_v38 (F := Ideal) T (ix3 b h w) = valid (lab T b) h w := by
  rw [val_main_v38_apply, valid_apply]
  show valid (lab T b) h w * val_main_v34 (F := Ideal) T (ix3 b h w) = _
  by_cases hv : T (ix3 b h w) = 255#32
  · have h0 : valid (lab T b) h w = 0 := by unfold valid; exact if_pos hv
    rw [h0, zero_mul]
  · rw [v34_of_valid T b h w hv, mul_one]

end Cert.SegLoss.Ref.Focal

namespace Cert.SegLoss.Ref

open Idealize.ShloMosaic Idealize.ShloMosaic.TcCoe Idealize.ShloMosaic.ValueIdx Cert.ReferenceIdeal Cert.ReferenceIdeal.ReadP
open Cert.SegLoss Cert.SegLoss.Ref.Focal

/-! ## The sums over the batch -/

theorem fnum_eq (X : Logits) (T : Labels) (hX : Finite X) :
    val_main_v37 (F := Ideal) X T ix0 = ∑ b : Fin 8, fnum (img X b) (lab T b) := by
  rw [val_main_v37_apply, val_main_cst_9_apply]
  show Ideal.ofBits .f32 0x00000000#32 + ∑ j : S8x512x512.Idx, val_main_v36 (F := Ideal) X T j = _
  rw [Ideal.ofBits_zero_f32, zero_add, Cert.LibIdxSums.sum_idx3]
  refine Finset.sum_congr rfl (fun b _ => ?_)
  unfold fnum sum2
  exact Finset.sum_congr rfl (fun h _ => Finset.sum_congr rfl (fun w _ => v36_pixel X T hX b h w))

theorem fden_eq (T : Labels) :
    val_main_v39 (F := Ideal) T ix0 = ∑ b : Fin 8, fden (lab T b) := by
  rw [val_main_v39_apply, val_main_cst_10_apply]
  show Ideal.ofBits .f32 0x00000000#32 + ∑ j : S8x512x512.Idx, val_main_v38 (F := Ideal) T j = _
  rw [Ideal.ofBits_zero_f32, zero_add, Cert.LibIdxSums.sum_idx3]
  refine Finset.sum_congr rfl (fun b _ => ?_)
  unfold fden sum2
  exact Finset.sum_congr rfl (fun h _ => Finset.sum_congr rfl (fun w _ => v38_pixel T b h w))

end Cert.SegLoss.Ref

end
-- ==== Proof.RefTversky.lean ====
import proofs.«401271_j53171695125135_2_alg».proof.Proof.RefCommon
import proofs.«401271_j53171695125135_2_alg».proof.Proof.LibIdxSums

/-! The reference's Tversky sums TP, FP, FN per class are the sums over the eight images of the specification's. -/

noncomputable section

namespace Cert.SegLoss.Ref

open Idealize.ShloMosaic Idealize.ShloMosaic.TcCoe Idealize.ShloMosaic.ValueIdx Cert.ReferenceIdeal Cert.ReferenceIdeal.ReadP
open Cert.SegLoss Cert.LibIdxSums

/-- The float sum from zero over the image, row and column axes of a batch array, at class `c`: when the array reads at
    image `b`, class `c`, pixel `(h, w)` as the plane `f b` there, the sum is the sum over the images of the planes' sums. -/
theorem sumKeepClass (y : (⟨4, ![8, 10, 512, 512]⟩ : Shape).Idx → EReal)
    (r : (⟨4, ![8, 10, 512, 512]⟩ : Shape).ReducesTo [0, 2, 3] ⟨1, ![10]⟩) (c : Fin 10) (f : Fin 8 → Plane)
    (hy : ∀ b h w, y (ix4 b c h w) = f b h w) :
    Ideal.hostReduceAdd r y (Ideal.ofBits .f32 0x00000000#32) (ix1 c) = ∑ b : Fin 8, sum2 (f b) := by
  rw [hostReduceAdd_keep1, Ideal.ofBits_zero_f32, zero_add]
  refine Finset.sum_congr rfl fun b _ => ?_
  unfold sum2
  refine Finset.sum_congr rfl fun h _ => ?_
  refine Finset.sum_congr rfl fun w _ => ?_
  exact hy b h w

theorem tp_eq (X : Logits) (T : Labels) (hX : Finite X) (c : Fin 10) :
    val_main_v55 (F := Ideal) X T (ix1 c) = ∑ b : Fin 8, tp (img X b) (lab T b) c := by
  unfold val_main_v55
  generalize hy : val_main_v54 (F := Ideal) X T = y0
  simp only [Host.reduceAdd, Ideal.hostReduceAdd_def]
  rw [val_main_cst_15_apply, Ideal.ofBits_def]
  refine sumKeepClass y0 _ c (fun b h w => prob (img X b) c h w * hot (lab T b) c h w) fun b h w => ?_
  subst hy
  -- the summand is the product of the softmax and the one-hot array
  rw [val_main_v54_apply, prob_apply X hX, hot_apply, Ideal.mulf_def]

theorem fp_eq (X : Logits) (T : Labels) (hX : Finite X) (c : Fin 10) :
    val_main_v59 (F := Ideal) X T (ix1 c) = ∑ b : Fin 8, fp (img X b) (lab T b) c := by
  unfold val_main_v59
  generalize hy : val_main_v58 (F := Ideal) X T = y0
  simp only [Host.reduceAdd, Ideal.hostReduceAdd_def]
  rw [val_main_cst_17_apply, Ideal.ofBits_def]
  refine sumKeepClass y0 _ c (fun b h w => prob (img X b) c h w * (1 - hot (lab T b) c h w)) fun b h w => ?_
  subst hy
  -- the summand is the softmax times one minus the one-hot array
  rw [val_main_v58_apply, val_main_v57_apply, val_main_v56_apply, val_main_cst_16_apply, prob_apply X hX, hot_apply,
    Ideal.mulf_def, Ideal.subf_def, Ideal.ofBits_def, ofBits_one]

theorem fn_eq (X : Logits) (T : Labels) (hX : Finite X) (c : Fin 10) :
    val_main_v63 (F := Ideal) X T (ix1 c) = ∑ b : Fin 8, fn (img X b) (lab T b) c := by
  unfold val_main_v63
  generalize hy : val_main_v62 (F := Ideal) X T = y0
  simp only [Host.reduceAdd, Ideal.hostReduceAdd_def]
  rw [val_main_cst_19_apply, Ideal.ofBits_def]
  refine sumKeepClass y0 _ c (fun b h w => (1 - prob (img X b) c h w) * hot (lab T b) c h w) fun b h w => ?_
  subst hy
  -- the summand is one minus the softmax, times the one-hot array
  rw [val_main_v62_apply, val_main_v61_apply, val_main_v60_apply, val_main_cst_18_apply, prob_apply X hX, hot_apply,
    Ideal.mulf_def, Ideal.subf_def, Ideal.ofBits_def, ofBits_one]

end Cert.SegLoss.Ref

end
-- ==== Proof.RefDice.lean ====
import proofs.«401271_j53171695125135_2_alg».proof.Proof.RefCommon
import proofs.«401271_j53171695125135_2_alg».proof.Proof.LibIdxSums

/-! The reference's boundary-dice sums per class are the sums over the eight images of the specification's. Its 3 × 3
    window maximum, padded with -∞, is `maxPool`; the window maximum of the negated plane is minus `minPool`. -/

noncomputable section

namespace Cert.SegLoss.Ref

open Idealize.ShloMosaic Idealize.ShloMosaic.TcCoe Idealize.ShloMosaic.ValueIdx Cert.ReferenceIdeal Cert.ReferenceIdeal.ReadP
open Cert.SegLoss Cert.ReferenceIdeal.Gen

/-! The auxiliary lemmas of this module live in the sub-namespace `Dice`; the three results are stated after it. -/
namespace Dice

/-! ## The window reduction read at an index -/

/-- The shape of the 3 × 3 window over the last two axes. -/
abbrev W33 : Shape := ⟨4, ![1, 1, 3, 3]⟩

/-- A left fold over the nine numbers below nine, written out. -/
theorem foldl_finRange_nine {α : Type} (n : Nat) (hn : n = 9) (F : α → Fin n → α) (v : α) :
    (List.finRange n).foldl F v
      = F (F (F (F (F (F (F (F (F v ⟨0, by omega⟩) ⟨1, by omega⟩) ⟨2, by omega⟩) ⟨3, by omega⟩) ⟨4, by omega⟩)
          ⟨5, by omega⟩) ⟨6, by omega⟩) ⟨7, by omega⟩) ⟨8, by omega⟩ := by
  subst hn
  rfl

/-- The window has nine positions. -/
theorem W33_numel : W33.numel = 9 := by decide

/-- Position `3 dh + dw` of the window in row-major order is row `dh`, column `dw`. -/
theorem W33_symm (k : Nat) (hk : k < W33.numel) (dh dw : Nat) (hdh : dh < 3) (hdw : dw < 3) (e : k = dh * 3 + dw) :
    W33.rowMajor.symm ⟨k, hk⟩ = ix4 (0 : Fin 1) (0 : Fin 1) (⟨dh, hdh⟩ : Fin 3) (⟨dw, hdw⟩ : Fin 3) := by
  rw [Equiv.symm_apply_eq]
  apply Fin.ext
  rw [Shape.rowMajor_val_four]
  show k = (((0 * 1 + 0) * 3 + dh) * 3 + dw)
  omega

/-- What one position `q` of a window contributes at the result index `j`: the operand at `j · strides + q - lo` where
    that is an index of the operand, the padding value `v` elsewhere. -/
def winTerm {s : Shape} (window strides lo : Fin s.rank → Nat) (x : s.Idx → EReal) (v : EReal) (j : s.Idx)
    (q : (⟨s.rank, window⟩ : Shape).Idx) : EReal :=
  let p : Fin s.rank → Nat := fun a => (j a).val * strides a + (q a).val
  @dite EReal (∀ a, lo a ≤ p a ∧ p a - lo a < s.size a) (Nat.decidableForallFin _)
    (fun hin => x (fun a => ⟨p a - lo a, (hin a).2⟩)) (fun _ => v)

/-- A window reduction by the maximum into a result of the operand's shape is the left fold of the maximum, from the
    padding value, over the window's positions in row-major order. -/
theorem reduceWindow_eq_fold {s u : Shape} (window strides lo hi : Fin s.rank → Nat) (x : s.Idx → EReal) (init : u.Idx → EReal)
    (hw : s.ReduceWindows window strides lo hi s) (hu : 0 < u.numel) (j : s.Idx) :
    Host.reduceWindow (FloatOps.maximumf (F := Ideal) (φ := .f32)) window strides lo hi x init hw hu j
      = (List.finRange (⟨s.rank, window⟩ : Shape).numel).foldl (fun r n => max r (winTerm window strides lo x (init (Shape.Idx.first hu)) j
          ((⟨s.rank, window⟩ : Shape).rowMajor.symm n))) (init (Shape.Idx.first hu)) := rfl

/-- Position `(dh, dw)` of the 3 × 3 window around pixel `(h, w)` of plane `(b, c)` reads the plane at
    `(h + dh - 1, w + dw - 1)` when that is inside the image: the specification's `nb`. -/
theorem winTerm_eq_nb (x : S8x10x512x512.Idx → EReal) (v : EReal) (b : Fin 8) (c : Fin 10) (h w : Fin 512) (dh dw : Nat)
    (hdh : dh < 3) (hdw : dw < 3) :
    winTerm (s := S8x10x512x512) ![1, 1, 3, 3] ![1, 1, 1, 1] ![0, 0, 1, 1] x v (ix4 b c h w)
        (ix4 (0 : Fin 1) (0 : Fin 1) (⟨dh, hdh⟩ : Fin 3) (⟨dw, hdw⟩ : Fin 3))
      = nb v (fun h' w' => x (ix4 b c h' w')) dh dw h w := by
  unfold winTerm nb
  dsimp only
  by_cases hh : (1 ≤ h.val + dh ∧ h.val + dh - 1 < 512) ∧ (1 ≤ w.val + dw ∧ w.val + dw - 1 < 512)
  · rw [dif_pos hh]
    split
    · next hin =>
      congr 1
      funext a
      match a with
      | ⟨0, _⟩ => exact Fin.ext (by show b.val * 1 + 0 - 0 = b.val; omega)
      | ⟨1, _⟩ => exact Fin.ext (by show c.val * 1 + 0 - 0 = c.val; omega)
      | ⟨2, _⟩ => exact Fin.ext (by show h.val * 1 + dh - 1 = h.val + dh - 1; omega)
      | ⟨3, _⟩ => exact Fin.ext (by show w.val * 1 + dw - 1 = w.val + dw - 1; omega)
    · next hin =>
      exfalso
      apply hin
      intro a
      match a with
      | ⟨0, _⟩ => show 0 ≤ b.val * 1 + 0 ∧ b.val * 1 + 0 - 0 < 8; have := b.isLt; omega
      | ⟨1, _⟩ => show 0 ≤ c.val * 1 + 0 ∧ c.val * 1 + 0 - 0 < 10; have := c.isLt; omega
      | ⟨2, _⟩ => show 1 ≤ h.val * 1 + dh ∧ h.val * 1 + dh - 1 < 512; omega
      | ⟨3, _⟩ => show 1 ≤ w.val * 1 + dw ∧ w.val * 1 + dw - 1 < 512; omega
  · rw [dif_neg hh]
    split
    · next hin =>
      exfalso
      apply hh
      have h2 : 1 ≤ h.val * 1 + dh ∧ h.val * 1 + dh - 1 < 512 := hin (2 : Fin 4)
      have h3 : 1 ≤ w.val * 1 + dw ∧ w.val * 1 + dw - 1 < 512 := hin (3 : Fin 4)
      omega
    · rfl

/-- The 3 × 3 window maximum with padding value `v`, at pixel `(h, w)` of plane `(b, c)`: the maximum, from `v`, of the
    nine neighbours in row-major order. -/
theorem reduceWindow_apply (x : S8x10x512x512.Idx → EReal) (init : S_.Idx → EReal)
    (hw : S8x10x512x512.ReduceWindows (![1, 1, 3, 3] : Fin 4 → Nat) ![1, 1, 1, 1] ![0, 0, 1, 1] ![0, 0, 1, 1] S8x10x512x512)
    (hu : 0 < S_.numel) (v : EReal) (hv : init (Shape.Idx.first hu) = v) (f : Plane) (b : Fin 8) (c : Fin 10)
    (hf : ∀ h' w', x (ix4 b c h' w') = f h' w') (h w : Fin 512) :
    Host.reduceWindow (FloatOps.maximumf (F := Ideal) (φ := .f32)) ![1, 1, 3, 3] ![1, 1, 1, 1] ![0, 0, 1, 1] ![0, 0, 1, 1] x init hw hu
        (ix4 b c h w)
      = max (max (max (max (max (max (max (max (max v (nb v f 0 0 h w)) (nb v f 0 1 h w)) (nb v f 0 2 h w))
          (nb v f 1 0 h w)) (nb v f 1 1 h w)) (nb v f 1 2 h w)) (nb v f 2 0 h w)) (nb v f 2 1 h w)) (nb v f 2 2 h w) := by
  have hf' : (fun h' w' => x (ix4 b c h' w')) = f := funext fun h' => funext fun w' => hf h' w'
  rw [reduceWindow_eq_fold, foldl_finRange_nine _ W33_numel, hv]
  rw [W33_symm 0 _ 0 0 (by decide) (by decide) rfl, W33_symm 1 _ 0 1 (by decide) (by decide) rfl,
    W33_symm 2 _ 0 2 (by decide) (by decide) rfl, W33_symm 3 _ 1 0 (by decide) (by decide) rfl,
    W33_symm 4 _ 1 1 (by decide) (by decide) rfl, W33_symm 5 _ 1 2 (by decide) (by decide) rfl,
    W33_symm 6 _ 2 0 (by decide) (by decide) rfl, W33_symm 7 _ 2 1 (by decide) (by decide) rfl,
    W33_symm 8 _ 2 2 (by decide) (by decide) rfl]
  simp only [winTerm_eq_nb, hf']

/-! ## The window maximum as the specification's pools -/

/-- Negation turns a minimum into a maximum. -/
theorem neg_min (a b : EReal) : -(min a b) = max (-a) (-b) := by
  rcases le_total a b with h | h
  · rw [min_eq_left h, max_eq_left (EReal.neg_le_neg_iff.2 h)]
  · rw [min_eq_right h, max_eq_right (EReal.neg_le_neg_iff.2 h)]

/-- A neighbour of the negated plane padded with -∞ is minus the neighbour of the plane padded with +∞. -/
theorem nb_neg (f : Plane) (dh dw : ℕ) (h w : Fin 512) :
    nb ⊥ (fun h' w' => -f h' w') dh dw h w = -(nb ⊤ f dh dw h w) := by
  unfold nb
  by_cases hh : (1 ≤ h.val + dh ∧ h.val + dh - 1 < 512) ∧ (1 ≤ w.val + dw ∧ w.val + dw - 1 < 512)
  · rw [dif_pos hh, dif_pos hh]
  · rw [dif_neg hh, dif_neg hh, EReal.neg_top]

/-- The maximum from -∞ of the nine neighbours padded with -∞ is `maxPool`. -/
theorem foldMax_eq_maxPool (f : Plane) (h w : Fin 512) :
    max (max (max (max (max (max (max (max (max ⊥ (nb ⊥ f 0 0 h w)) (nb ⊥ f 0 1 h w)) (nb ⊥ f 0 2 h w))
      (nb ⊥ f 1 0 h w)) (nb ⊥ f 1 1 h w)) (nb ⊥ f 1 2 h w)) (nb ⊥ f 2 0 h w)) (nb ⊥ f 2 1 h w)) (nb ⊥ f 2 2 h w)
      = maxPool f h w := by
  unfold maxPool
  rw [max_bot_left]

/-- The same maximum over the negated plane is minus `minPool`: the maximum of the negatives is minus the minimum. -/
theorem foldMax_neg_eq_neg_minPool (f : Plane) (h w : Fin 512) :
    max (max (max (max (max (max (max (max (max ⊥ (nb ⊥ (fun h' w' => -f h' w') 0 0 h w)) (nb ⊥ (fun h' w' => -f h' w') 0 1 h w))
      (nb ⊥ (fun h' w' => -f h' w') 0 2 h w)) (nb ⊥ (fun h' w' => -f h' w') 1 0 h w)) (nb ⊥ (fun h' w' => -f h' w') 1 1 h w))
      (nb ⊥ (fun h' w' => -f h' w') 1 2 h w)) (nb ⊥ (fun h' w' => -f h' w') 2 0 h w)) (nb ⊥ (fun h' w' => -f h' w') 2 1 h w))
      (nb ⊥ (fun h' w' => -f h' w') 2 2 h w)
      = -(minPool f h w) := by
  unfold minPool
  rw [max_bot_left]
  simp only [nb_neg, neg_min]

/-- The padding values `%81`, `%84`, `%87`, `%90` are -∞. -/
theorem v81_bot : val_main_v81 (F := Ideal) (Shape.Idx.first h_S_) = (⊥ : EReal) := by
  rw [val_main_v81_apply, val_main_cst_29_apply]; exact ofBits_negInf
theorem v84_bot : val_main_v84 (F := Ideal) (Shape.Idx.first h_S_) = (⊥ : EReal) := by
  rw [val_main_v84_apply, val_main_cst_30_apply]; exact ofBits_negInf
theorem v87_bot : val_main_v87 (F := Ideal) (Shape.Idx.first h_S_) = (⊥ : EReal) := by
  rw [val_main_v87_apply, val_main_cst_31_apply]; exact ofBits_negInf
theorem v90_bot : val_main_v90 (F := Ideal) (Shape.Idx.first h_S_) = (⊥ : EReal) := by
  rw [val_main_v90_apply, val_main_cst_32_apply]; exact ofBits_negInf

/-- `%86 = %82 + %85`: the window maximum of the softmax plus the window maximum of its negative is the softmax's
    morphological gradient. -/
theorem pb_apply (X : Logits) (hX : Finite X) (b : Fin 8) (c : Fin 10) (h w : Fin 512) :
    val_main_v86 (F := Ideal) X (ix4 b c h w) = pb (img X b) c h w := by
  rw [val_main_v86_apply]
  unfold val_main_v82 val_main_v85
  rw [reduceWindow_apply (val_main_v52 (F := Ideal) X) _ _ _ ⊥ v81_bot (prob (img X b) c) b c
      (fun h' w' => prob_apply X hX b c h' w') h w,
    reduceWindow_apply (val_main_v83 (F := Ideal) X) _ _ _ ⊥ v84_bot (fun h' w' => -(prob (img X b) c h' w')) b c
      (fun h' w' => by rw [val_main_v83_apply, prob_apply X hX b c h' w']; rfl) h w,
    foldMax_eq_maxPool, foldMax_neg_eq_neg_minPool]
  show maxPool (prob (img X b) c) h w + -(minPool (prob (img X b) c) h w) = pb (img X b) c h w
  unfold pb grad
  rw [sub_eq_add_neg]

/-- `%92 = %88 + %91`: the same for the one-hot array. -/
theorem gb_apply (T : Labels) (b : Fin 8) (c : Fin 10) (h w : Fin 512) :
    val_main_v92 (F := Ideal) T (ix4 b c h w) = gb (lab T b) c h w := by
  rw [val_main_v92_apply]
  unfold val_main_v88 val_main_v91
  rw [reduceWindow_apply (val_main_v53 (F := Ideal) T) _ _ _ ⊥ v87_bot (hot (lab T b) c) b c
      (fun h' w' => hot_apply T b c h' w') h w,
    reduceWindow_apply (val_main_v89 (F := Ideal) T) _ _ _ ⊥ v90_bot (fun h' w' => -(hot (lab T b) c h' w')) b c
      (fun h' w' => by rw [val_main_v89_apply, hot_apply T b c h' w']; rfl) h w,
    foldMax_eq_maxPool, foldMax_neg_eq_neg_minPool]
  show maxPool (hot (lab T b) c) h w + -(minPool (hot (lab T b) c) h w) = gb (lab T b) c h w
  unfold gb grad
  rw [sub_eq_add_neg]

/-- The validity mask broadcast over the class axis (`%95`, `%98`, `%101`: the same broadcast of `%93`). -/
theorem v93_apply (T : Labels) (b : Fin 8) (c : Fin 10) (h w : Fin 512) :
    val_main_v93 (F := Ideal) T (idx_main_v95 (ix4 b c h w)) = valid (lab T b) h w := by
  rw [val_main_v93_apply, ← valid_apply T b h w]
  congr 1
  funext a
  match a with
  | ⟨0, _⟩ => rfl
  | ⟨1, _⟩ => rfl
  | ⟨2, _⟩ => rfl

/-! ## The three sums -/

/-- The reference's sum over the batch, row and column axes, from zero, at class `c`. -/
theorem sumKeepClass_apply (y : S8x10x512x512.Idx → EReal) (init : S_.Idx → EReal)
    (h0 : init (Shape.Idx.first h_S_) = 0) (c : Fin 10) :
    Host.reduceAdd (F := Ideal) (φ := .f32) y init reducesTo_S8x10x512x512_S10_d0_2_3 h_S_ (ix1 c)
      = ∑ b : Fin 8, ∑ h : Fin 512, ∑ w : Fin 512, y (ix4 b c h w) := by
  simp only [Host.reduceAdd, Ideal.hostReduceAdd_def]
  rw [LibIdxSums.hostReduceAdd_keep1, h0, zero_add]

/-- The sums start from zero: `%cst_33`, `%cst_34`, `%cst_35` are the float word of 0. -/
theorem cst33_zero : val_main_cst_33 (F := Ideal) (Shape.Idx.first h_S_) = (0 : EReal) := by
  rw [val_main_cst_33_apply]; exact Ideal.ofBits_zero_f32
theorem cst34_zero : val_main_cst_34 (F := Ideal) (Shape.Idx.first h_S_) = (0 : EReal) := by
  rw [val_main_cst_34_apply]; exact Ideal.ofBits_zero_f32
theorem cst35_zero : val_main_cst_35 (F := Ideal) (Shape.Idx.first h_S_) = (0 : EReal) := by
  rw [val_main_cst_35_apply]; exact Ideal.ofBits_zero_f32

/-- `%96 = (%86 * %92) * %95`: the two gradients' product, masked. -/
theorem v96_apply (X : Logits) (T : Labels) (hX : Finite X) (b : Fin 8) (c : Fin 10) (h w : Fin 512) :
    val_main_v96 (F := Ideal) X T (ix4 b c h w) = pb (img X b) c h w * gb (lab T b) c h w * valid (lab T b) h w := by
  rw [val_main_v96_apply, val_main_v94_apply, val_main_v95_apply, v93_apply, pb_apply X hX, gb_apply]
  rfl

/-- `%99 = %86 * %98`: the softmax's gradient, masked. -/
theorem v99_apply (X : Logits) (T : Labels) (hX : Finite X) (b : Fin 8) (c : Fin 10) (h w : Fin 512) :
    val_main_v99 (F := Ideal) X T (ix4 b c h w) = pb (img X b) c h w * valid (lab T b) h w := by
  rw [val_main_v99_apply, val_main_v98_apply, v93_apply, pb_apply X hX]
  rfl

/-- `%102 = %92 * %101`: the one-hot array's gradient, masked. -/
theorem v102_apply (T : Labels) (b : Fin 8) (c : Fin 10) (h w : Fin 512) :
    val_main_v102 (F := Ideal) T (ix4 b c h w) = gb (lab T b) c h w * valid (lab T b) h w := by
  rw [val_main_v102_apply, val_main_v101_apply, v93_apply, gb_apply]
  rfl

end Dice

open Dice

/-- `%97`: the masked product of the two gradients, summed over batch, rows and columns, is the sum over the eight
    images of the specification's boundary intersection for class `c`. -/
theorem inter_eq (X : Logits) (T : Labels) (hX : Finite X) (c : Fin 10) :
    val_main_v97 (F := Ideal) X T (ix1 c) = ∑ b : Fin 8, inter (img X b) (lab T b) c := by
  unfold val_main_v97
  rw [sumKeepClass_apply _ _ cst33_zero c]
  refine Finset.sum_congr rfl fun b _ => ?_
  unfold inter sum2
  exact Finset.sum_congr rfl fun h _ => Finset.sum_congr rfl fun w _ => v96_apply X T hX b c h w

/-- `%100`: the masked gradient of the softmax, summed, is the sum over the images of the predicted boundary mass. -/
theorem dpb_eq (X : Logits) (T : Labels) (hX : Finite X) (c : Fin 10) :
    val_main_v100 (F := Ideal) X T (ix1 c) = ∑ b : Fin 8, dpb (img X b) (lab T b) c := by
  unfold val_main_v100
  rw [sumKeepClass_apply _ _ cst34_zero c]
  refine Finset.sum_congr rfl fun b _ => ?_
  unfold dpb sum2
  exact Finset.sum_congr rfl fun h _ => Finset.sum_congr rfl fun w _ => v99_apply X T hX b c h w

/-- `%103`: the masked gradient of the one-hot array, summed, is the sum over the images of the label boundary mass. -/
theorem dgb_eq (T : Labels) (c : Fin 10) :
    val_main_v103 (F := Ideal) T (ix1 c) = ∑ b : Fin 8, dgb (lab T b) c := by
  unfold val_main_v103
  rw [sumKeepClass_apply _ _ cst35_zero c]
  refine Finset.sum_congr rfl fun b _ => ?_
  unfold dgb sum2
  exact Finset.sum_congr rfl fun h _ => Finset.sum_congr rfl fun w _ => v102_apply T b c h w

end Cert.SegLoss.Ref

end
-- ==== Proof.Combine.lean ====
import proofs.«401271_j53171695125135_2_alg».proof.KernelIdeal
import proofs.«401271_j53171695125135_2_alg».proof.Proof.Spec

/-! The scalar formula both programs apply to the batch's totals: the focal quotient, one minus the mean Tversky
    index, one minus the mean boundary dice, weighted 0.5, 0.5 and 0.2. Written once, over the host operations both
    programs print, so that neither side ever opens it. -/

noncomputable section

namespace Cert.SegLoss

open Idealize.ShloMosaic Idealize.ShloMosaic.TcCoe Idealize.ShloMosaic.ValueIdx Cert.KernelIdeal

theorem bcast_S_S10 : S_.BroadcastsInDim S10 (![] : Fin 0 → Fin S10.rank) := by decide
theorem reducesTo_S10_S_d0 : S10.ReducesTo [0] S_ := by decide
theorem h_S_ : 0 < S_.numel := by decide

/-- The loss from the totals: `fnum / max fden 1e-8`, the Tversky index `(TP + ε) / (TP + 0.5 FP + 0.7 FN + ε)` and the
    dice `(2 I + ε) / (P + G + ε)` averaged over the ten classes. -/
def lossOf (fnum fden : FVec Ideal S_ .f32) (tp fp fn inter dpb dgb : FVec Ideal S10 .f32) : FVec Ideal S_ .f32 :=
  addf
    (addf
      (mulf (constant S_ .f32 0x3F000000#32) (Host.divf fnum (maximumf fden (constant S_ .f32 0x322BCC77#32))))
      (mulf (constant S_ .f32 0x3F000000#32)
        (subf (constant S_ .f32 0x3F800000#32)
          (Host.divf
            (Host.reduceAdd
              (Host.divf (addf tp (broadcastInDim S10 ![] bcast_S_S10 (constant S_ .f32 0x358637BD#32)))
                (addf (addf (addf tp (mulf (broadcastInDim S10 ![] bcast_S_S10 (constant S_ .f32 0x3F000000#32)) fp))
                    (mulf (broadcastInDim S10 ![] bcast_S_S10 (constant S_ .f32 0x3F333333#32)) fn))
                  (broadcastInDim S10 ![] bcast_S_S10 (constant S_ .f32 0x358637BD#32))))
              (constant S_ .f32 0x00000000#32) reducesTo_S10_S_d0 h_S_)
            (constant S_ .f32 0x41200000#32)))))
    (mulf (constant S_ .f32 0x3E4CCCCD#32)
      (subf (constant S_ .f32 0x3F800000#32)
        (Host.divf
          (Host.reduceAdd
            (Host.divf
              (addf (mulf (broadcastInDim S10 ![] bcast_S_S10 (constant S_ .f32 0x40000000#32)) inter)
                (broadcastInDim S10 ![] bcast_S_S10 (constant S_ .f32 0x358637BD#32)))
              (addf (addf dpb dgb) (broadcastInDim S10 ![] bcast_S_S10 (constant S_ .f32 0x358637BD#32))))
            (constant S_ .f32 0x00000000#32) reducesTo_S10_S_d0 h_S_)
          (constant S_ .f32 0x41200000#32))))

/-- Ten consecutive entries of the 62 totals, from offset `o`. -/
def seg (tot : Fin 62 → EReal) (o : ℕ) (ho : o + 10 ≤ 62) : FVec Ideal S10 .f32 := fun i => tot ⟨o + (i 0).val, by have h10 : (i 0).val < 10 := (i 0).isLt; omega⟩

/-- The loss from the 62 totals in their layout. -/
def lossOfTotals (tot : Fin 62 → EReal) : FVec Ideal S_ .f32 :=
  lossOf (fun _ => tot 0) (fun _ => tot 1) (seg tot 2 (by omega)) (seg tot 12 (by omega)) (seg tot 22 (by omega))
    (seg tot 32 (by omega)) (seg tot 42 (by omega)) (seg tot 52 (by omega))

end Cert.SegLoss

end
-- ==== Proof.RefLoss.lean ====
import proofs.«401271_j53171695125135_2_alg».proof.Proof.RefFocal
import proofs.«401271_j53171695125135_2_alg».proof.Proof.RefTversky
import proofs.«401271_j53171695125135_2_alg».proof.Proof.RefDice
import proofs.«401271_j53171695125135_2_alg».proof.Proof.Combine

/-! The reference's result is the loss formula of the batch's totals: its last stages are the formula applied to its eight
    sums, and each sum is the corresponding total. -/

noncomputable section

namespace Cert.SegLoss.Ref

open Idealize.ShloMosaic Idealize.ShloMosaic.TcCoe Idealize.ShloMosaic.ValueIdx Cert.ReferenceIdeal Cert.ReferenceIdeal.ReadP
open Cert.SegLoss

/-- The reference's last stages are the loss formula of its eight sums, operation for operation. -/
theorem loss_stages (X : Logits) (T : Labels) :
    val_main_v116 (F := Ideal) X T
      = lossOf (val_main_v37 (F := Ideal) X T) (val_main_v39 (F := Ideal) T) (val_main_v55 (F := Ideal) X T)
          (val_main_v59 (F := Ideal) X T) (val_main_v63 (F := Ideal) X T) (val_main_v97 (F := Ideal) X T)
          (val_main_v100 (F := Ideal) X T) (val_main_v103 (F := Ideal) T) := by
  generalize hv37 : val_main_v37 (F := Ideal) X T = a37
  generalize hv39 : val_main_v39 (F := Ideal) T = a39
  generalize hv55 : val_main_v55 (F := Ideal) X T = a55
  generalize hv59 : val_main_v59 (F := Ideal) X T = a59
  generalize hv63 : val_main_v63 (F := Ideal) X T = a63
  generalize hv97 : val_main_v97 (F := Ideal) X T = a97
  generalize hv100 : val_main_v100 (F := Ideal) X T = a100
  generalize hv103 : val_main_v103 (F := Ideal) T = a103
  simp only [val_main_v116, val_main_v80, val_main_v78, val_main_cst_27, val_main_v41, val_main_v40, val_main_cst_11, val_main_v79, val_main_cst_28, val_main_v77, val_main_cst_26, val_main_v76, val_main_v75, val_main_v74, val_main_v65, val_main_v64, val_main_cst_20, val_main_v73, val_main_v71, val_main_v68, val_main_v67, val_main_v66, val_main_cst_21, val_main_v70, val_main_v69, val_main_cst_22, val_main_v72, val_main_cst_23, val_main_cst_24, val_main_cst_25, val_main_v115, val_main_cst_42, val_main_v114, val_main_cst_41, val_main_v113, val_main_v112, val_main_v111, val_main_v108, val_main_v106, val_main_v105, val_main_cst_36, val_main_v107, val_main_cst_37, val_main_v110, val_main_v104, val_main_v109, val_main_cst_38, val_main_cst_39, val_main_cst_40, hv37, hv39, hv55, hv59, hv63, hv97, hv100, hv103, lossOf]

/-! The layout of the 62 statistics, segment by segment. -/

theorem statVec_zero (X : Img) (T : Lab) : statVec X T 0 = fnum X T := by
  simp [statVec]
theorem statVec_one (X : Img) (T : Lab) : statVec X T 1 = fden T := by
  simp [statVec]
theorem statVec_tp (X : Img) (T : Lab) (c : Fin 10) (h : 2 + c.val < 62) : statVec X T ⟨2 + c.val, h⟩ = tp X T c := by
  have hc := c.isLt
  unfold statVec
  rw [if_neg (by simp), if_neg (by simp; omega), dif_pos (by simp; omega)]
  congr 1; exact Fin.ext (by simp)
theorem statVec_fp (X : Img) (T : Lab) (c : Fin 10) (h : 12 + c.val < 62) : statVec X T ⟨12 + c.val, h⟩ = fp X T c := by
  have hc := c.isLt
  unfold statVec
  rw [if_neg (by simp), if_neg (by simp; omega), dif_neg (by simp <;> omega), dif_pos (by simp; omega)]
  congr 1; exact Fin.ext (by simp)
theorem statVec_fn (X : Img) (T : Lab) (c : Fin 10) (h : 22 + c.val < 62) : statVec X T ⟨22 + c.val, h⟩ = fn X T c := by
  have hc := c.isLt
  unfold statVec
  rw [if_neg (by simp), if_neg (by simp; omega), dif_neg (by simp <;> omega), dif_neg (by simp <;> omega), dif_pos (by simp; omega)]
  congr 1; exact Fin.ext (by simp)
theorem statVec_inter (X : Img) (T : Lab) (c : Fin 10) (h : 32 + c.val < 62) : statVec X T ⟨32 + c.val, h⟩ = inter X T c := by
  have hc := c.isLt
  unfold statVec
  rw [if_neg (by simp), if_neg (by simp; omega), dif_neg (by simp <;> omega), dif_neg (by simp <;> omega), dif_neg (by simp <;> omega), dif_pos (by simp; omega)]
  congr 1; exact Fin.ext (by simp)
theorem statVec_dpb (X : Img) (T : Lab) (c : Fin 10) (h : 42 + c.val < 62) : statVec X T ⟨42 + c.val, h⟩ = dpb X T c := by
  have hc := c.isLt
  unfold statVec
  rw [if_neg (by simp), if_neg (by simp; omega), dif_neg (by simp <;> omega), dif_neg (by simp <;> omega), dif_neg (by simp <;> omega), dif_neg (by simp <;> omega), dif_pos (by simp; omega)]
  congr 1; exact Fin.ext (by simp)
theorem statVec_dgb (X : Img) (T : Lab) (c : Fin 10) (h : 52 + c.val < 62) : statVec X T ⟨52 + c.val, h⟩ = dgb T c := by
  have hc := c.isLt
  unfold statVec
  rw [if_neg (by simp), if_neg (by simp; omega), dif_neg (by simp <;> omega), dif_neg (by simp <;> omega), dif_neg (by simp <;> omega), dif_neg (by simp <;> omega), dif_neg (by simp <;> omega)]
  congr 1; exact Fin.ext (by simp)

/-- A vector of ten per-class sums is the matching segment of the totals when each entry is the sum over the images of
    that segment's statistic. -/
theorem seg_eq (X : Logits) (T : Labels) (v : FVec Ideal S10 .f32) (o : ℕ) (ho : o + 10 ≤ 62) (s : Img → Lab → Fin 10 → EReal)
    (hv : ∀ c : Fin 10, v (ix1 c) = ∑ b : Fin 8, s (img X b) (lab T b) c)
    (hs : ∀ (Y : Img) (L : Lab) (c : Fin 10) (h : o + c.val < 62), statVec Y L ⟨o + c.val, h⟩ = s Y L c) :
    v = seg (total X T) o ho := by
  funext i
  obtain ⟨c, rfl⟩ : ∃ c : Fin 10, i = ix1 c := ⟨i 0, eq_ix1 i⟩
  rw [hv c]
  show _ = total X T ⟨o + c.val, _⟩
  unfold total
  exact Finset.sum_congr rfl fun b _ => (hs _ _ c _).symm

/-- Each of the reference's eight sums is the corresponding entry of the batch's totals. -/
theorem loss_eq (X : Logits) (T : Labels) (hX : Finite X) :
    val_main_v116 (F := Ideal) X T = lossOfTotals (total X T) := by
  rw [loss_stages]
  unfold lossOfTotals
  have e37 : val_main_v37 (F := Ideal) X T = fun _ => total X T 0 := by
    funext i; rw [eq_ix0 i, fnum_eq X T hX]; unfold total
    exact Finset.sum_congr rfl fun b _ => (statVec_zero _ _).symm
  have e39 : val_main_v39 (F := Ideal) T = fun _ => total X T 1 := by
    funext i; rw [eq_ix0 i, fden_eq T]; unfold total
    exact Finset.sum_congr rfl fun b _ => (statVec_one _ _).symm
  rw [e37, e39,
    seg_eq X T (val_main_v55 (F := Ideal) X T) 2 (by omega) tp (tp_eq X T hX) statVec_tp,
    seg_eq X T (val_main_v59 (F := Ideal) X T) 12 (by omega) fp (fp_eq X T hX) statVec_fp,
    seg_eq X T (val_main_v63 (F := Ideal) X T) 22 (by omega) fn (fn_eq X T hX) statVec_fn,
    seg_eq X T (val_main_v97 (F := Ideal) X T) 32 (by omega) inter (inter_eq X T hX) statVec_inter,
    seg_eq X T (val_main_v100 (F := Ideal) X T) 42 (by omega) dpb (dpb_eq X T hX) statVec_dpb,
    seg_eq X T (val_main_v103 (F := Ideal) T) 52 (by omega) (fun _ L c => dgb L c) (dgb_eq T) (fun Y L c h => statVec_dgb Y L c h)]

end Cert.SegLoss.Ref

end
-- ==== Proof.KernelPlanes.lean ====
import proofs.«401271_j53171695125135_2_alg».proof.Proof.Gen.KernelIdeal.Frame
import proofs.«401271_j53171695125135_2_alg».proof.Proof.Spec
import Idealize.ShloMosaic.Lib.Pipeline.Value
import Idealize.ShloMosaic.Lib.KernelVsHost

/-! The kernel's 512 × 512 vectors as planes of the image.

A grid point's logits block holds one image and its targets block that image's labels. Every vector the kernel computes
from them is a function of the pixel; this module writes such a vector as `planeOf f` for the plane `f` it holds, reads
the kernel's loads as planes of the image, and shows that the elementwise operations act on planes pixel by pixel. With
these, the kernel's text is rewritten, innermost first, into the per-image statistics of the specification. -/

noncomputable section

namespace Cert.SegLoss.Kernel

open Idealize.ShloMosaic Idealize.ShloMosaic.TcCoe Idealize.ShloMosaic.Tactic Idealize.SL.Sem Idealize.ShloMosaic.ValueIdx Cert.KernelIdeal Cert.KernelIdeal.Gen
open Cert.SegLoss

/-- The image a grid point's logits block holds. -/
def blockImg (x0 : Vec Ideal S1x10x512x512 .f32) : Img := fun cl h w => x0 (ix4 (0 : Fin 1) cl h w)
/-- The labels a grid point's targets block holds. -/
def blockLab (x1 : Vec Ideal S1x512x512 .i32) : Lab := fun h w => x1 (ix3 (0 : Fin 1) h w)

/-! ## Planes as the kernel holds them -/

/-- A plane of extended reals as a 512 × 512 vector: entry `(h, w)` is `f h w`. -/
def planeOf (f : Plane) : FVec Ideal S512x512 .f32 := fun j => f (j 0) (j 1)
/-- A plane of words as a 512 × 512 integer vector. -/
def wordsOf (g : Fin 512 → Fin 512 → BitVec 32) : IVec S512x512 32 := fun j => g (j 0) (j 1)
theorem planeOf_apply (f : Plane) (h w : Fin 512) : planeOf f (ix2 h w) = f h w := rfl
theorem wordsOf_apply (g : Fin 512 → Fin 512 → BitVec 32) (h w : Fin 512) : wordsOf g (ix2 h w) = g h w := rfl
theorem planeOf_eq (f : Plane) (j : S512x512.Idx) : planeOf f j = f (j 0) (j 1) := rfl

/-- Class `c`'s logits of the block, as the 1 × 1 × 512 × 512 vector a load of that class reads. -/
def ldPlane (x0 : Vec Ideal S1x10x512x512 .f32) (c : Fin 10) : Vec Ideal S1x1x512x512 .f32 := fun j => x0 (ix4 0 c (j 2) (j 3))

/-- A load of the block's rows of class `c` reads that class's plane: the rectangle starts at `(0, c, 0, 0)` and
    spans one image, one class and all pixels. -/
theorem load_plane (arg2 : Memref sig .tc .vmem S1x10x512x512 .f32) (harg2 : arg2.IsWhole) (x0 : Vec Ideal S1x10x512x512 .f32)
    (c : Fin 10) (off : Fin 4 → Nat) (hoff : off = ![0, c.val, 0, 0]) (inb : ∀ a, off a + (![1, 1, 512, 512] : Fin 4 → Nat) a ≤ S1x10x512x512.size a) :
    View.readAt (Elt Ideal) arg2.view (Rect.unit (s := S1x10x512x512) off ![1, 1, 512, 512] inb).toLoadRect (harg2.unread x0) = ldPlane x0 c := by
  rw [View.readAt_eq_ld, harg2.read_unread]
  subst hoff
  funext j
  show x0 _ = x0 _
  congr 1
  funext a
  apply Fin.ext
  have e : (((Rect.unit (s := S1x10x512x512) ![0, c.val, 0, 0] ![1, 1, 512, 512] inb).idx j a : Fin _) : Nat)
      = ![0, c.val, 0, 0] a + 1 * (j a).val := rfl
  rw [e]
  have h0 := (j 0).isLt
  have h1 := (j 1).isLt
  match a with
  | ⟨0, _⟩ => simp at h0 ⊢; omega
  | ⟨1, _⟩ => simp at h1 ⊢; omega
  | ⟨2, _⟩ => simp
  | ⟨3, _⟩ => simp

/-- A load of the whole labels block reads it. -/
theorem load_lab (arg3 : Memref sig .tc .vmem S1x512x512 .i32) (harg3 : arg3.IsWhole) (x1 : Vec Ideal S1x512x512 .i32)
    (inb) : View.readAt (Elt Ideal) arg3.view (Rect.unit (s := S1x512x512) ![0, 0, 0] ![1, 512, 512] inb).toLoadRect (harg3.unread x1) = x1 := by
  rw [View.readAt_eq_ld, harg3.read_unread]
  exact View.ld_unit_zero (by funext a; fin_cases a <;> rfl) inb x1

/-- A loaded class plane, its two unit axes dropped, is the image's plane of that class. -/
theorem squeeze_plane (x0 : Vec Ideal S1x10x512x512 .f32) (c : Fin 10) :
    (shapeCast (α := Ideal .f32) S512x512 (ldPlane x0 c) shapeCasts_S1x1x512x512_S512x512 : FVec Ideal S512x512 .f32) = planeOf (blockImg x0 c) := by
  funext j
  refine (shapeCast_apply (ldPlane x0 c) shapeCasts_S1x1x512x512_S512x512 j (ix4 (0 : Fin 1) (0 : Fin 1) (j 0) (j 1)) (by
    rw [Shape.rowMajor_val_two, Shape.rowMajor_val_four]; simp)).trans ?_
  rfl

/-! ## Elementwise operations on planes -/

theorem mulf_planes (a b : Plane) : mulf (planeOf a) (planeOf b) = planeOf (fun h w => a h w * b h w) := rfl
theorem addf_planes (a b : Plane) : addf (planeOf a) (planeOf b) = planeOf (fun h w => a h w + b h w) := rfl
theorem subf_planes (a b : Plane) : subf (planeOf a) (planeOf b) = planeOf (fun h w => a h w - b h w) := rfl
theorem exp_plane (a : Plane) : exp (planeOf a) = planeOf (fun h w => Ideal.exp (a h w)) := rfl
theorem log_plane (a : Plane) : log (planeOf a) = planeOf (fun h w => Ideal.log (a h w)) := rfl
theorem subf_const_plane (c : EReal) (a : Plane) : subf (broadcast S512x512 c) (planeOf a) = planeOf (fun h w => c - a h w) := rfl
theorem addf_const_plane (c : EReal) (a : Plane) : addf (broadcast S512x512 c) (planeOf a) = planeOf (fun h w => c + a h w) := rfl
theorem mulf_const_plane (c : EReal) (a : Plane) : mulf (broadcast S512x512 c) (planeOf a) = planeOf (fun h w => c * a h w) := rfl

/-! ## The ten class loads, by their literal offsets -/

theorem load_plane_0 (arg2 : Memref sig .tc .vmem S1x10x512x512 .f32) (harg2 : arg2.IsWhole) (x0 : Vec Ideal S1x10x512x512 .f32) (inb) :
    View.readAt (Elt Ideal) arg2.view (Rect.unit (s := S1x10x512x512) ![0, 0, 0, 0] ![1, 1, 512, 512] inb).toLoadRect (harg2.unread x0) = ldPlane x0 0 :=
  load_plane arg2 harg2 x0 0 _ rfl inb
theorem load_plane_1 (arg2 : Memref sig .tc .vmem S1x10x512x512 .f32) (harg2 : arg2.IsWhole) (x0 : Vec Ideal S1x10x512x512 .f32) (inb) :
    View.readAt (Elt Ideal) arg2.view (Rect.unit (s := S1x10x512x512) ![0, 1, 0, 0] ![1, 1, 512, 512] inb).toLoadRect (harg2.unread x0) = ldPlane x0 1 :=
  load_plane arg2 harg2 x0 1 _ rfl inb
theorem load_plane_2 (arg2 : Memref sig .tc .vmem S1x10x512x512 .f32) (harg2 : arg2.IsWhole) (x0 : Vec Ideal S1x10x512x512 .f32) (inb) :
    View.readAt (Elt Ideal) arg2.view (Rect.unit (s := S1x10x512x512) ![0, 2, 0, 0] ![1, 1, 512, 512] inb).toLoadRect (harg2.unread x0) = ldPlane x0 2 :=
  load_plane arg2 harg2 x0 2 _ rfl inb
theorem load_plane_3 (arg2 : Memref sig .tc .vmem S1x10x512x512 .f32) (harg2 : arg2.IsWhole) (x0 : Vec Ideal S1x10x512x512 .f32) (inb) :
    View.readAt (Elt Ideal) arg2.view (Rect.unit (s := S1x10x512x512) ![0, 3, 0, 0] ![1, 1, 512, 512] inb).toLoadRect (harg2.unread x0) = ldPlane x0 3 :=
  load_plane arg2 harg2 x0 3 _ rfl inb
theorem load_plane_4 (arg2 : Memref sig .tc .vmem S1x10x512x512 .f32) (harg2 : arg2.IsWhole) (x0 : Vec Ideal S1x10x512x512 .f32) (inb) :
    View.readAt (Elt Ideal) arg2.view (Rect.unit (s := S1x10x512x512) ![0, 4, 0, 0] ![1, 1, 512, 512] inb).toLoadRect (harg2.unread x0) = ldPlane x0 4 :=
  load_plane arg2 harg2 x0 4 _ rfl inb
theorem load_plane_5 (arg2 : Memref sig .tc .vmem S1x10x512x512 .f32) (harg2 : arg2.IsWhole) (x0 : Vec Ideal S1x10x512x512 .f32) (inb) :
    View.readAt (Elt Ideal) arg2.view (Rect.unit (s := S1x10x512x512) ![0, 5, 0, 0] ![1, 1, 512, 512] inb).toLoadRect (harg2.unread x0) = ldPlane x0 5 :=
  load_plane arg2 harg2 x0 5 _ rfl inb
theorem load_plane_6 (arg2 : Memref sig .tc .vmem S1x10x512x512 .f32) (harg2 : arg2.IsWhole) (x0 : Vec Ideal S1x10x512x512 .f32) (inb) :
    View.readAt (Elt Ideal) arg2.view (Rect.unit (s := S1x10x512x512) ![0, 6, 0, 0] ![1, 1, 512, 512] inb).toLoadRect (harg2.unread x0) = ldPlane x0 6 :=
  load_plane arg2 harg2 x0 6 _ rfl inb
theorem load_plane_7 (arg2 : Memref sig .tc .vmem S1x10x512x512 .f32) (harg2 : arg2.IsWhole) (x0 : Vec Ideal S1x10x512x512 .f32) (inb) :
    View.readAt (Elt Ideal) arg2.view (Rect.unit (s := S1x10x512x512) ![0, 7, 0, 0] ![1, 1, 512, 512] inb).toLoadRect (harg2.unread x0) = ldPlane x0 7 :=
  load_plane arg2 harg2 x0 7 _ rfl inb
theorem load_plane_8 (arg2 : Memref sig .tc .vmem S1x10x512x512 .f32) (harg2 : arg2.IsWhole) (x0 : Vec Ideal S1x10x512x512 .f32) (inb) :
    View.readAt (Elt Ideal) arg2.view (Rect.unit (s := S1x10x512x512) ![0, 8, 0, 0] ![1, 1, 512, 512] inb).toLoadRect (harg2.unread x0) = ldPlane x0 8 :=
  load_plane arg2 harg2 x0 8 _ rfl inb
theorem load_plane_9 (arg2 : Memref sig .tc .vmem S1x10x512x512 .f32) (harg2 : arg2.IsWhole) (x0 : Vec Ideal S1x10x512x512 .f32) (inb) :
    View.readAt (Elt Ideal) arg2.view (Rect.unit (s := S1x10x512x512) ![0, 9, 0, 0] ![1, 1, 512, 512] inb).toLoadRect (harg2.unread x0) = ldPlane x0 9 :=
  load_plane arg2 harg2 x0 9 _ rfl inb

end Cert.SegLoss.Kernel

end
-- ==== Proof.KernelFocal.lean ====
import proofs.«401271_j53171695125135_2_alg».proof.Proof.KernelPlanes
import proofs.«401271_j53171695125135_2_alg».proof.Proof.LibIdxSums
import Idealize.ShloMosaic.PureOps.Ideal.Laws

/-! The focal and Tversky statistics on the kernel's side.

The kernel holds every per-pixel quantity as a 512 × 512 vector. This module reads the label vectors (the clipped
label, the mask of the pixels that count, the indicator of each class) as planes of the image's labels; folds the
running maximum over the ten logit planes into the class maximum and the running sum of shifted exponentials into
their sum; reads the kernel's sum of a plane — one block summed over its two long axes into a single cell — as the sum
of the plane over the image; and closes the algebra of the focal numerator: the target probability and the
cross-entropy accumulated class by class onto zero are the sums over the ten classes. -/

noncomputable section

namespace Cert.SegLoss.Kernel

open Idealize.ShloMosaic Idealize.ShloMosaic.ValueIdx Cert.KernelIdeal Cert.KernelIdeal.Gen
open Cert.SegLoss

/-! ## The three float words of the focal and Tversky terms -/

theorem scalar_one : (Scalar.ofBits .f32 0x3F800000#32 : Ideal .f32) = (1 : EReal) := ofBits_one
theorem scalar_zero : (Scalar.ofBits .f32 0x00000000#32 : Ideal .f32) = (0 : EReal) := Ideal.ofBits_zero_f32
theorem scalar_quarter : (Scalar.ofBits .f32 0x3E800000#32 : Ideal .f32) = quarter := rfl

/-! ## The indicator of a class -/

/-- The bit of an equality of two words, widened to a word and read as a signed integer, is 1 or 0. -/
theorem cmpi_eq_toReal (a b : BitVec 32) :
    ((((IntOp.cmpi .eq a b).setWidth 32).toInt : ℝ) : EReal) = if a = b then 1 else 0 := by
  by_cases h : a = b
  · subst h; simp [IntOp.cmpi]
  · have hb : (a == b) = false := by simpa using h
    simp [IntOp.cmpi, hb, h]

/-- Comparing the clipped labels with the constant plane `c`, widening the bit and converting it to a float
    gives the indicator plane of class `c`. -/
theorem hot_plane (T : Lab) (c : Fin 10) :
    (sitofp .f32 (extui 32 (cmpi .eq (wordsOf (cls T)) (broadcast S512x512 (BitVec.ofNat 32 c.val))) natLt_1_32) : FVec Ideal S512x512 .f32)
      = planeOf (hot T c) := by
  funext j
  exact cmpi_eq_toReal _ _

theorem hot_plane_0 (T : Lab) : (sitofp .f32 (extui 32 (cmpi .eq (wordsOf (cls T)) (broadcast S512x512 0#32)) natLt_1_32) : FVec Ideal S512x512 .f32) = planeOf (hot T 0) := hot_plane T 0
theorem hot_plane_1 (T : Lab) : (sitofp .f32 (extui 32 (cmpi .eq (wordsOf (cls T)) (broadcast S512x512 1#32)) natLt_1_32) : FVec Ideal S512x512 .f32) = planeOf (hot T 1) := hot_plane T 1
theorem hot_plane_2 (T : Lab) : (sitofp .f32 (extui 32 (cmpi .eq (wordsOf (cls T)) (broadcast S512x512 2#32)) natLt_1_32) : FVec Ideal S512x512 .f32) = planeOf (hot T 2) := hot_plane T 2
theorem hot_plane_3 (T : Lab) : (sitofp .f32 (extui 32 (cmpi .eq (wordsOf (cls T)) (broadcast S512x512 3#32)) natLt_1_32) : FVec Ideal S512x512 .f32) = planeOf (hot T 3) := hot_plane T 3
theorem hot_plane_4 (T : Lab) : (sitofp .f32 (extui 32 (cmpi .eq (wordsOf (cls T)) (broadcast S512x512 4#32)) natLt_1_32) : FVec Ideal S512x512 .f32) = planeOf (hot T 4) := hot_plane T 4
theorem hot_plane_5 (T : Lab) : (sitofp .f32 (extui 32 (cmpi .eq (wordsOf (cls T)) (broadcast S512x512 5#32)) natLt_1_32) : FVec Ideal S512x512 .f32) = planeOf (hot T 5) := hot_plane T 5
theorem hot_plane_6 (T : Lab) : (sitofp .f32 (extui 32 (cmpi .eq (wordsOf (cls T)) (broadcast S512x512 6#32)) natLt_1_32) : FVec Ideal S512x512 .f32) = planeOf (hot T 6) := hot_plane T 6
theorem hot_plane_7 (T : Lab) : (sitofp .f32 (extui 32 (cmpi .eq (wordsOf (cls T)) (broadcast S512x512 7#32)) natLt_1_32) : FVec Ideal S512x512 .f32) = planeOf (hot T 7) := hot_plane T 7
theorem hot_plane_8 (T : Lab) : (sitofp .f32 (extui 32 (cmpi .eq (wordsOf (cls T)) (broadcast S512x512 8#32)) natLt_1_32) : FVec Ideal S512x512 .f32) = planeOf (hot T 8) := hot_plane T 8
theorem hot_plane_9 (T : Lab) : (sitofp .f32 (extui 32 (cmpi .eq (wordsOf (cls T)) (broadcast S512x512 9#32)) natLt_1_32) : FVec Ideal S512x512 .f32) = planeOf (hot T 9) := hot_plane T 9

/-! ## The mask of the pixels that count -/

/-- The label block with its unit axis dropped, at a pixel. -/
theorem labels_apply (x1 : Vec Ideal S1x512x512 .i32) (h w : Fin 512) :
    shapeCast S512x512 x1 shapeCasts_S1x512x512_S512x512 (ix2 h w) = x1 (ix3 (0 : Fin 1) h w) :=
  shapeCast_apply _ _ _ _ (by simp [Shape.rowMajor_val_two, Shape.rowMajor_val_three])

/-- The bit "the label is not 255" at a pixel. -/
theorem validBit_apply (x1 : Vec Ideal S1x512x512 .i32) (h w : Fin 512) :
    k0_pay4 (F := Ideal) x1 (ix2 h w) = if blockLab x1 h w = 255#32 then 0#1 else 1#1 := by
  show IntOp.cmpi .ne (shapeCast S512x512 x1 shapeCasts_S1x512x512_S512x512 (ix2 h w)) 255#32 = _
  rw [labels_apply]
  show IntOp.cmpi .ne (blockLab x1 h w) 255#32 = _
  by_cases hh : blockLab x1 h w = 255#32
  · simp [IntOp.cmpi, hh]
  · have hb : (blockLab x1 h w != 255#32) = true := by simpa [bne_iff_ne] using hh
    simp [IntOp.cmpi, hb, hh]

/-- Choosing a plane where the label counts and zero elsewhere. -/
theorem select_valid_plane (x1 : Vec Ideal S1x512x512 .i32) (a : Plane) :
    select (k0_pay4 (F := Ideal) x1) (planeOf a) (broadcast S512x512 (Scalar.ofBits (F := Ideal) .f32 0x00000000#32))
      = planeOf (fun h w => if blockLab x1 h w = 255#32 then 0 else a h w) := by
  funext j
  obtain ⟨h, w, rfl⟩ : ∃ h w, j = ix2 h w := ⟨j 0, j 1, eq_ix2 j⟩
  rw [select_apply, validBit_apply, broadcast_apply, scalar_zero]
  show _ = if blockLab x1 h w = 255#32 then 0 else a h w
  by_cases hh : blockLab x1 h w = 255#32
  · rw [if_pos hh, if_pos hh, select_zero]
  · rw [if_neg hh, if_neg hh, select_one]; rfl

/-- The same when the zero plane's word has already been read as the number 0. -/
theorem select_valid_plane_zero (x1 : Vec Ideal S1x512x512 .i32) (a : Plane) :
    select (k0_pay4 (F := Ideal) x1) (planeOf a) (broadcast S512x512 (0 : EReal))
      = planeOf (fun h w => if blockLab x1 h w = 255#32 then 0 else a h w) := by
  rw [← select_valid_plane, scalar_zero]

/-! ## The closing algebra of the focal numerator -/

/-- Ten terms added one after another onto zero are the sum over the ten classes. -/
theorem nest10 (f : Fin 10 → EReal) :
    0 + f 0 + f 1 + f 2 + f 3 + f 4 + f 5 + f 6 + f 7 + f 8 + f 9 = ∑ c : Fin 10, f c := by
  rw [zero_add, Fin.sum_univ_castSucc, Fin.sum_univ_castSucc, Fin.sum_univ_eight]
  rfl

/-- The target probability as the program accumulates it class by class. -/
theorem pt_nest (X : Img) (T : Lab) (h w : Fin 512) :
    0 + hot T 0 h w * prob X 0 h w + hot T 1 h w * prob X 1 h w + hot T 2 h w * prob X 2 h w + hot T 3 h w * prob X 3 h w + hot T 4 h w * prob X 4 h w + hot T 5 h w * prob X 5 h w + hot T 6 h w * prob X 6 h w + hot T 7 h w * prob X 7 h w + hot T 8 h w * prob X 8 h w + hot T 9 h w * prob X 9 h w = pt X T h w :=
  nest10 fun c => hot T c h w * prob X c h w

/-- The cross-entropy sum as the program accumulates it class by class. -/
theorem ce_nest (X : Img) (T : Lab) (h w : Fin 512) :
    0 + hot T 0 h w * (0 - logp X 0 h w) + hot T 1 h w * (0 - logp X 1 h w) + hot T 2 h w * (0 - logp X 2 h w) + hot T 3 h w * (0 - logp X 3 h w) + hot T 4 h w * (0 - logp X 4 h w) + hot T 5 h w * (0 - logp X 5 h w) + hot T 6 h w * (0 - logp X 6 h w) + hot T 7 h w * (0 - logp X 7 h w) + hot T 8 h w * (0 - logp X 8 h w) + hot T 9 h w * (0 - logp X 9 h w) = ∑ c : Fin 10, hot T c h w * (0 - logp X c h w) :=
  nest10 fun c => hot T c h w * (0 - logp X c h w)

/-- The same with each log-probability spelled as logit minus log-sum-exp. -/
theorem ce_nest' (X : Img) (T : Lab) (h w : Fin 512) :
    0 + hot T 0 h w * (0 - (X 0 h w - lse X h w)) + hot T 1 h w * (0 - (X 1 h w - lse X h w)) + hot T 2 h w * (0 - (X 2 h w - lse X h w)) + hot T 3 h w * (0 - (X 3 h w - lse X h w)) + hot T 4 h w * (0 - (X 4 h w - lse X h w)) + hot T 5 h w * (0 - (X 5 h w - lse X h w)) + hot T 6 h w * (0 - (X 6 h w - lse X h w)) + hot T 7 h w * (0 - (X 7 h w - lse X h w)) + hot T 8 h w * (0 - (X 8 h w - lse X h w)) + hot T 9 h w * (0 - (X 9 h w - lse X h w)) = ∑ c : Fin 10, hot T c h w * (0 - logp X c h w) :=
  nest10 fun c => hot T c h w * (0 - logp X c h w)

/-- The focal term from the accumulated target probability and the masked accumulated cross-entropy. -/
theorem focal_nest (X : Img) (T : Lab) (h w : Fin 512) :
    quarter * (1 - (0 + hot T 0 h w * prob X 0 h w + hot T 1 h w * prob X 1 h w + hot T 2 h w * prob X 2 h w + hot T 3 h w * prob X 3 h w + hot T 4 h w * prob X 4 h w + hot T 5 h w * prob X 5 h w + hot T 6 h w * prob X 6 h w + hot T 7 h w * prob X 7 h w + hot T 8 h w * prob X 8 h w + hot T 9 h w * prob X 9 h w)) * (if T h w = 255#32 then 0 else 0 + hot T 0 h w * (0 - logp X 0 h w) + hot T 1 h w * (0 - logp X 1 h w) + hot T 2 h w * (0 - logp X 2 h w) + hot T 3 h w * (0 - logp X 3 h w) + hot T 4 h w * (0 - logp X 4 h w) + hot T 5 h w * (0 - logp X 5 h w) + hot T 6 h w * (0 - logp X 6 h w) + hot T 7 h w * (0 - logp X 7 h w) + hot T 8 h w * (0 - logp X 8 h w) + hot T 9 h w * (0 - logp X 9 h w)) = focal X T h w := by
  rw [pt_nest, ce_nest]
  rfl

/-- The focal numerator: the sum over the image of the focal term times the mask. -/
theorem fnum_close (X : Img) (T : Lab) :
    sum2 (fun h w => quarter * (1 - (0 + hot T 0 h w * prob X 0 h w + hot T 1 h w * prob X 1 h w + hot T 2 h w * prob X 2 h w + hot T 3 h w * prob X 3 h w + hot T 4 h w * prob X 4 h w + hot T 5 h w * prob X 5 h w + hot T 6 h w * prob X 6 h w + hot T 7 h w * prob X 7 h w + hot T 8 h w * prob X 8 h w + hot T 9 h w * prob X 9 h w)) * (if T h w = 255#32 then 0 else 0 + hot T 0 h w * (0 - logp X 0 h w) + hot T 1 h w * (0 - logp X 1 h w) + hot T 2 h w * (0 - logp X 2 h w) + hot T 3 h w * (0 - logp X 3 h w) + hot T 4 h w * (0 - logp X 4 h w) + hot T 5 h w * (0 - logp X 5 h w) + hot T 6 h w * (0 - logp X 6 h w) + hot T 7 h w * (0 - logp X 7 h w) + hot T 8 h w * (0 - logp X 8 h w) + hot T 9 h w * (0 - logp X 9 h w)) * valid T h w)
      = fnum X T := by
  unfold fnum
  refine congrArg sum2 (funext fun h => funext fun w => ?_)
  rw [focal_nest]

/-- The same with the three float words still as the program prints them. -/
theorem fnum_close_words (X : Img) (T : Lab) :
    sum2 (fun h w => (Scalar.ofBits .f32 0x3E800000#32 : Ideal .f32) * ((Scalar.ofBits .f32 0x3F800000#32 : Ideal .f32) - ((Scalar.ofBits .f32 0x00000000#32 : Ideal .f32) + hot T 0 h w * prob X 0 h w + hot T 1 h w * prob X 1 h w + hot T 2 h w * prob X 2 h w + hot T 3 h w * prob X 3 h w + hot T 4 h w * prob X 4 h w + hot T 5 h w * prob X 5 h w + hot T 6 h w * prob X 6 h w + hot T 7 h w * prob X 7 h w + hot T 8 h w * prob X 8 h w + hot T 9 h w * prob X 9 h w)) * (if T h w = 255#32 then 0 else (Scalar.ofBits .f32 0x00000000#32 : Ideal .f32) + hot T 0 h w * ((Scalar.ofBits .f32 0x00000000#32 : Ideal .f32) - logp X 0 h w) + hot T 1 h w * ((Scalar.ofBits .f32 0x00000000#32 : Ideal .f32) - logp X 1 h w) + hot T 2 h w * ((Scalar.ofBits .f32 0x00000000#32 : Ideal .f32) - logp X 2 h w) + hot T 3 h w * ((Scalar.ofBits .f32 0x00000000#32 : Ideal .f32) - logp X 3 h w) + hot T 4 h w * ((Scalar.ofBits .f32 0x00000000#32 : Ideal .f32) - logp X 4 h w) + hot T 5 h w * ((Scalar.ofBits .f32 0x00000000#32 : Ideal .f32) - logp X 5 h w) + hot T 6 h w * ((Scalar.ofBits .f32 0x00000000#32 : Ideal .f32) - logp X 6 h w) + hot T 7 h w * ((Scalar.ofBits .f32 0x00000000#32 : Ideal .f32) - logp X 7 h w) + hot T 8 h w * ((Scalar.ofBits .f32 0x00000000#32 : Ideal .f32) - logp X 8 h w) + hot T 9 h w * ((Scalar.ofBits .f32 0x00000000#32 : Ideal .f32) - logp X 9 h w)) * valid T h w)
      = fnum X T := by
  simp only [scalar_one, scalar_zero, scalar_quarter]
  exact fnum_close X T

/-- The Tversky sums from the planes' pointwise products. -/
theorem tp_close (X : Img) (T : Lab) (c : Fin 10) : sum2 (fun h w => prob X c h w * hot T c h w) = tp X T c := rfl
theorem fp_close (X : Img) (T : Lab) (c : Fin 10) : sum2 (fun h w => prob X c h w * (1 - hot T c h w)) = fp X T c := rfl
theorem fn_close (X : Img) (T : Lab) (c : Fin 10) : sum2 (fun h w => (1 - prob X c h w) * hot T c h w) = fn X T c := rfl
theorem fden_close (T : Lab) : sum2 (valid T) = fden T := rfl

/-! ## The label planes -/

/-- The clipped labels, as the program computes them from the label block. -/
theorem pay6_words (x1 : Vec Ideal S1x512x512 .i32) : k0_pay6 (F := Ideal) x1 = wordsOf (cls (blockLab x1)) := by
  funext j
  obtain ⟨h, w, rfl⟩ : ∃ h w, j = ix2 h w := ⟨j 0, j 1, eq_ix2 j⟩
  show IntOp.minsi 9#32 (IntOp.maxsi 0#32 (shapeCast S512x512 x1 shapeCasts_S1x512x512_S512x512 (ix2 h w))) = _
  rw [labels_apply]
  rfl

/-- The mask of the pixels that count, as a float plane. -/
theorem pay5_plane (x1 : Vec Ideal S1x512x512 .i32) : k0_pay5 (F := Ideal) x1 = planeOf (valid (blockLab x1)) := by
  funext j
  obtain ⟨h, w, rfl⟩ : ∃ h w, j = ix2 h w := ⟨j 0, j 1, eq_ix2 j⟩
  show ((((k0_pay4 (F := Ideal) x1 (ix2 h w)).setWidth 32).toInt : ℝ) : EReal) = valid (blockLab x1) h w
  rw [validBit_apply]
  unfold valid
  by_cases hh : blockLab x1 h w = 255#32
  · simp [hh]
  · simp [hh]

/-! ## The class maximum, the sum of shifted exponentials, and what follows from them -/

/-- Ten values folded by `max` from `⊥` are the left-nested maximum. -/
theorem fold_max_ten (f : Fin 10 → EReal) :
    max (max (max (max (max (max (max (max (max (max ⊥ (f 0)) (f 1)) (f 2)) (f 3)) (f 4)) (f 5)) (f 6)) (f 7)) (f 8)) (f 9)
      = (Finset.univ : Finset (Fin 10)).fold max ⊥ f := by
  apply le_antisymm
  · simp only [max_le_iff]
    have hc : ∀ c : Fin 10, f c ≤ (Finset.univ : Finset (Fin 10)).fold max ⊥ f := fun c =>
      (Finset.le_fold_max _).2 (Or.inr ⟨c, Finset.mem_univ c, le_rfl⟩)
    exact ⟨⟨⟨⟨⟨⟨⟨⟨⟨⟨bot_le, hc 0⟩, hc 1⟩, hc 2⟩, hc 3⟩, hc 4⟩, hc 5⟩, hc 6⟩, hc 7⟩, hc 8⟩, hc 9⟩
  · refine (Finset.fold_max_le _).2 ⟨bot_le, fun c _ => ?_⟩
    fin_cases c <;> simp [le_max_iff]

/-- The running maximum over the ten logit planes, from the plane of `-∞`, is the plane of the class maximum. -/
theorem mx_plane (X : Img) :
    (maximumf (maximumf (maximumf (maximumf (maximumf (maximumf (maximumf (maximumf (maximumf (maximumf (broadcast S512x512 (Scalar.ofBits (F := Ideal) .f32 0xFF800000#32)) (planeOf (X 0))) (planeOf (X 1))) (planeOf (X 2))) (planeOf (X 3))) (planeOf (X 4))) (planeOf (X 5))) (planeOf (X 6))) (planeOf (X 7))) (planeOf (X 8))) (planeOf (X 9)))
      = planeOf (mx X) := by
  funext j
  obtain ⟨h, w, rfl⟩ : ∃ h w, j = ix2 h w := ⟨j 0, j 1, eq_ix2 j⟩
  show (max (max (max (max (max (max (max (max (max (max (Scalar.ofBits .f32 0xFF800000#32 : Ideal .f32) (X 0 h w)) (X 1 h w)) (X 2 h w)) (X 3 h w)) (X 4 h w)) (X 5 h w)) (X 6 h w)) (X 7 h w)) (X 8 h w)) (X 9 h w)) = mx X h w
  rw [show (Scalar.ofBits .f32 0xFF800000#32 : Ideal .f32) = (⊥ : EReal) from ofBits_negInf]
  exact fold_max_ten fun c => X c h w

/-- The same when the starting plane's word has already been read as `⊥`. -/
theorem mx_plane_bot (X : Img) :
    (maximumf (maximumf (maximumf (maximumf (maximumf (maximumf (maximumf (maximumf (maximumf (maximumf (broadcast S512x512 (⊥ : EReal)) (planeOf (X 0))) (planeOf (X 1))) (planeOf (X 2))) (planeOf (X 3))) (planeOf (X 4))) (planeOf (X 5))) (planeOf (X 6))) (planeOf (X 7))) (planeOf (X 8))) (planeOf (X 9)))
      = planeOf (mx X) := by
  rw [← mx_plane, show (Scalar.ofBits .f32 0xFF800000#32 : Ideal .f32) = (⊥ : EReal) from ofBits_negInf]

/-- The exponentials added class by class onto zero are the sum of shifted exponentials. -/
theorem sumExp_fold (X : Img) :
    planeOf (fun h w => 0 + Ideal.exp (X 0 h w - mx X h w) + Ideal.exp (X 1 h w - mx X h w) + Ideal.exp (X 2 h w - mx X h w) + Ideal.exp (X 3 h w - mx X h w) + Ideal.exp (X 4 h w - mx X h w) + Ideal.exp (X 5 h w - mx X h w) + Ideal.exp (X 6 h w - mx X h w) + Ideal.exp (X 7 h w - mx X h w) + Ideal.exp (X 8 h w - mx X h w) + Ideal.exp (X 9 h w - mx X h w)) = planeOf (sumExp X) :=
  congrArg planeOf (funext fun h => funext fun w => nest10 fun c => Ideal.exp (X c h w - mx X h w))

/-- The same with the leading zero still the program's float word. -/
theorem sumExp_fold_word (X : Img) :
    planeOf (fun h w => (Scalar.ofBits .f32 0x00000000#32 : Ideal .f32) + Ideal.exp (X 0 h w - mx X h w) + Ideal.exp (X 1 h w - mx X h w) + Ideal.exp (X 2 h w - mx X h w) + Ideal.exp (X 3 h w - mx X h w) + Ideal.exp (X 4 h w - mx X h w) + Ideal.exp (X 5 h w - mx X h w) + Ideal.exp (X 6 h w - mx X h w) + Ideal.exp (X 7 h w - mx X h w) + Ideal.exp (X 8 h w - mx X h w) + Ideal.exp (X 9 h w - mx X h w)) = planeOf (sumExp X) := by
  simp only [scalar_zero]
  exact sumExp_fold X

theorem lse_fold (X : Img) : planeOf (fun h w => mx X h w + Ideal.log (sumExp X h w)) = planeOf (lse X) := rfl
theorem logp_fold (X : Img) (c : Fin 10) : planeOf (fun h w => X c h w - lse X h w) = planeOf (logp X c) := rfl
theorem prob_fold (X : Img) (c : Fin 10) : planeOf (fun h w => Ideal.exp (logp X c h w)) = planeOf (prob X c) := rfl

/-- The sum of a plane over all its pixels, as the program computes it: the plane viewed as one 1 × 512 × 512 block,
    summed over its two long axes into a single cell, and that cell read. -/
def gSumAll (v : FVec Ideal S512x512 .f32) : EReal :=
  extractAt ![0, 0, 0]
    (shapeCast S1x1x1
      (multiReduction (F := Ideal) .add [1, 2] S1 (shapeCast S1x512x512 v shapeCasts_S512x512_S1x512x512) 0x00000000#32
        reduces_S1x512x512_S1 (.inl rfl) rfl)
      shapeCasts_S1_S1x1x1)
    inpos_S1x1x1_p0_0_0

/-- That sum is the iterated sum over rows and columns: the reduction into a one-cell shape is the total over the
    block's indices, the block's unit axis contributes one term, and the block at (0, h, w) is the plane at (h, w). -/
theorem gSumAll_eq (v : FVec Ideal S512x512 .f32) :
    gSumAll v = ∑ h : Fin 512, ∑ w : Fin 512, v (ix2 h w) := by
  unfold gSumAll extractAt
  rw [shapeCast_apply _ shapeCasts_S1_S1x1x1 _ (ix1 (0 : Fin 1)) (by decide)]
  refine (Ideal.multiReduction_add_total _ _ reduces_S1x512x512_S1 (by decide) _ _ _).trans ?_
  rw [Cert.LibIdxSums.sum_idx3]
  rw [Fin.sum_univ_one]
  refine Finset.sum_congr rfl fun h _ => Finset.sum_congr rfl fun w _ => ?_
  exact shapeCast_apply _ _ _ _ (by simp [Shape.rowMajor_val_two, Shape.rowMajor_val_three])

/-- The program's sum of the plane of `f` is the sum of `f` over the image. -/
theorem gSumAll_plane (f : Plane) : gSumAll (planeOf f) = sum2 f := gSumAll_eq (planeOf f)

/-- The same with the program's operations spelled out. -/
theorem sum_plane (f : Plane) :
    extractAt ![0, 0, 0]
      (shapeCast S1x1x1
        (multiReduction (F := Ideal) .add ([1, 2] : List (Fin 3)) S1 (shapeCast S1x512x512 (planeOf f) shapeCasts_S512x512_S1x512x512) 0x00000000#32
          reduces_S1x512x512_S1 (.inl rfl) rfl)
        shapeCasts_S1_S1x1x1)
      inpos_S1x1x1_p0_0_0 = sum2 f :=
  gSumAll_plane f

/-! ## Each statistic the kernel computes by that reduction is the sum of its plane -/
theorem k0_pay23_sum (v12 : IVec S512x512 32) (v53 : FVec Ideal S512x512 .f32) (v89 : FVec Ideal S512x512 .f32) (v90 : Vec Ideal S1x1x512x512 .f32) (v95 : Vec Ideal S1x1x512x512 .f32) (v100 : Vec Ideal S1x1x512x512 .f32) (v109 : Vec Ideal S1x1x512x512 .f32) :
    k0_pay23 (F := Ideal) v12 v53 v89 v90 v95 v100 v109 = gSumAll (mulf (k0_pay19 v53 v89 v90 v95 v100 v109) (k0_pay20 (F := Ideal) v12)) := rfl
theorem k0_pay25_sum (v : FVec Ideal S512x512 .f32) :
    k0_pay25 (F := Ideal) (shapeCast S1x512x512 v shapeCasts_S512x512_S1x512x512) = gSumAll v := rfl
theorem k0_pay26_sum (v112 : FVec Ideal S512x512 .f32) (v116 : FVec Ideal S512x512 .f32) :
    k0_pay26 (F := Ideal) v112 v116 = gSumAll (mulf (subf (broadcast S512x512 (Scalar.ofBits (F := Ideal) .f32 0x3F800000#32)) v112) v116) := rfl
theorem k0_pay31_sum (v8 : FVec Ideal S512x512 .f32) (v16 : IVec S512x512 1) (v18 : IVec S512x512 1) (v20 : IVec S512x512 1) (v22 : IVec S512x512 1) (v116 : FVec Ideal S512x512 .f32) (v157 : FVec Ideal S512x512 .f32) (v173 : FVec Ideal S512x512 .f32) :
    k0_pay31 (F := Ideal) v8 v16 v18 v20 v22 v116 v157 v173 = gSumAll (mulf (mulf (k0_pay29 v157 v173) (k0_pay30 v16 v18 v20 v22 v116)) v8) := rfl
theorem k0_pay33_sum (v : FVec Ideal S512x512 .f32) :
    k0_pay33 (F := Ideal) (shapeCast S1x512x512 v shapeCasts_S512x512_S1x512x512) = gSumAll v := rfl
theorem k0_pay34_sum (v8 : FVec Ideal S512x512 .f32) (v207 : FVec Ideal S512x512 .f32) :
    k0_pay34 (F := Ideal) v8 v207 = gSumAll (mulf v207 v8) := rfl
theorem k0_pay40_sum (v12 : IVec S512x512 32) (v106 : FVec Ideal S512x512 .f32) (v224 : Vec Ideal S1x1x512x512 .f32) :
    k0_pay40 (F := Ideal) v12 v106 v224 = gSumAll (mulf (k0_pay36 v106 v224) (k0_pay37 (F := Ideal) v12)) := rfl
theorem k0_pay41_sum (v12 : IVec S512x512 32) (v106 : FVec Ideal S512x512 .f32) (v224 : Vec Ideal S1x1x512x512 .f32) :
    k0_pay41 (F := Ideal) v12 v106 v224 = gSumAll (mulf (k0_pay36 v106 v224) (subf (broadcast S512x512 (Scalar.ofBits (F := Ideal) .f32 0x3F800000#32)) (k0_pay37 (F := Ideal) v12))) := rfl
theorem k0_pay42_sum (v12 : IVec S512x512 32) (v106 : FVec Ideal S512x512 .f32) (v224 : Vec Ideal S1x1x512x512 .f32) :
    k0_pay42 (F := Ideal) v12 v106 v224 = gSumAll (mulf (subf (broadcast S512x512 (Scalar.ofBits (F := Ideal) .f32 0x3F800000#32)) (k0_pay36 v106 v224)) (k0_pay37 (F := Ideal) v12)) := rfl
theorem k0_pay49_sum (v8 : FVec Ideal S512x512 .f32) (v16 : IVec S512x512 1) (v18 : IVec S512x512 1) (v20 : IVec S512x512 1) (v22 : IVec S512x512 1) (v231 : FVec Ideal S512x512 .f32) (v289 : FVec Ideal S512x512 .f32) (v297 : FVec Ideal S512x512 .f32) (v300 : FVec Ideal S512x512 .f32) (c511_i32_159 : BitVec 32) :
    k0_pay49 (F := Ideal) v8 v16 v18 v20 v22 v231 v289 v297 v300 c511_i32_159 = gSumAll (mulf (mulf v289 (k0_pay48 v16 v18 v20 v22 v231 v297 v300 c511_i32_159)) v8) := rfl
theorem k0_pay50_sum (v8 : FVec Ideal S512x512 .f32) (v289 : FVec Ideal S512x512 .f32) :
    k0_pay50 (F := Ideal) v8 v289 = gSumAll (mulf v289 v8) := rfl
theorem k0_pay51_sum (v8 : FVec Ideal S512x512 .f32) (v16 : IVec S512x512 1) (v18 : IVec S512x512 1) (v20 : IVec S512x512 1) (v22 : IVec S512x512 1) (v231 : FVec Ideal S512x512 .f32) (v297 : FVec Ideal S512x512 .f32) (v300 : FVec Ideal S512x512 .f32) (c511_i32_159 : BitVec 32) :
    k0_pay51 (F := Ideal) v8 v16 v18 v20 v22 v231 v297 v300 c511_i32_159 = gSumAll (mulf (k0_pay48 v16 v18 v20 v22 v231 v297 v300 c511_i32_159) v8) := rfl
theorem k0_pay58_sum (v12 : IVec S512x512 32) (v342 : FVec Ideal S512x512 .f32) (v343 : IVec S512x512 32) :
    k0_pay58 (F := Ideal) v12 v342 v343 = gSumAll (mulf v342 (k0_pay55 (F := Ideal) v12 v343)) := rfl
theorem k0_pay59_sum (v12 : IVec S512x512 32) (v342 : FVec Ideal S512x512 .f32) (v343 : IVec S512x512 32) :
    k0_pay59 (F := Ideal) v12 v342 v343 = gSumAll (mulf v342 (subf (broadcast S512x512 (Scalar.ofBits (F := Ideal) .f32 0x3F800000#32)) (k0_pay55 (F := Ideal) v12 v343))) := rfl
theorem k0_pay60_sum (v12 : IVec S512x512 32) (v342 : FVec Ideal S512x512 .f32) (v343 : IVec S512x512 32) :
    k0_pay60 (F := Ideal) v12 v342 v343 = gSumAll (mulf (subf (broadcast S512x512 (Scalar.ofBits (F := Ideal) .f32 0x3F800000#32)) v342) (k0_pay55 (F := Ideal) v12 v343)) := rfl
theorem k0_pay67_sum (v8 : FVec Ideal S512x512 .f32) (v16 : IVec S512x512 1) (v18 : IVec S512x512 1) (v404 : FVec Ideal S512x512 .f32) (v420 : FVec Ideal S512x512 .f32) (v428 : FVec Ideal S512x512 .f32) (c1_i32_210 : BitVec 32) :
    k0_pay67 (F := Ideal) v8 v16 v18 v404 v420 v428 c1_i32_210 = gSumAll (mulf (mulf v404 (k0_pay66 v16 v18 v420 v428 c1_i32_210)) v8) := rfl
theorem k0_pay68_sum (v8 : FVec Ideal S512x512 .f32) (v404 : FVec Ideal S512x512 .f32) :
    k0_pay68 (F := Ideal) v8 v404 = gSumAll (mulf v404 v8) := rfl
theorem k0_pay69_sum (v8 : FVec Ideal S512x512 .f32) (v16 : IVec S512x512 1) (v18 : IVec S512x512 1) (v420 : FVec Ideal S512x512 .f32) (v428 : FVec Ideal S512x512 .f32) (c1_i32_210 : BitVec 32) :
    k0_pay69 (F := Ideal) v8 v16 v18 v420 v428 c1_i32_210 = gSumAll (mulf (k0_pay66 v16 v18 v420 v428 c1_i32_210) v8) := rfl
theorem k0_pay75_sum (v12 : IVec S512x512 32) (v106 : FVec Ideal S512x512 .f32) (v454 : Vec Ideal S1x1x512x512 .f32) :
    k0_pay75 (F := Ideal) v12 v106 v454 = gSumAll (mulf (k0_pay71 v106 v454) (k0_pay72 (F := Ideal) v12)) := rfl
theorem k0_pay77_sum (v457 : FVec Ideal S512x512 .f32) (v474 : FVec Ideal S512x512 .f32) :
    k0_pay77 (F := Ideal) v457 v474 = gSumAll (mulf v457 v474) := rfl
theorem k0_pay78_sum (v457 : FVec Ideal S512x512 .f32) (v461 : FVec Ideal S512x512 .f32) :
    k0_pay78 (F := Ideal) v457 v461 = gSumAll (mulf (subf (broadcast S512x512 (Scalar.ofBits (F := Ideal) .f32 0x3F800000#32)) v457) v461) := rfl
theorem k0_pay86_sum (v8 : FVec Ideal S512x512 .f32) (v16 : IVec S512x512 1) (v18 : IVec S512x512 1) (v20 : IVec S512x512 1) (v22 : IVec S512x512 1) (v461 : FVec Ideal S512x512 .f32) (v502 : FVec Ideal S512x512 .f32) (v510 : FVec Ideal S512x512 .f32) (v513 : FVec Ideal S512x512 .f32) (v514 : FVec Ideal S512x512 .f32) (v515 : FVec Ideal S512x512 .f32) :
    k0_pay86 (F := Ideal) v8 v16 v18 v20 v22 v461 v502 v510 v513 v514 v515 = gSumAll (mulf (mulf (k0_pay84 v18 v502 v510 v513 v514 v515) (k0_pay85 v16 v18 v20 v22 v461)) v8) := rfl
theorem k0_pay87_sum (v8 : FVec Ideal S512x512 .f32) (v519 : FVec Ideal S512x512 .f32) :
    k0_pay87 (F := Ideal) v8 v519 = gSumAll (mulf v519 v8) := rfl
theorem k0_pay88_sum (v8 : FVec Ideal S512x512 .f32) (v552 : FVec Ideal S512x512 .f32) :
    k0_pay88 (F := Ideal) v8 v552 = gSumAll (mulf v552 v8) := rfl
theorem k0_pay94_sum (v12 : IVec S512x512 32) (v106 : FVec Ideal S512x512 .f32) (v569 : Vec Ideal S1x1x512x512 .f32) :
    k0_pay94 (F := Ideal) v12 v106 v569 = gSumAll (mulf (k0_pay90 v106 v569) (k0_pay91 (F := Ideal) v12)) := rfl
theorem k0_pay95_sum (v12 : IVec S512x512 32) (v106 : FVec Ideal S512x512 .f32) (v569 : Vec Ideal S1x1x512x512 .f32) :
    k0_pay95 (F := Ideal) v12 v106 v569 = gSumAll (mulf (k0_pay90 v106 v569) (subf (broadcast S512x512 (Scalar.ofBits (F := Ideal) .f32 0x3F800000#32)) (k0_pay91 (F := Ideal) v12))) := rfl
theorem k0_pay96_sum (v12 : IVec S512x512 32) (v106 : FVec Ideal S512x512 .f32) (v569 : Vec Ideal S1x1x512x512 .f32) :
    k0_pay96 (F := Ideal) v12 v106 v569 = gSumAll (mulf (subf (broadcast S512x512 (Scalar.ofBits (F := Ideal) .f32 0x3F800000#32)) (k0_pay90 v106 v569)) (k0_pay91 (F := Ideal) v12)) := rfl
theorem k0_pay103_sum (v8 : FVec Ideal S512x512 .f32) (v16 : IVec S512x512 1) (v18 : IVec S512x512 1) (v20 : IVec S512x512 1) (v22 : IVec S512x512 1) (v576 : FVec Ideal S512x512 .f32) (v634 : FVec Ideal S512x512 .f32) (v642 : FVec Ideal S512x512 .f32) (v643 : FVec Ideal S512x512 .f32) (cst_293 : Ideal .f32) :
    k0_pay103 (F := Ideal) v8 v16 v18 v20 v22 v576 v634 v642 v643 cst_293 = gSumAll (mulf (mulf v634 (k0_pay102 v16 v18 v20 v22 v576 v642 v643 cst_293)) v8) := rfl
theorem k0_pay104_sum (v8 : FVec Ideal S512x512 .f32) (v634 : FVec Ideal S512x512 .f32) :
    k0_pay104 (F := Ideal) v8 v634 = gSumAll (mulf v634 v8) := rfl
theorem k0_pay105_sum (v8 : FVec Ideal S512x512 .f32) (v16 : IVec S512x512 1) (v18 : IVec S512x512 1) (v20 : IVec S512x512 1) (v22 : IVec S512x512 1) (v576 : FVec Ideal S512x512 .f32) (v642 : FVec Ideal S512x512 .f32) (v643 : FVec Ideal S512x512 .f32) (cst_293 : Ideal .f32) :
    k0_pay105 (F := Ideal) v8 v16 v18 v20 v22 v576 v642 v643 cst_293 = gSumAll (mulf (k0_pay102 v16 v18 v20 v22 v576 v642 v643 cst_293) v8) := rfl
theorem k0_pay111_sum (v12 : IVec S512x512 32) (v686 : FVec Ideal S512x512 .f32) :
    k0_pay111 (F := Ideal) v12 v686 = gSumAll (mulf (k0_pay107 v686) (k0_pay108 (F := Ideal) v12)) := rfl
theorem k0_pay112_sum (v12 : IVec S512x512 32) (v686 : FVec Ideal S512x512 .f32) :
    k0_pay112 (F := Ideal) v12 v686 = gSumAll (mulf (k0_pay107 v686) (subf (broadcast S512x512 (Scalar.ofBits (F := Ideal) .f32 0x3F800000#32)) (k0_pay108 (F := Ideal) v12))) := rfl
theorem k0_pay113_sum (v12 : IVec S512x512 32) (v686 : FVec Ideal S512x512 .f32) :
    k0_pay113 (F := Ideal) v12 v686 = gSumAll (mulf (subf (broadcast S512x512 (Scalar.ofBits (F := Ideal) .f32 0x3F800000#32)) (k0_pay107 v686)) (k0_pay108 (F := Ideal) v12)) := rfl
theorem k0_pay122_sum (v8 : FVec Ideal S512x512 .f32) (v16 : IVec S512x512 1) (v18 : IVec S512x512 1) (v691 : FVec Ideal S512x512 .f32) (v749 : FVec Ideal S512x512 .f32) (v765 : FVec Ideal S512x512 .f32) (v768 : FVec Ideal S512x512 .f32) (v771 : FVec Ideal S512x512 .f32) :
    k0_pay122 (F := Ideal) v8 v16 v18 v691 v749 v765 v768 v771 = gSumAll (mulf (mulf v749 (k0_pay121 v16 v18 v691 v765 v768 v771)) v8) := rfl
theorem k0_pay123_sum (v8 : FVec Ideal S512x512 .f32) (v749 : FVec Ideal S512x512 .f32) :
    k0_pay123 (F := Ideal) v8 v749 = gSumAll (mulf v749 v8) := rfl
theorem k0_pay124_sum (v8 : FVec Ideal S512x512 .f32) (v16 : IVec S512x512 1) (v18 : IVec S512x512 1) (v691 : FVec Ideal S512x512 .f32) (v765 : FVec Ideal S512x512 .f32) (v768 : FVec Ideal S512x512 .f32) (v771 : FVec Ideal S512x512 .f32) :
    k0_pay124 (F := Ideal) v8 v16 v18 v691 v765 v768 v771 = gSumAll (mulf (k0_pay121 v16 v18 v691 v765 v768 v771) v8) := rfl
theorem k0_pay130_sum (v12 : IVec S512x512 32) (v106 : FVec Ideal S512x512 .f32) (v799 : Vec Ideal S1x1x512x512 .f32) :
    k0_pay130 (F := Ideal) v12 v106 v799 = gSumAll (mulf (k0_pay126 v106 v799) (k0_pay127 (F := Ideal) v12)) := rfl
theorem k0_pay131_sum (v802 : FVec Ideal S512x512 .f32) (v806 : FVec Ideal S512x512 .f32) :
    k0_pay131 (F := Ideal) v802 v806 = gSumAll (mulf v802 (subf (broadcast S512x512 (Scalar.ofBits (F := Ideal) .f32 0x3F800000#32)) v806)) := rfl
theorem k0_pay132_sum (v802 : FVec Ideal S512x512 .f32) (v806 : FVec Ideal S512x512 .f32) :
    k0_pay132 (F := Ideal) v802 v806 = gSumAll (mulf (subf (broadcast S512x512 (Scalar.ofBits (F := Ideal) .f32 0x3F800000#32)) v802) v806) := rfl
theorem k0_pay139_sum (v : FVec Ideal S512x512 .f32) :
    k0_pay139 (F := Ideal) (shapeCast S1x512x512 v shapeCasts_S512x512_S1x512x512) = gSumAll v := rfl
theorem k0_pay140_sum (v8 : FVec Ideal S512x512 .f32) (v864 : FVec Ideal S512x512 .f32) :
    k0_pay140 (F := Ideal) v8 v864 = gSumAll (mulf v864 v8) := rfl
theorem k0_pay141_sum (v8 : FVec Ideal S512x512 .f32) (v897 : FVec Ideal S512x512 .f32) :
    k0_pay141 (F := Ideal) v8 v897 = gSumAll (mulf v897 v8) := rfl
theorem k0_pay147_sum (v12 : IVec S512x512 32) (v106 : FVec Ideal S512x512 .f32) (v914 : Vec Ideal S1x1x512x512 .f32) :
    k0_pay147 (F := Ideal) v12 v106 v914 = gSumAll (mulf (k0_pay143 v106 v914) (k0_pay144 (F := Ideal) v12)) := rfl
theorem k0_pay148_sum (v12 : IVec S512x512 32) (v106 : FVec Ideal S512x512 .f32) (v914 : Vec Ideal S1x1x512x512 .f32) :
    k0_pay148 (F := Ideal) v12 v106 v914 = gSumAll (mulf (k0_pay143 v106 v914) (subf (broadcast S512x512 (Scalar.ofBits (F := Ideal) .f32 0x3F800000#32)) (k0_pay144 (F := Ideal) v12))) := rfl
theorem k0_pay149_sum (v12 : IVec S512x512 32) (v106 : FVec Ideal S512x512 .f32) (v914 : Vec Ideal S1x1x512x512 .f32) :
    k0_pay149 (F := Ideal) v12 v106 v914 = gSumAll (mulf (subf (broadcast S512x512 (Scalar.ofBits (F := Ideal) .f32 0x3F800000#32)) (k0_pay143 v106 v914)) (k0_pay144 (F := Ideal) v12)) := rfl
theorem k0_pay153_sum (v8 : FVec Ideal S512x512 .f32) (v16 : IVec S512x512 1) (v18 : IVec S512x512 1) (v20 : IVec S512x512 1) (v22 : IVec S512x512 1) (v921 : FVec Ideal S512x512 .f32) (v979 : FVec Ideal S512x512 .f32) (v987 : FVec Ideal S512x512 .f32) :
    k0_pay153 (F := Ideal) v8 v16 v18 v20 v22 v921 v979 v987 = gSumAll (mulf (mulf v979 (k0_pay152 v16 v18 v20 v22 v921 v987)) v8) := rfl
theorem k0_pay154_sum (v8 : FVec Ideal S512x512 .f32) (v979 : FVec Ideal S512x512 .f32) :
    k0_pay154 (F := Ideal) v8 v979 = gSumAll (mulf v979 v8) := rfl
theorem k0_pay155_sum (v8 : FVec Ideal S512x512 .f32) (v16 : IVec S512x512 1) (v18 : IVec S512x512 1) (v20 : IVec S512x512 1) (v22 : IVec S512x512 1) (v921 : FVec Ideal S512x512 .f32) (v987 : FVec Ideal S512x512 .f32) :
    k0_pay155 (F := Ideal) v8 v16 v18 v20 v22 v921 v987 = gSumAll (mulf (k0_pay152 v16 v18 v20 v22 v921 v987) v8) := rfl
theorem k0_pay161_sum (v12 : IVec S512x512 32) (v106 : FVec Ideal S512x512 .f32) (v1029 : Vec Ideal S1x1x512x512 .f32) :
    k0_pay161 (F := Ideal) v12 v106 v1029 = gSumAll (mulf (k0_pay157 v106 v1029) (k0_pay158 (F := Ideal) v12)) := rfl
theorem k0_pay162_sum (v12 : IVec S512x512 32) (v106 : FVec Ideal S512x512 .f32) (v1029 : Vec Ideal S1x1x512x512 .f32) :
    k0_pay162 (F := Ideal) v12 v106 v1029 = gSumAll (mulf (k0_pay157 v106 v1029) (subf (broadcast S512x512 (Scalar.ofBits (F := Ideal) .f32 0x3F800000#32)) (k0_pay158 (F := Ideal) v12))) := rfl
theorem k0_pay163_sum (v12 : IVec S512x512 32) (v106 : FVec Ideal S512x512 .f32) (v1029 : Vec Ideal S1x1x512x512 .f32) :
    k0_pay163 (F := Ideal) v12 v106 v1029 = gSumAll (mulf (subf (broadcast S512x512 (Scalar.ofBits (F := Ideal) .f32 0x3F800000#32)) (k0_pay157 v106 v1029)) (k0_pay158 (F := Ideal) v12)) := rfl
theorem k0_pay172_sum (v8 : FVec Ideal S512x512 .f32) (v16 : IVec S512x512 1) (v18 : IVec S512x512 1) (v22 : IVec S512x512 1) (v1036 : FVec Ideal S512x512 .f32) (v1094 : FVec Ideal S512x512 .f32) (v1110 : FVec Ideal S512x512 .f32) (v1113 : FVec Ideal S512x512 .f32) (v1114 : FVec Ideal S512x512 .f32) :
    k0_pay172 (F := Ideal) v8 v16 v18 v22 v1036 v1094 v1110 v1113 v1114 = gSumAll (mulf (mulf v1094 (k0_pay171 v16 v18 v22 v1036 v1110 v1113 v1114)) v8) := rfl
theorem k0_pay173_sum (v8 : FVec Ideal S512x512 .f32) (v1094 : FVec Ideal S512x512 .f32) :
    k0_pay173 (F := Ideal) v8 v1094 = gSumAll (mulf v1094 v8) := rfl
theorem k0_pay174_sum (v8 : FVec Ideal S512x512 .f32) (v16 : IVec S512x512 1) (v18 : IVec S512x512 1) (v22 : IVec S512x512 1) (v1036 : FVec Ideal S512x512 .f32) (v1110 : FVec Ideal S512x512 .f32) (v1113 : FVec Ideal S512x512 .f32) (v1114 : FVec Ideal S512x512 .f32) :
    k0_pay174 (F := Ideal) v8 v16 v18 v22 v1036 v1110 v1113 v1114 = gSumAll (mulf (k0_pay171 v16 v18 v22 v1036 v1110 v1113 v1114) v8) := rfl
theorem k0_pay181_sum (v : FVec Ideal S512x512 .f32) :
    k0_pay181 (F := Ideal) (shapeCast S1x512x512 v shapeCasts_S512x512_S1x512x512) = gSumAll v := rfl
theorem k0_pay182_sum (v1147 : FVec Ideal S512x512 .f32) (v1151 : FVec Ideal S512x512 .f32) :
    k0_pay182 (F := Ideal) v1147 v1151 = gSumAll (mulf v1147 (subf (broadcast S512x512 (Scalar.ofBits (F := Ideal) .f32 0x3F800000#32)) v1151)) := rfl
theorem k0_pay183_sum (v1147 : FVec Ideal S512x512 .f32) (v1151 : FVec Ideal S512x512 .f32) :
    k0_pay183 (F := Ideal) v1147 v1151 = gSumAll (mulf (subf (broadcast S512x512 (Scalar.ofBits (F := Ideal) .f32 0x3F800000#32)) v1147) v1151) := rfl
theorem k0_pay190_sum (v8 : FVec Ideal S512x512 .f32) (v1243 : FVec Ideal S512x512 .f32) :
    k0_pay190 (F := Ideal) v8 v1243 = gSumAll (mulf v1243 v8) := rfl
theorem k0_pay191_sum (v8 : FVec Ideal S512x512 .f32) (v1209 : FVec Ideal S512x512 .f32) :
    k0_pay191 (F := Ideal) v8 v1209 = gSumAll (mulf v1209 v8) := rfl
theorem k0_pay192_sum (v8 : FVec Ideal S512x512 .f32) (v1242 : FVec Ideal S512x512 .f32) :
    k0_pay192 (F := Ideal) v8 v1242 = gSumAll (mulf v1242 v8) := rfl
theorem k0_pay193_sum (v6 : IVec S512x512 1) (v8 : FVec Ideal S512x512 .f32) (v1155 : FVec Ideal S512x512 .f32) (v1157 : FVec Ideal S512x512 .f32) :
    k0_pay193 (F := Ideal) v6 v8 v1155 v1157 = gSumAll (mulf (mulf (mulf (broadcast S512x512 (Scalar.ofBits (F := Ideal) .f32 0x3E800000#32)) (subf (broadcast S512x512 (Scalar.ofBits (F := Ideal) .f32 0x3F800000#32)) v1157)) (select v6 v1155 (broadcast S512x512 (Scalar.ofBits (F := Ideal) .f32 0x00000000#32)))) v8) := rfl
theorem k0_pay194_sum (v8 : FVec Ideal S512x512 .f32) :
    k0_pay194 (F := Ideal) v8 = gSumAll v8 := rfl

end Cert.SegLoss.Kernel
end
-- ==== Proof.KernelPools.lean ====
import proofs.«401271_j53171695125135_2_alg».proof.Proof.KernelPlanes
import Idealize.ShloMosaic.Lib.KernelVsHost
import Idealize.ShloMosaic.Lib.Affine
import Idealize.ShloMosaic.Lib.WordArith

/-! # The kernel's 3 × 3 pools

The kernel computes the largest (smallest) value in the 3 × 3 window around every pixel in two passes. Along the columns
it joins each pixel with its left and right neighbours, read by rotating the plane by one place around the row's end and
replacing the value that wrapped around by minus (plus) infinity; then it does the same along the rows of the result.
This module shows that the composition, read at a pixel, is the window maximum `maxPool` (minimum `minPool`) of the
statistics' definition, whose window is clipped to the image: a neighbour outside the image contributes the neutral
value of `max` (`min`), exactly what the replaced wrapped value contributes. -/

noncomputable section

namespace Cert.SegLoss.Kernel

open Idealize.ShloMosaic Idealize.ShloMosaic.ValueIdx Cert.KernelIdeal Cert.KernelIdeal.Gen
open Cert.SegLoss

/-! ## The four edge masks at a pixel

A mask is a signed comparison of a pixel's row or column number — a number below 512, so it reads signed as itself —
with 1 or with 511. A choice under it is a choice on the number. -/

/-- A choice under a one-bit word that is set exactly when `p` holds is the choice on `p`. -/
theorem select_of_iff {α : Type} (c : BitVec 1) (p : Prop) [Decidable p] (e : c = 1#1 ↔ p) (a b : α) :
    Scalar.select c a b = if p then a else b := by
  unfold Scalar.select
  by_cases hp : p
  · rw [if_pos hp]; exact if_pos (e.mpr hp)
  · rw [if_neg hp]; exact if_neg (fun hc => hp (e.mp hc))

/-- A number below 512 is signed-less than 1 exactly when it is 0. -/
theorem slt_one_iff (n : Nat) (hn : n < 512) : IntOp.cmpi .slt (BitVec.ofNat 32 (0 * 512 + n)) 1#32 = 1#1 ↔ n = 0 := by
  rw [IntOp.cmpi_slt, WordArith.toInt_ofNat_small (0 * 512 + n) (by omega), show (1#32 : BitVec 32).toInt = 1 from by decide]
  omega

/-- A number below 512 is signed-at-least 511 exactly when it is 511. -/
theorem sge_511_iff (n : Nat) (hn : n < 512) : IntOp.cmpi .sge (BitVec.ofNat 32 (0 * 512 + n)) 511#32 = 1#1 ↔ n = 511 := by
  rw [IntOp.cmpi_sge, WordArith.toInt_ofNat_small (0 * 512 + n) (by omega), show (511#32 : BitVec 32).toInt = 511 from by decide]
  omega

/-- The first mask holds exactly on row 0. -/
theorem select_rowFirst {α : Type} (a b : α) (h w : Fin 512) :
    Scalar.select (k0_pay7 (ix2 h w)) a b = if h.val = 0 then a else b :=
  select_of_iff _ _ (slt_one_iff h.val h.isLt) a b

/-- The second mask holds exactly on row 511. -/
theorem select_rowLast {α : Type} (a b : α) (h w : Fin 512) :
    Scalar.select (k0_pay8 (ix2 h w)) a b = if h.val = 511 then a else b :=
  select_of_iff _ _ (sge_511_iff h.val h.isLt) a b

/-- The third mask holds exactly on column 0. -/
theorem select_colFirst {α : Type} (a b : α) (h w : Fin 512) :
    Scalar.select (k0_pay9 (ix2 h w)) a b = if w.val = 0 then a else b :=
  select_of_iff _ _ (slt_one_iff w.val w.isLt) a b

/-- The fourth mask holds exactly on column 511. -/
theorem select_colLast {α : Type} (a b : α) (h w : Fin 512) :
    Scalar.select (k0_pay10 (ix2 h w)) a b = if w.val = 511 then a else b :=
  select_of_iff _ _ (sge_511_iff w.val w.isLt) a b

/-- The first mask's bit at a pixel is set exactly on row 0. -/
theorem rowFirst_iff (h w : Fin 512) : k0_pay7 (ix2 h w) = 1#1 ↔ h.val = 0 := slt_one_iff h.val h.isLt
/-- The second mask's bit at a pixel is set exactly on row 511. -/
theorem rowLast_iff (h w : Fin 512) : k0_pay8 (ix2 h w) = 1#1 ↔ h.val = 511 := sge_511_iff h.val h.isLt
/-- The third mask's bit at a pixel is set exactly on column 0. -/
theorem colFirst_iff (h w : Fin 512) : k0_pay9 (ix2 h w) = 1#1 ↔ w.val = 0 := slt_one_iff w.val w.isLt
/-- The fourth mask's bit at a pixel is set exactly on column 511. -/
theorem colLast_iff (h w : Fin 512) : k0_pay10 (ix2 h w) = 1#1 ↔ w.val = 511 := sge_511_iff w.val w.isLt

/-! ## The four rotations at a pixel

A rotation by 1 along an axis reads the pixel before on that axis, around the end; a rotation by 511 the pixel after. -/

/-- The row or column `n` places back from `a`, around the end. -/
def back (n : Nat) (a : Fin 512) : Fin 512 := ⟨(a.val + 512 - n % 512) % 512, Nat.mod_lt _ (by decide)⟩

theorem rot_col (n : BitVec 32) (v : FVec Ideal S512x512 .f32) (h w : Fin 512) :
    dynamicRotate 1 n none v rotates_S512x512_d1 (ix2 h w) = v (ix2 h (back n.toNat w)) := by
  refine dynamicRotate_apply 1 n v _ _ _ ?_
  intro b
  fin_cases b
  · simp [ix2]
  · simp [ix2, back]

theorem rot_row (n : BitVec 32) (v : FVec Ideal S512x512 .f32) (h w : Fin 512) :
    dynamicRotate 0 n none v rotates_S512x512_d0 (ix2 h w) = v (ix2 (back n.toNat h) w) := by
  refine dynamicRotate_apply 0 n v _ _ _ ?_
  intro b
  fin_cases b
  · simp [ix2, back]
  · simp [ix2]

/-! ## A neighbour in the window -/

/-- A neighbour inside the image is the plane's value there. -/
theorem nb_inside (s : EReal) (f : Plane) (dh dw : ℕ) (h w a b : Fin 512)
    (ha : a.val + 1 = h.val + dh) (hb : b.val + 1 = w.val + dw) : nb s f dh dw h w = f a b := by
  have ha' := a.isLt
  have hb' := b.isLt
  unfold nb
  rw [dif_pos ⟨⟨by omega, by omega⟩, ⟨by omega, by omega⟩⟩]
  congr 1 <;> exact Fin.ext (by simp only []; omega)

/-- A neighbour outside the image is the filling value. -/
theorem nb_outside (s : EReal) (f : Plane) (dh dw : ℕ) (h w : Fin 512)
    (ho : h.val + dh = 0 ∨ 512 < h.val + dh ∨ w.val + dw = 0 ∨ 512 < w.val + dw) : nb s f dh dw h w = s := by
  unfold nb
  rw [dif_neg (by omega)]

/-! ## The separable 3 × 3 pools

A pool is two passes: along the columns, each pixel joined with its left and right neighbours (the filling value where
the neighbour would wrap around the image), then the same along the rows of the result. -/

/-- Each pixel joined by `max` with its two neighbours along axis `a`; `mFirst`, `mLast` mark the pixels whose neighbour
    wraps, which take minus infinity instead. -/
def passMax (a : Fin 2) (ha : S512x512.Rotates a none) (mFirst mLast : IVec S512x512 1) (v : FVec Ideal S512x512 .f32) :
    FVec Ideal S512x512 .f32 :=
  maximumf (maximumf v (select mFirst (broadcast S512x512 (Scalar.ofBits (F := Ideal) .f32 0xFF800000#32)) (dynamicRotate a 1#32 none v ha)))
    (select mLast (broadcast S512x512 (Scalar.ofBits (F := Ideal) .f32 0xFF800000#32)) (dynamicRotate a 511#32 none v ha))

/-- The same with `min` and plus infinity. -/
def passMin (a : Fin 2) (ha : S512x512.Rotates a none) (mFirst mLast : IVec S512x512 1) (v : FVec Ideal S512x512 .f32) :
    FVec Ideal S512x512 .f32 :=
  minimumf (minimumf v (select mFirst (broadcast S512x512 (Scalar.ofBits (F := Ideal) .f32 0x7F800000#32)) (dynamicRotate a 1#32 none v ha)))
    (select mLast (broadcast S512x512 (Scalar.ofBits (F := Ideal) .f32 0x7F800000#32)) (dynamicRotate a 511#32 none v ha))

/-- The 3 × 3 maximum as the kernel composes it. -/
def gMaxPool (mUp mDown mLeft mRight : IVec S512x512 1) (v : FVec Ideal S512x512 .f32) : FVec Ideal S512x512 .f32 :=
  passMax 0 rotates_S512x512_d0 mUp mDown (passMax 1 rotates_S512x512_d1 mLeft mRight v)

/-- The 3 × 3 minimum as the kernel composes it. -/
def gMinPool (mUp mDown mLeft mRight : IVec S512x512 1) (v : FVec Ideal S512x512 .f32) : FVec Ideal S512x512 .f32 :=
  passMin 0 rotates_S512x512_d0 mUp mDown (passMin 1 rotates_S512x512_d1 mLeft mRight v)

/-- The kernel's two pools of class 0's probabilities are these compositions, term for term. -/
example (v16 v18 v20 v22 : IVec S512x512 1) (v112 : FVec Ideal S512x512 .f32) :
    k0_pay27 (F := Ideal) v16 v18 v20 v22 v112 = gMaxPool v16 v18 v20 v22 v112 := rfl
example (v16 v18 v20 v22 : IVec S512x512 1) (v112 : FVec Ideal S512x512 .f32) :
    k0_pay28 (F := Ideal) v16 v18 v20 v22 v112 = gMinPool v16 v18 v20 v22 v112 := rfl
/-- So is a pool the kernel's text holds in pieces (class 1's indicator: the column pass, the upper neighbour's choice, and
    the rest, with the lower rotation's amount as an argument). -/
example (v16 v18 v20 v22 : IVec S512x512 1) (v231 : FVec Ideal S512x512 .f32) :
    k0_pay48 (F := Ideal) v16 v18 v20 v22 v231 (k0_pay46 v20 v22 v231) (k0_pay47 v16 v20 v22 v231) 511#32
      = subf (gMaxPool v16 v18 v20 v22 v231) (gMinPool v16 v18 v20 v22 v231) := rfl

/-- The largest of the three neighbours in row `dh` of the window. -/
def rowMax (f : Plane) (dh : ℕ) (h w : Fin 512) : EReal :=
  max (max (nb ⊥ f dh 1 h w) (nb ⊥ f dh 0 h w)) (nb ⊥ f dh 2 h w)

/-- The smallest of the three neighbours in row `dh` of the window. -/
def rowMin (f : Plane) (dh : ℕ) (h w : Fin 512) : EReal :=
  min (min (nb ⊤ f dh 1 h w) (nb ⊤ f dh 0 h w)) (nb ⊤ f dh 2 h w)

/-- The pass along the columns at row `h'`, seen from row `h` with `h' + 1 = h + dh`: row `dh` of the window. -/
theorem passMax_col_apply (v : FVec Ideal S512x512 .f32) (dh : ℕ) (h h' w : Fin 512) (hh : h'.val + 1 = h.val + dh) :
    passMax 1 rotates_S512x512_d1 k0_pay9 k0_pay10 v (ix2 h' w) = rowMax (fun a b => v (ix2 a b)) dh h w := by
  have hw := w.isLt
  unfold passMax
  rw [maximumf_apply, maximumf_apply, select_apply, select_apply, select_colFirst, select_colLast, broadcast_apply,
    rot_col, rot_col]
  unfold rowMax
  rw [nb_inside ⊥ _ dh 1 h w h' w hh rfl]
  congr 1
  · congr 1
    by_cases h0 : w.val = 0
    · rw [if_pos h0, nb_outside _ _ _ _ _ _ (by omega)]; exact ofBits_negInf
    · rw [if_neg h0, nb_inside ⊥ _ dh 0 h w h' (back (1#32).toNat w) hh (by simp [back]; omega)]
  · by_cases h0 : w.val = 511
    · rw [if_pos h0, nb_outside _ _ _ _ _ _ (by omega)]; exact ofBits_negInf
    · rw [if_neg h0, nb_inside ⊥ _ dh 2 h w h' (back (511#32).toNat w) hh (by simp [back]; omega)]

/-- The pass along the rows at a pixel: the pixel's value joined with the values one row up and one row down, minus infinity
    past the image's first and last rows. -/
theorem passMax_row_apply (hm : FVec Ideal S512x512 .f32) (h w : Fin 512) :
    passMax 0 rotates_S512x512_d0 k0_pay7 k0_pay8 hm (ix2 h w)
      = max (max (hm (ix2 h w)) (if h.val = 0 then ⊥ else hm (ix2 (back 1 h) w)))
          (if h.val = 511 then ⊥ else hm (ix2 (back 511 h) w)) := by
  unfold passMax
  rw [maximumf_apply, maximumf_apply, select_apply, select_apply, select_rowFirst, select_rowLast, broadcast_apply,
    rot_row, rot_row, show Scalar.ofBits (F := Ideal) .f32 0xFF800000#32 = (⊥ : EReal) from ofBits_negInf]
  rfl

/-- The kernel's 3 × 3 maximum at a pixel is the largest value in the clipped window. -/
theorem gMaxPool_apply (v : FVec Ideal S512x512 .f32) (h w : Fin 512) :
    gMaxPool k0_pay7 k0_pay8 k0_pay9 k0_pay10 v (ix2 h w) = maxPool (fun a b => v (ix2 a b)) h w := by
  have hh := h.isLt
  unfold gMaxPool
  rw [passMax_row_apply, passMax_col_apply v 1 h h w rfl]
  have eUp : (if h.val = 0 then (⊥ : EReal) else passMax 1 rotates_S512x512_d1 k0_pay9 k0_pay10 v (ix2 (back 1 h) w))
      = rowMax (fun a b => v (ix2 a b)) 0 h w := by
    by_cases h0 : h.val = 0
    · rw [if_pos h0]
      unfold rowMax
      rw [nb_outside _ _ _ _ _ _ (by omega), nb_outside _ _ _ _ _ _ (by omega), nb_outside _ _ _ _ _ _ (by omega)]
      simp
    · rw [if_neg h0]
      exact passMax_col_apply v 0 h (back 1 h) w (by simp [back]; omega)
  have eDown : (if h.val = 511 then (⊥ : EReal) else passMax 1 rotates_S512x512_d1 k0_pay9 k0_pay10 v (ix2 (back 511 h) w))
      = rowMax (fun a b => v (ix2 a b)) 2 h w := by
    by_cases h0 : h.val = 511
    · rw [if_pos h0]
      unfold rowMax
      rw [nb_outside _ _ _ _ _ _ (by omega), nb_outside _ _ _ _ _ _ (by omega), nb_outside _ _ _ _ _ _ (by omega)]
      simp
    · rw [if_neg h0]
      exact passMax_col_apply v 2 h (back 511 h) w (by simp [back]; omega)
  rw [eUp, eDown]
  unfold rowMax maxPool
  ac_rfl

/-- The pass along the columns for the minimum, at row `h'` seen from row `h` with `h' + 1 = h + dh`. -/
theorem passMin_col_apply (v : FVec Ideal S512x512 .f32) (dh : ℕ) (h h' w : Fin 512) (hh : h'.val + 1 = h.val + dh) :
    passMin 1 rotates_S512x512_d1 k0_pay9 k0_pay10 v (ix2 h' w) = rowMin (fun a b => v (ix2 a b)) dh h w := by
  have hw := w.isLt
  unfold passMin
  rw [minimumf_apply, minimumf_apply, select_apply, select_apply, select_colFirst, select_colLast, broadcast_apply,
    rot_col, rot_col]
  unfold rowMin
  rw [nb_inside ⊤ _ dh 1 h w h' w hh rfl]
  congr 1
  · congr 1
    by_cases h0 : w.val = 0
    · rw [if_pos h0, nb_outside _ _ _ _ _ _ (by omega)]; exact ofBits_posInf
    · rw [if_neg h0, nb_inside ⊤ _ dh 0 h w h' (back (1#32).toNat w) hh (by simp [back]; omega)]
  · by_cases h0 : w.val = 511
    · rw [if_pos h0, nb_outside _ _ _ _ _ _ (by omega)]; exact ofBits_posInf
    · rw [if_neg h0, nb_inside ⊤ _ dh 2 h w h' (back (511#32).toNat w) hh (by simp [back]; omega)]

/-- The pass along the rows for the minimum at a pixel. -/
theorem passMin_row_apply (hm : FVec Ideal S512x512 .f32) (h w : Fin 512) :
    passMin 0 rotates_S512x512_d0 k0_pay7 k0_pay8 hm (ix2 h w)
      = min (min (hm (ix2 h w)) (if h.val = 0 then ⊤ else hm (ix2 (back 1 h) w)))
          (if h.val = 511 then ⊤ else hm (ix2 (back 511 h) w)) := by
  unfold passMin
  rw [minimumf_apply, minimumf_apply, select_apply, select_apply, select_rowFirst, select_rowLast, broadcast_apply,
    rot_row, rot_row, show Scalar.ofBits (F := Ideal) .f32 0x7F800000#32 = (⊤ : EReal) from ofBits_posInf]
  rfl

/-- The kernel's 3 × 3 minimum at a pixel is the smallest value in the clipped window. -/
theorem gMinPool_apply (v : FVec Ideal S512x512 .f32) (h w : Fin 512) :
    gMinPool k0_pay7 k0_pay8 k0_pay9 k0_pay10 v (ix2 h w) = minPool (fun a b => v (ix2 a b)) h w := by
  have hh := h.isLt
  unfold gMinPool
  rw [passMin_row_apply, passMin_col_apply v 1 h h w rfl]
  have eUp : (if h.val = 0 then (⊤ : EReal) else passMin 1 rotates_S512x512_d1 k0_pay9 k0_pay10 v (ix2 (back 1 h) w))
      = rowMin (fun a b => v (ix2 a b)) 0 h w := by
    by_cases h0 : h.val = 0
    · rw [if_pos h0]
      unfold rowMin
      rw [nb_outside _ _ _ _ _ _ (by omega), nb_outside _ _ _ _ _ _ (by omega), nb_outside _ _ _ _ _ _ (by omega)]
      simp
    · rw [if_neg h0]
      exact passMin_col_apply v 0 h (back 1 h) w (by simp [back]; omega)
  have eDown : (if h.val = 511 then (⊤ : EReal) else passMin 1 rotates_S512x512_d1 k0_pay9 k0_pay10 v (ix2 (back 511 h) w))
      = rowMin (fun a b => v (ix2 a b)) 2 h w := by
    by_cases h0 : h.val = 511
    · rw [if_pos h0]
      unfold rowMin
      rw [nb_outside _ _ _ _ _ _ (by omega), nb_outside _ _ _ _ _ _ (by omega), nb_outside _ _ _ _ _ _ (by omega)]
      simp
    · rw [if_neg h0]
      exact passMin_col_apply v 2 h (back 511 h) w (by simp [back]; omega)
  rw [eUp, eDown]
  unfold rowMin minPool
  ac_rfl

/-! ## The pools of a plane, as whole vectors -/

/-- The kernel's 3 × 3 maximum of a plane, spelt out in rotations, choices and joins (the column pass written wherever the
    row pass uses it), is the plane of window maxima. -/
theorem maxPool_plane (f : Plane) :
    maximumf
      (maximumf
        (maximumf (maximumf (planeOf f) (select k0_pay9 (broadcast S512x512 (Scalar.ofBits (F := Ideal) .f32 0xFF800000#32)) (dynamicRotate 1 1#32 (no_index none) (planeOf f) rotates_S512x512_d1)))
          (select k0_pay10 (broadcast S512x512 (Scalar.ofBits (F := Ideal) .f32 0xFF800000#32)) (dynamicRotate 1 511#32 (no_index none) (planeOf f) rotates_S512x512_d1)))
        (select k0_pay7 (broadcast S512x512 (Scalar.ofBits (F := Ideal) .f32 0xFF800000#32))
          (dynamicRotate 0 1#32 (no_index none)
            (maximumf (maximumf (planeOf f) (select k0_pay9 (broadcast S512x512 (Scalar.ofBits (F := Ideal) .f32 0xFF800000#32)) (dynamicRotate 1 1#32 (no_index none) (planeOf f) rotates_S512x512_d1)))
              (select k0_pay10 (broadcast S512x512 (Scalar.ofBits (F := Ideal) .f32 0xFF800000#32)) (dynamicRotate 1 511#32 (no_index none) (planeOf f) rotates_S512x512_d1)))
            rotates_S512x512_d0)))
      (select k0_pay8 (broadcast S512x512 (Scalar.ofBits (F := Ideal) .f32 0xFF800000#32))
        (dynamicRotate 0 511#32 (no_index none)
          (maximumf (maximumf (planeOf f) (select k0_pay9 (broadcast S512x512 (Scalar.ofBits (F := Ideal) .f32 0xFF800000#32)) (dynamicRotate 1 1#32 (no_index none) (planeOf f) rotates_S512x512_d1)))
            (select k0_pay10 (broadcast S512x512 (Scalar.ofBits (F := Ideal) .f32 0xFF800000#32)) (dynamicRotate 1 511#32 (no_index none) (planeOf f) rotates_S512x512_d1)))
          rotates_S512x512_d0))
    = planeOf (maxPool f) := by
  funext j
  rw [eq_ix2 j]
  exact gMaxPool_apply (planeOf f) (j 0) (j 1)

/-- The kernel's 3 × 3 minimum of a plane is the plane of window minima. -/
theorem minPool_plane (f : Plane) :
    minimumf
      (minimumf
        (minimumf (minimumf (planeOf f) (select k0_pay9 (broadcast S512x512 (Scalar.ofBits (F := Ideal) .f32 0x7F800000#32)) (dynamicRotate 1 1#32 (no_index none) (planeOf f) rotates_S512x512_d1)))
          (select k0_pay10 (broadcast S512x512 (Scalar.ofBits (F := Ideal) .f32 0x7F800000#32)) (dynamicRotate 1 511#32 (no_index none) (planeOf f) rotates_S512x512_d1)))
        (select k0_pay7 (broadcast S512x512 (Scalar.ofBits (F := Ideal) .f32 0x7F800000#32))
          (dynamicRotate 0 1#32 (no_index none)
            (minimumf (minimumf (planeOf f) (select k0_pay9 (broadcast S512x512 (Scalar.ofBits (F := Ideal) .f32 0x7F800000#32)) (dynamicRotate 1 1#32 (no_index none) (planeOf f) rotates_S512x512_d1)))
              (select k0_pay10 (broadcast S512x512 (Scalar.ofBits (F := Ideal) .f32 0x7F800000#32)) (dynamicRotate 1 511#32 (no_index none) (planeOf f) rotates_S512x512_d1)))
            rotates_S512x512_d0)))
      (select k0_pay8 (broadcast S512x512 (Scalar.ofBits (F := Ideal) .f32 0x7F800000#32))
        (dynamicRotate 0 511#32 (no_index none)
          (minimumf (minimumf (planeOf f) (select k0_pay9 (broadcast S512x512 (Scalar.ofBits (F := Ideal) .f32 0x7F800000#32)) (dynamicRotate 1 1#32 (no_index none) (planeOf f) rotates_S512x512_d1)))
            (select k0_pay10 (broadcast S512x512 (Scalar.ofBits (F := Ideal) .f32 0x7F800000#32)) (dynamicRotate 1 511#32 (no_index none) (planeOf f) rotates_S512x512_d1)))
          rotates_S512x512_d0))
    = planeOf (minPool f) := by
  funext j
  rw [eq_ix2 j]
  exact gMinPool_apply (planeOf f) (j 0) (j 1)

end Cert.SegLoss.Kernel

end
-- ==== Proof.KernelConcat.lean ====
import proofs.«401271_j53171695125135_2_alg».proof.Proof.Gen.KernelIdeal.Skeleton
import proofs.«401271_j53171695125135_2_alg».proof.Proof.Spec
import Idealize.ShloMosaic.Lib.Pipeline.Value
import Idealize.ShloMosaic.Lib.ValueIdx
import Idealize.ShloMosaic.PureOps.Ideal.Laws

/-! The kernel's row of 62 statistics, read position by position. A grid point lays its scalars end to end — the focal
    numerator and denominator, then ten each of TP, FP, FN, the boundary intersection and the two boundary masses — and adds
    the row to the accumulator. A concatenation read at a position is the piece whose span holds the position, at the
    position minus the span's start; the reshapes between a 62-vector, a 1 × 62 row and a 1 × 1 × 62 block keep the
    row-major position. The layout that results is the one the specification's statistics vector is written in. -/

noncomputable section

namespace Cert.SegLoss.Kernel

open Idealize.ShloMosaic Idealize.ShloMosaic.ValueIdx Cert.KernelIdeal Cert.KernelIdeal.Gen
open Cert.SegLoss

/-! ## Concatenations read at a position -/

/-- A table of ten entries read at an index. -/
theorem vec10_apply (g : Fin 10 → EReal) (i : Fin 10) : ![g 0, g 1, g 2, g 3, g 4, g 5, g 6, g 7, g 8, g 9] i = g i := by
  fin_cases i <;> rfl

/-- Ten one-element vectors laid end to end, read at position `c`: the `c`-th vector's element. -/
theorem concat10_apply (x0 x1 x2 x3 x4 x5 x6 x7 x8 x9 : S1.Idx → EReal)
    (h : Shape.Concatenates [S1, S1, S1, S1, S1, S1, S1, S1, S1, S1] S10 0) (c : Fin 10) :
    concatenate S10 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 c)
      = ![x0 (ix1 0), x1 (ix1 0), x2 (ix1 0), x3 (ix1 0), x4 (ix1 0), x5 (ix1 0), x6 (ix1 0), x7 (ix1 0), x8 (ix1 0), x9 (ix1 0)] c := by
  fin_cases c
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 0 (by simp) S1 x0 rfl rfl 0 rfl (ix1 0)
      (fun b hb => (hb (Subsingleton.elim _ _)).elim) rfl
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 1 (by simp) S1 x1 rfl rfl 1 rfl (ix1 0)
      (fun b hb => (hb (Subsingleton.elim _ _)).elim) rfl
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 2 (by simp) S1 x2 rfl rfl 2 rfl (ix1 0)
      (fun b hb => (hb (Subsingleton.elim _ _)).elim) rfl
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 3 (by simp) S1 x3 rfl rfl 3 rfl (ix1 0)
      (fun b hb => (hb (Subsingleton.elim _ _)).elim) rfl
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 4 (by simp) S1 x4 rfl rfl 4 rfl (ix1 0)
      (fun b hb => (hb (Subsingleton.elim _ _)).elim) rfl
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 5 (by simp) S1 x5 rfl rfl 5 rfl (ix1 0)
      (fun b hb => (hb (Subsingleton.elim _ _)).elim) rfl
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 6 (by simp) S1 x6 rfl rfl 6 rfl (ix1 0)
      (fun b hb => (hb (Subsingleton.elim _ _)).elim) rfl
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 7 (by simp) S1 x7 rfl rfl 7 rfl (ix1 0)
      (fun b hb => (hb (Subsingleton.elim _ _)).elim) rfl
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 8 (by simp) S1 x8 rfl rfl 8 rfl (ix1 0)
      (fun b hb => (hb (Subsingleton.elim _ _)).elim) rfl
  · exact concatenate_apply_piece 0 ([⟨S1, x0⟩, ⟨S1, x1⟩, ⟨S1, x2⟩, ⟨S1, x3⟩, ⟨S1, x4⟩, ⟨S1, x5⟩, ⟨S1, x6⟩, ⟨S1, x7⟩, ⟨S1, x8⟩, ⟨S1, x9⟩] : List ((s : Shape) × (s.Idx → EReal))) h (ix1 _) 9 (by simp) S1 x9 rfl rfl 9 rfl (ix1 0)
      (fun b hb => (hb (Subsingleton.elim _ _)).elim) rfl

/-- Two one-element vectors and six ten-element vectors laid end to end, read at position `k`: the piece whose span
    holds `k`, at `k` minus the span's start. -/
theorem concat62_apply (x0 x1 : S1.Idx → EReal) (y2 y3 y4 y5 y6 y7 : S10.Idx → EReal)
    (h : Shape.Concatenates [S1, S1, S10, S10, S10, S10, S10, S10] S62 0) (k : Fin 62) :
    concatenate S62 0 ([⟨S1, x0⟩, ⟨S1, x1⟩, ⟨S10, y2⟩, ⟨S10, y3⟩, ⟨S10, y4⟩, ⟨S10, y5⟩, ⟨S10, y6⟩, ⟨S10, y7⟩] : List ((s : Shape) × (s.Idx → EReal))) h (ix1 k)
      = if k.val = 0 then x0 (ix1 0)
        else if k.val = 1 then x1 (ix1 0)
        else if h2 : k.val < 12 then y2 (ix1 ⟨k.val - 2, by omega⟩)
        else if h3 : k.val < 22 then y3 (ix1 ⟨k.val - 12, by omega⟩)
        else if h4 : k.val < 32 then y4 (ix1 ⟨k.val - 22, by omega⟩)
        else if h5 : k.val < 42 then y5 (ix1 ⟨k.val - 32, by omega⟩)
        else if h6 : k.val < 52 then y6 (ix1 ⟨k.val - 42, by omega⟩)
        else y7 (ix1 ⟨k.val - 52, by omega⟩) := by
  have hk := k.isLt
  by_cases h0 : k.val = 0
  · rw [if_pos h0]
    exact concatenate_apply_piece 0 ([⟨S1, x0⟩, ⟨S1, x1⟩, ⟨S10, y2⟩, ⟨S10, y3⟩, ⟨S10, y4⟩, ⟨S10, y5⟩, ⟨S10, y6⟩, ⟨S10, y7⟩] : List ((s : Shape) × (s.Idx → EReal))) h (ix1 k) 0 (by simp) S1 x0 rfl rfl 0 rfl (ix1 0)
      (fun b hb => (hb (Subsingleton.elim _ _)).elim) (by show 0 + 0 = k.val; omega)
  rw [if_neg h0]
  by_cases h1 : k.val = 1
  · rw [if_pos h1]
    exact concatenate_apply_piece 0 ([⟨S1, x0⟩, ⟨S1, x1⟩, ⟨S10, y2⟩, ⟨S10, y3⟩, ⟨S10, y4⟩, ⟨S10, y5⟩, ⟨S10, y6⟩, ⟨S10, y7⟩] : List ((s : Shape) × (s.Idx → EReal))) h (ix1 k) 1 (by simp) S1 x1 rfl rfl 1 rfl (ix1 0)
      (fun b hb => (hb (Subsingleton.elim _ _)).elim) (by show 1 + 0 = k.val; omega)
  rw [if_neg h1]
  by_cases h2 : k.val < 12
  · rw [dif_pos h2]
    exact concatenate_apply_piece 0 ([⟨S1, x0⟩, ⟨S1, x1⟩, ⟨S10, y2⟩, ⟨S10, y3⟩, ⟨S10, y4⟩, ⟨S10, y5⟩, ⟨S10, y6⟩, ⟨S10, y7⟩] : List ((s : Shape) × (s.Idx → EReal))) h (ix1 k) 2 (by simp) S10 y2 rfl rfl 2 rfl (ix1 ⟨k.val - 2, by omega⟩)
      (fun b hb => (hb (Subsingleton.elim _ _)).elim) (by show 2 + (k.val - 2) = k.val; omega)
  rw [dif_neg h2]
  by_cases h3 : k.val < 22
  · rw [dif_pos h3]
    exact concatenate_apply_piece 0 ([⟨S1, x0⟩, ⟨S1, x1⟩, ⟨S10, y2⟩, ⟨S10, y3⟩, ⟨S10, y4⟩, ⟨S10, y5⟩, ⟨S10, y6⟩, ⟨S10, y7⟩] : List ((s : Shape) × (s.Idx → EReal))) h (ix1 k) 3 (by simp) S10 y3 rfl rfl 12 rfl (ix1 ⟨k.val - 12, by omega⟩)
      (fun b hb => (hb (Subsingleton.elim _ _)).elim) (by show 12 + (k.val - 12) = k.val; omega)
  rw [dif_neg h3]
  by_cases h4 : k.val < 32
  · rw [dif_pos h4]
    exact concatenate_apply_piece 0 ([⟨S1, x0⟩, ⟨S1, x1⟩, ⟨S10, y2⟩, ⟨S10, y3⟩, ⟨S10, y4⟩, ⟨S10, y5⟩, ⟨S10, y6⟩, ⟨S10, y7⟩] : List ((s : Shape) × (s.Idx → EReal))) h (ix1 k) 4 (by simp) S10 y4 rfl rfl 22 rfl (ix1 ⟨k.val - 22, by omega⟩)
      (fun b hb => (hb (Subsingleton.elim _ _)).elim) (by show 22 + (k.val - 22) = k.val; omega)
  rw [dif_neg h4]
  by_cases h5 : k.val < 42
  · rw [dif_pos h5]
    exact concatenate_apply_piece 0 ([⟨S1, x0⟩, ⟨S1, x1⟩, ⟨S10, y2⟩, ⟨S10, y3⟩, ⟨S10, y4⟩, ⟨S10, y5⟩, ⟨S10, y6⟩, ⟨S10, y7⟩] : List ((s : Shape) × (s.Idx → EReal))) h (ix1 k) 5 (by simp) S10 y5 rfl rfl 32 rfl (ix1 ⟨k.val - 32, by omega⟩)
      (fun b hb => (hb (Subsingleton.elim _ _)).elim) (by show 32 + (k.val - 32) = k.val; omega)
  rw [dif_neg h5]
  by_cases h6 : k.val < 52
  · rw [dif_pos h6]
    exact concatenate_apply_piece 0 ([⟨S1, x0⟩, ⟨S1, x1⟩, ⟨S10, y2⟩, ⟨S10, y3⟩, ⟨S10, y4⟩, ⟨S10, y5⟩, ⟨S10, y6⟩, ⟨S10, y7⟩] : List ((s : Shape) × (s.Idx → EReal))) h (ix1 k) 6 (by simp) S10 y6 rfl rfl 42 rfl (ix1 ⟨k.val - 42, by omega⟩)
      (fun b hb => (hb (Subsingleton.elim _ _)).elim) (by show 42 + (k.val - 42) = k.val; omega)
  rw [dif_neg h6]
  exact concatenate_apply_piece 0 ([⟨S1, x0⟩, ⟨S1, x1⟩, ⟨S10, y2⟩, ⟨S10, y3⟩, ⟨S10, y4⟩, ⟨S10, y5⟩, ⟨S10, y6⟩, ⟨S10, y7⟩] : List ((s : Shape) × (s.Idx → EReal))) h (ix1 k) 7 (by simp) S10 y7 rfl rfl 52 rfl (ix1 ⟨k.val - 52, by omega⟩)
    (fun b hb => (hb (Subsingleton.elim _ _)).elim) (by show 52 + (k.val - 52) = k.val; omega)

/-! ## The payloads read at an index -/

/-- The row of 62 statistics a grid point adds to the accumulator, read at position `k`: the accumulator's entry plus, by
    `k`'s segment, the focal numerator, the focal denominator, or entry `k - o` of the ten TP, FP, FN, boundary
    intersection and the two boundary-mass scalars (`o` the segment's start). -/
theorem k0_pay206_apply (v141 : Ideal .f32) (v213 : Ideal .f32) (v218 : Ideal .f32) (v223 : Ideal .f32) (v256 : Ideal .f32) (v328 : Ideal .f32) (v333 : Ideal .f32) (v338 : Ideal .f32) (v371 : Ideal .f32) (v443 : Ideal .f32) (v448 : Ideal .f32) (v453 : Ideal .f32) (v486 : Ideal .f32) (v558 : Ideal .f32) (v563 : Ideal .f32) (v568 : Ideal .f32) (v601 : Ideal .f32) (v673 : Ideal .f32) (v678 : Ideal .f32) (v683 : Ideal .f32) (v716 : Ideal .f32) (v788 : Ideal .f32) (v793 : Ideal .f32) (v798 : Ideal .f32) (v831 : Ideal .f32) (v903 : Ideal .f32) (v908 : Ideal .f32) (v913 : Ideal .f32) (v946 : Ideal .f32) (v1018 : Ideal .f32) (v1023 : Ideal .f32) (v1028 : Ideal .f32) (v1061 : Ideal .f32) (v1133 : Ideal .f32) (v1138 : Ideal .f32) (v1143 : Ideal .f32) (v1176 : Ideal .f32) (v1248 : Ideal .f32) (v1253 : Ideal .f32) (v1258 : Ideal .f32) (v1270 : Ideal .f32) (v1274 : Ideal .f32) (v1285 : FVec Ideal S10 .f32) (v1286 : FVec Ideal S1 .f32) (v1287 : FVec Ideal S1 .f32) (v1288 : FVec Ideal S1 .f32) (v1289 : FVec Ideal S1 .f32) (v1290 : FVec Ideal S1 .f32) (v1291 : FVec Ideal S1 .f32) (v1292 : FVec Ideal S1 .f32) (v1293 : FVec Ideal S1 .f32) (v1294 : FVec Ideal S1 .f32) (v1295 : FVec Ideal S1 .f32) (v1345 : Vec Ideal S1x62 .f32) (k : Fin 62) :
    k0_pay206 (F := Ideal) v141 v213 v218 v223 v256 v328 v333 v338 v371 v443 v448 v453 v486 v558 v563 v568 v601 v673 v678 v683 v716 v788 v793 v798 v831 v903 v908 v913 v946 v1018 v1023 v1028 v1061 v1133 v1138 v1143 v1176 v1248 v1253 v1258 v1270 v1274 v1285 v1286 v1287 v1288 v1289 v1290 v1291 v1292 v1293 v1294 v1295 v1345 (ix2 (0 : Fin 1) k)
      = v1345 (ix2 (0 : Fin 1) k) +
        (if k.val = 0 then v1270
        else if k.val = 1 then v1274
        else if h2 : k.val < 12 then v1285 (ix1 ⟨k.val - 2, by omega⟩)
        else if h3 : k.val < 22 then ![v1286 (ix1 0), v1287 (ix1 0), v1288 (ix1 0), v1289 (ix1 0), v1290 (ix1 0), v1291 (ix1 0), v1292 (ix1 0), v1293 (ix1 0), v1294 (ix1 0), v1295 (ix1 0)] ⟨k.val - 12, by omega⟩
        else if h4 : k.val < 32 then ![v141, v256, v371, v486, v601, v716, v831, v946, v1061, v1176] ⟨k.val - 22, by omega⟩
        else if h5 : k.val < 42 then ![v213, v328, v443, v558, v673, v788, v903, v1018, v1133, v1248] ⟨k.val - 32, by omega⟩
        else if h6 : k.val < 52 then ![v218, v333, v448, v563, v678, v793, v908, v1023, v1138, v1253] ⟨k.val - 42, by omega⟩
        else ![v223, v338, v453, v568, v683, v798, v913, v1028, v1143, v1258] ⟨k.val - 52, by omega⟩) := by
  simp only [k0_pay206]
  rw [shapeCast_apply _ shapeCasts_S1x62_S1x62 (ix2 (0 : Fin 1) k) (ix2 (0 : Fin 1) k) rfl, addf_apply,
    shapeCast_apply _ shapeCasts_S62_S1x62 (ix2 (0 : Fin 1) k) (ix1 k)
      (by rw [Shape.rowMajor_val_one, Shape.rowMajor_val_two]; show k.val = 0 * 62 + k.val; omega),
    concat62_apply]
  simp only [concat10_apply]
  rfl

/-- The ten TP scalars as a vector, read at position `c`. -/
theorem k0_pay195_apply (v127 v242 v357 v472 v587 v702 v817 v932 v1047 v1162 : Ideal .f32) (c : Fin 10) :
    k0_pay195 (F := Ideal) v127 v242 v357 v472 v587 v702 v817 v932 v1047 v1162 (ix1 c) = ![v127, v242, v357, v472, v587, v702, v817, v932, v1047, v1162] c := by
  simp only [k0_pay195]
  rw [concat10_apply]
  rfl

/-- A scalar as a one-element vector. -/
theorem k0_pay196_apply (v : Ideal .f32) (j : S1.Idx) : k0_pay196 (F := Ideal) v j = v := rfl
/-- A scalar as a one-element vector. -/
theorem k0_pay197_apply (v : Ideal .f32) (j : S1.Idx) : k0_pay197 (F := Ideal) v j = v := rfl
/-- A scalar as a one-element vector. -/
theorem k0_pay198_apply (v : Ideal .f32) (j : S1.Idx) : k0_pay198 (F := Ideal) v j = v := rfl
/-- A scalar as a one-element vector. -/
theorem k0_pay199_apply (v : Ideal .f32) (j : S1.Idx) : k0_pay199 (F := Ideal) v j = v := rfl
/-- A scalar as a one-element vector. -/
theorem k0_pay200_apply (v : Ideal .f32) (j : S1.Idx) : k0_pay200 (F := Ideal) v j = v := rfl
/-- A scalar as a one-element vector. -/
theorem k0_pay201_apply (v : Ideal .f32) (j : S1.Idx) : k0_pay201 (F := Ideal) v j = v := rfl
/-- A scalar as a one-element vector. -/
theorem k0_pay202_apply (v : Ideal .f32) (j : S1.Idx) : k0_pay202 (F := Ideal) v j = v := rfl
/-- A scalar as a one-element vector. -/
theorem k0_pay203_apply (v : Ideal .f32) (j : S1.Idx) : k0_pay203 (F := Ideal) v j = v := rfl
/-- A scalar as a one-element vector. -/
theorem k0_pay204_apply (v : Ideal .f32) (j : S1.Idx) : k0_pay204 (F := Ideal) v j = v := rfl
/-- A scalar as a one-element vector. -/
theorem k0_pay205_apply (v : Ideal .f32) (j : S1.Idx) : k0_pay205 (F := Ideal) v j = v := rfl

/-- The row as the output block: position `k` of the block is position `k` of the row. -/
theorem k0_pay1_apply (v : Vec Ideal S1x62 .f32) (k : Fin 62) :
    k0_pay1 (F := Ideal) v (ix3 (0 : Fin 1) (0 : Fin 1) k) = v (ix2 (0 : Fin 1) k) := by
  simp only [k0_pay1]
  exact shapeCast_apply _ shapeCasts_S1x62_S1x1x62 _ _
    (by rw [Shape.rowMajor_val_two, Shape.rowMajor_val_three]; show 0 * 62 + k.val = (0 * 1 + 0) * 62 + k.val; omega)

/-- The zeroed accumulator is zero at every position. -/
theorem k0_pay2_apply (j : S1x62.Idx) : k0_pay2 (F := Ideal) j = 0 := by
  simp only [k0_pay2]
  rw [shapeCast_apply _ shapeCasts_S1x62_S1x62 j j rfl]
  exact Ideal.ofBits_zero_f32

/-! ## The layout of the row is the specification's -/

/-- The 62 statistics listed segment by segment, each segment a table of its ten class entries, are the specification's
    statistics vector. -/
theorem statVec_of_parts (X : Img) (T : Lab) (k : Fin 62) :
    (if k.val = 0 then fnum X T
      else if k.val = 1 then fden T
      else if h2 : k.val < 12 then ![tp X T 0, tp X T 1, tp X T 2, tp X T 3, tp X T 4, tp X T 5, tp X T 6, tp X T 7, tp X T 8, tp X T 9] ⟨k.val - 2, by omega⟩
      else if h3 : k.val < 22 then ![fp X T 0, fp X T 1, fp X T 2, fp X T 3, fp X T 4, fp X T 5, fp X T 6, fp X T 7, fp X T 8, fp X T 9] ⟨k.val - 12, by omega⟩
      else if h4 : k.val < 32 then ![fn X T 0, fn X T 1, fn X T 2, fn X T 3, fn X T 4, fn X T 5, fn X T 6, fn X T 7, fn X T 8, fn X T 9] ⟨k.val - 22, by omega⟩
      else if h5 : k.val < 42 then ![inter X T 0, inter X T 1, inter X T 2, inter X T 3, inter X T 4, inter X T 5, inter X T 6, inter X T 7, inter X T 8, inter X T 9] ⟨k.val - 32, by omega⟩
      else if h6 : k.val < 52 then ![dpb X T 0, dpb X T 1, dpb X T 2, dpb X T 3, dpb X T 4, dpb X T 5, dpb X T 6, dpb X T 7, dpb X T 8, dpb X T 9] ⟨k.val - 42, by omega⟩
      else ![dgb T 0, dgb T 1, dgb T 2, dgb T 3, dgb T 4, dgb T 5, dgb T 6, dgb T 7, dgb T 8, dgb T 9] ⟨k.val - 52, by omega⟩) = statVec X T k := by
  simp only [vec10_apply (tp X T), vec10_apply (fp X T), vec10_apply (fn X T), vec10_apply (inter X T),
    vec10_apply (dpb X T), vec10_apply (dgb T)]
  rfl

end Cert.SegLoss.Kernel

end
-- ==== Proof.KernelValue.lean ====
import proofs.«401271_j53171695125135_2_alg».proof.Proof.KernelPlanes
import proofs.«401271_j53171695125135_2_alg».proof.Proof.KernelFocal
import proofs.«401271_j53171695125135_2_alg».proof.Proof.KernelPools
import proofs.«401271_j53171695125135_2_alg».proof.Proof.KernelConcat

/-! What one grid point adds to the accumulator: the 62 statistics of the image its two blocks hold. At a core's first
    point the accumulator is reset first, so it ends at the statistics themselves; at a later point it ends at what
    the point before left plus the statistics. The output block is the accumulator, reshaped.

    The value the point stores is one expression over the loaded class planes and the loaded labels. It is rewritten
    from the inside out: a loaded class plane is that class's plane of the image; the running maximum over the classes
    is the pixel's largest logit, the running sum of shifted exponentials its `sumExp`, hence `lse`, `logp` and `prob`;
    a comparison of the clipped label with a class is that class's indicator; each pair of rotations and selections is a
    3 × 3 maximum or minimum; every elementwise operation acts pixel by pixel; and each reduction is the sum over the
    image. What remains is the concatenation of the 62 statistics in the specification's order, added to the accumulator. -/

set_option maxRecDepth 65536

noncomputable section

namespace Cert.SegLoss.Kernel

open Idealize.ShloMosaic Idealize.ShloMosaic.TcCoe Idealize.ShloMosaic.Tactic Idealize.SL.Sem Idealize.ShloMosaic.ValueIdx Cert.KernelIdeal Cert.KernelIdeal.Gen
open Cert.SegLoss

/-- A load of the whole accumulator reads it. -/
theorem load_acc (arg5 : Memref sig .tc .vmem S1x62 .f32) (harg5 : arg5.IsWhole) (xs0 : Vec Ideal S1x62 .f32)
    (inb) : View.readAt (Elt Ideal) arg5.view (Rect.unit (s := S1x62) ![0, 0] ![1, 62] inb).toLoadRect (harg5.unread xs0) = xs0 := by
  rw [View.readAt_eq_ld, harg5.read_unread]
  exact View.ld_unit_zero (by funext a; fin_cases a <;> rfl) inb xs0

/-- The boundary intersection, with both gradients written as dilation minus erosion. -/
theorem inter_close (X : Img) (T : Lab) (c : Fin 10) :
    sum2 (fun h w => (maxPool (prob X c) h w - minPool (prob X c) h w) * (maxPool (hot T c) h w - minPool (hot T c) h w) * valid T h w)
      = inter X T c := rfl
/-- The predicted boundary mass. -/
theorem dpb_close (X : Img) (T : Lab) (c : Fin 10) :
    sum2 (fun h w => (maxPool (prob X c) h w - minPool (prob X c) h w) * valid T h w) = dpb X T c := rfl
/-- The label boundary mass. -/
theorem dgb_close (T : Lab) (c : Fin 10) :
    sum2 (fun h w => (maxPool (hot T c) h w - minPool (hot T c) h w) * valid T h w) = dgb T c := rfl

/-- The loads as planes of the image, then the stored expression from the inside out: every intermediate vector as the
    plane of the image it holds, every reduction as the sum over the image. -/
local macro "image_planes" : tactic => `(tactic| (
  simp only [load_plane_0, load_plane_1, load_plane_2, load_plane_3, load_plane_4, load_plane_5, load_plane_6, load_plane_7,
    load_plane_8, load_plane_9, load_lab, load_acc]
  simp only [
    k0_pay11, k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43,
    k0_pay44, k0_pay45, k0_pay46, k0_pay47, k0_pay48, k0_pay49, k0_pay50, k0_pay51, k0_pay52, k0_pay53, k0_pay54,
    k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138,
    k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187, k0_pay188,
    k0_pay189, k0_pay190, k0_pay191, k0_pay192, k0_pay193, k0_pay194,
    squeeze_plane, pay5_plane, pay6_words, mx_plane, mulf_planes, addf_planes, subf_planes, exp_plane, log_plane,
    subf_const_plane, addf_const_plane, mulf_const_plane, sumExp_fold_word, lse_fold, logp_fold, prob_fold,
    hot_plane_0, hot_plane_1, hot_plane_2, hot_plane_3, hot_plane_4, hot_plane_5, hot_plane_6, hot_plane_7,
    hot_plane_8, hot_plane_9, select_valid_plane, maxPool_plane, minPool_plane, sum_plane]))

/-- The concatenation read at entry `k`, its entries named as the specification names them. -/
local macro "statistics_layout" : tactic => `(tactic| (
  rw [k0_pay206_apply]
  simp only [k0_pay195_apply, k0_pay196_apply, k0_pay197_apply, k0_pay198_apply, k0_pay199_apply, k0_pay200_apply,
    k0_pay201_apply, k0_pay202_apply, k0_pay203_apply, k0_pay204_apply, k0_pay205_apply]
  simp only [fnum_close_words]
  simp only [Ideal.ofBits_def, ofBits_one]
  simp only [tp_close, fp_close, fn_close, fden_close, inter_close, dpb_close, dgb_close]
  rw [statVec_of_parts]))

/-- The accumulator after a core's first point. -/
theorem sout_A (c : Dev nD) (i : grid0.Coords) (arg2 : Memref sig .tc .vmem S1x10x512x512 .f32) (harg2 : arg2.IsWhole) (arg3 : Memref sig .tc .vmem S1x512x512 .i32) (harg3 : arg3.IsWhole) (arg4 : Memref sig .tc .vmem S1x1x62 .f32) (harg4 : arg4.IsWhole) (arg5 : Memref sig .tc .vmem S1x62 .f32) (harg5 : arg5.IsWhole) (hc0 : cond0_0 i)
    (x0 : Vec Ideal S1x10x512x512 .f32) (x1 : Vec Ideal S1x512x512 .i32) (k : Fin 62) :
    sout0_A_0 (F := Ideal) c i arg2 harg2 arg3 harg3 arg4 harg4 arg5 harg5 hc0 x0 x1 (ix2 (0 : Fin 1) k) = statVec (blockImg x0) (blockLab x1) k := by
  unfold sout0_A_0
  rw [View.read_writes_eq_canon _ _ _ (scover0_A_0 c i arg2 harg2 arg3 harg3 arg4 harg4 arg5 harg5 hc0 x0 x1)]
  unfold kernelRun0_A
  dsimp only
  sl_unfold_words
  -- the update is the last store: the accumulator holds its payload, which read the zeros stored just before
  rw [View.canon_cons_unit_zero (by funext a; fin_cases a <;> rfl)]
  image_planes
  statistics_layout
  rw [View.readCov_unit_zero _ (by funext a; fin_cases a <;> rfl), k0_pay2_apply, zero_add]

/-- The accumulator after a later point, over what the point before left in it. -/
theorem sout_B (c : Dev nD) (i : grid0.Coords) (arg2 : Memref sig .tc .vmem S1x10x512x512 .f32) (harg2 : arg2.IsWhole) (arg3 : Memref sig .tc .vmem S1x512x512 .i32) (harg3 : arg3.IsWhole) (arg4 : Memref sig .tc .vmem S1x1x62 .f32) (harg4 : arg4.IsWhole) (arg5 : Memref sig .tc .vmem S1x62 .f32) (harg5 : arg5.IsWhole) (hc0 : ¬cond0_0 i)
    (x0 : Vec Ideal S1x10x512x512 .f32) (x1 : Vec Ideal S1x512x512 .i32) (xs0 : Vec Ideal S1x62 .f32) (k : Fin 62) :
    sout0_B_0 (F := Ideal) c i arg2 harg2 arg3 harg3 arg4 harg4 arg5 harg5 hc0 x0 x1 xs0 (ix2 (0 : Fin 1) k) = xs0 (ix2 (0 : Fin 1) k) + statVec (blockImg x0) (blockLab x1) k := by
  unfold sout0_B_0
  rw [View.read_writes_eq_canon _ _ _ (scover0_B_0 c i arg2 harg2 arg3 harg3 arg4 harg4 arg5 harg5 hc0 x0 x1 xs0)]
  unfold kernelRun0_B
  dsimp only
  sl_unfold_words
  rw [View.canon_unit_zero (by funext a; fin_cases a <;> rfl)]
  image_planes
  statistics_layout

/-- The output block after a core's first point. -/
theorem out_A (c : Dev nD) (i : grid0.Coords) (arg2 : Memref sig .tc .vmem S1x10x512x512 .f32) (harg2 : arg2.IsWhole) (arg3 : Memref sig .tc .vmem S1x512x512 .i32) (harg3 : arg3.IsWhole) (arg4 : Memref sig .tc .vmem S1x1x62 .f32) (harg4 : arg4.IsWhole) (arg5 : Memref sig .tc .vmem S1x62 .f32) (harg5 : arg5.IsWhole) (hc0 : cond0_0 i)
    (x0 : Vec Ideal S1x10x512x512 .f32) (x1 : Vec Ideal S1x512x512 .i32) (k : Fin 62) :
    out0_A_2 (F := Ideal) c i arg2 harg2 arg3 harg3 arg4 harg4 arg5 harg5 hc0 x0 x1 (ix3 (0 : Fin 1) (0 : Fin 1) k) = statVec (blockImg x0) (blockLab x1) k := by
  unfold out0_A_2
  rw [View.read_writes_eq_canon _ _ _ (cover0_A_2 c i arg2 harg2 arg3 harg3 arg4 harg4 arg5 harg5 hc0 x0 x1)]
  unfold kernelRun0_A
  dsimp only
  sl_unfold_words
  -- the output block is the accumulator as the update left it, reshaped
  rw [View.canon_unit_zero (by funext a; fin_cases a <;> rfl), k0_pay1_apply]
  -- the accumulator read back: the update was the last store into it
  rw [View.readCov_eq_canon_ld _ _ _ (fun y => ⟨_, List.mem_cons_self, View.mem_set_unit_zero (by funext a; fin_cases a <;> rfl) inb_S1x62_S1x62_0_0 y⟩),
    View.canon_cons_unit_zero (by funext a; fin_cases a <;> rfl), View.ld_unit_zero (by funext a; fin_cases a <;> rfl)]
  image_planes
  statistics_layout
  rw [View.readCov_unit_zero _ (by funext a; fin_cases a <;> rfl), k0_pay2_apply, zero_add]

/-- The output block after a later point. -/
theorem out_B (c : Dev nD) (i : grid0.Coords) (arg2 : Memref sig .tc .vmem S1x10x512x512 .f32) (harg2 : arg2.IsWhole) (arg3 : Memref sig .tc .vmem S1x512x512 .i32) (harg3 : arg3.IsWhole) (arg4 : Memref sig .tc .vmem S1x1x62 .f32) (harg4 : arg4.IsWhole) (arg5 : Memref sig .tc .vmem S1x62 .f32) (harg5 : arg5.IsWhole) (hc0 : ¬cond0_0 i)
    (x0 : Vec Ideal S1x10x512x512 .f32) (x1 : Vec Ideal S1x512x512 .i32) (xs0 : Vec Ideal S1x62 .f32) (k : Fin 62) :
    out0_B_2 (F := Ideal) c i arg2 harg2 arg3 harg3 arg4 harg4 arg5 harg5 hc0 x0 x1 xs0 (ix3 (0 : Fin 1) (0 : Fin 1) k) = xs0 (ix2 (0 : Fin 1) k) + statVec (blockImg x0) (blockLab x1) k := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero (by funext a; fin_cases a <;> rfl), k0_pay1_apply]
  -- the accumulator read back: the update was the one store into it
  rw [View.readCov_eq_canon_ld _ _ _ (fun y => ⟨_, List.mem_cons_self, View.mem_set_unit_zero (by funext a; fin_cases a <;> rfl) inb_S1x62_S1x62_0_0 y⟩),
    View.canon_cons_unit_zero (by funext a; fin_cases a <;> rfl), View.ld_unit_zero (by funext a; fin_cases a <;> rfl)]
  image_planes
  statistics_layout

end Cert.SegLoss.Kernel

end
-- ==== Proof.KernelTail.lean ====
import proofs.«401271_j53171695125135_2_alg».proof.Proof.Gen.KernelIdeal.Launch
import proofs.«401271_j53171695125135_2_alg».proof.Proof.Combine
import Idealize.ShloMosaic.Lib.Pipeline.Value
import Idealize.ShloMosaic.Lib.StableHlo.Run
import Idealize.ShloMosaic.PureOps.Ideal.Laws

/-! The host operations after the kernel's region: the two core rows of the output array are added entry by entry,
    the 62 sums are cut into the focal numerator and denominator and the six runs of ten per-class totals, and the
    scalar loss formula is applied to them. -/

noncomputable section

namespace Cert.SegLoss.Kernel

open Idealize.ShloMosaic Idealize.ShloMosaic.TcCoe Idealize.SL.Sem Idealize.ShloMosaic.ValueIdx Cert.KernelIdeal Cert.KernelIdeal.Gen
open Cert.SegLoss

/-- The two core rows of the output array added: the array viewed as 2 × 62 and summed from zero over its first axis. -/
def redRows (A : Vec Ideal S2x1x62 .f32) : FVec Ideal S62 .f32 :=
  Host.reduceAdd (fun i => shapeCast S2x62 A shapeCasts_S2x1x62_S2x62 i) (constant S_ .f32 0x00000000#32)
    reducesTo_S2x62_S62_d0 Gen.h_S_

/-- Entry `k` of the added rows is zero plus the two rows' entries `k`: position `(r, k)` of the 2 × 62 view is position
    `(r, 0, k)` of the array, both at row-major position `62 r + k`. -/
theorem redRows_apply (A : Vec Ideal S2x1x62 .f32) (k : Fin 62) :
    redRows A (ix1 k) = 0 + ∑ r : Fin 2, A (ix3 r (0 : Fin 1) k) := by
  unfold redRows
  simp only [Host.reduceAdd, Ideal.hostReduceAdd_def]
  rw [Ideal.hostReduceAdd_single reducesTo_S2x62_S62_d0 (by decide), constant_apply, Ideal.ofBits_zero_f32]
  refine congrArg₂ (· + ·) rfl (Finset.sum_congr rfl fun r _ => ?_)
  refine shapeCast_apply A _ _ (ix3 r (0 : Fin 1) k) ?_
  rw [Shape.rowMajor_val_three, Shape.rowMajor_val_two]
  show (r.val * 1 + 0) * 62 + k.val = r.val * 62 + k.val
  omega

/-- Ten consecutive entries of a vector of 62 from offset `o`, cut out as a slice. -/
theorem slice10_eq (v : FVec Ideal S62 .f32) (o : ℕ) (ho : o + 10 ≤ 62) (h : S62.Slices ![o] S10) :
    extractStridedSlice S10 ![o] v h = seg (fun k => v (ix1 k)) o ho := by
  funext j
  unfold seg
  refine extractStridedSlice_apply _ v h j _ fun a => ?_
  match a with
  | ⟨0, _⟩ => rfl

/-- The entry at offset `o` of a vector of 62, cut out as a slice of one and viewed as a scalar. -/
theorem slice1_eq (v : FVec Ideal S62 .f32) (o : ℕ) (ho : o < 62) (h : S62.Slices ![o] S1) (hc : S1.ShapeCasts S_) :
    (fun i => shapeCast S_ (extractStridedSlice S1 ![o] v h) hc i) = fun _ => v (ix1 ⟨o, ho⟩) := by
  funext j
  rw [shapeCast_apply _ hc j (ix1 (0 : Fin 1)) (by rw [Shape.rowMajor_val_one]; exact (Shape.rowMajorPi_zero _ j).symm)]
  refine extractStridedSlice_apply _ v h _ _ fun a => ?_
  match a with
  | ⟨0, _⟩ => rfl

set_option maxHeartbeats 4000000 in
/-- From any contents holding the array `A` at the region's output, the host operations leave at the result the loss of the
    62 totals `0 + A (0, 0, k) + A (1, 0, k)`. -/
theorem tail_value (V : Valuation τ sig (Elt Ideal)) (A : Vec Ideal S2x1x62 .f32) (hA : V (Proc.devRef .tc main_v0) = A) :
    StableHlo.after (hostOps1 (F := Ideal)) V (Proc.devRef .tc main_v44) = lossOfTotals (fun k => 0 + ∑ r : Fin 2, A (ix3 r (0 : Fin 1) k)) := by
  after_results_simp
  rw [hA]
  -- the operations are the loss formula's, applied to the eight cuts of the added rows
  show lossOf (fun i => shapeCast S_ (extractStridedSlice S1 ![0] (redRows A) slices_S62_S1_0) shapeCasts_S1_S_ i)
      (fun i => shapeCast S_ (extractStridedSlice S1 ![1] (redRows A) slices_S62_S1_1) shapeCasts_S1_S_ i)
      (extractStridedSlice S10 ![2] (redRows A) slices_S62_S10_2)
      (extractStridedSlice S10 ![12] (redRows A) slices_S62_S10_12)
      (extractStridedSlice S10 ![22] (redRows A) slices_S62_S10_22)
      (extractStridedSlice S10 ![32] (redRows A) slices_S62_S10_32)
      (extractStridedSlice S10 ![42] (redRows A) slices_S62_S10_42)
      (extractStridedSlice S10 ![52] (redRows A) slices_S62_S10_52) = _
  have htot : (fun k => 0 + ∑ r : Fin 2, A (ix3 r (0 : Fin 1) k)) = fun k => redRows A (ix1 k) :=
    funext fun k => (redRows_apply A k).symm
  rw [htot, slice1_eq _ 0 (by omega), slice1_eq _ 1 (by omega), slice10_eq _ 2 (by omega), slice10_eq _ 12 (by omega),
    slice10_eq _ 22 (by omega), slice10_eq _ 32 (by omega), slice10_eq _ 42 (by omega), slice10_eq _ 52 (by omega)]
  rfl

end Cert.SegLoss.Kernel

end
-- ==== Proof.KernelRun.lean ====
import proofs.«401271_j53171695125135_2_alg».proof.Proof.KernelValue
import proofs.«401271_j53171695125135_2_alg».proof.Proof.Combine
import proofs.«401271_j53171695125135_2_alg».proof.Proof.KernelTail
import Idealize.ShloMosaic.Lib.Pipeline.Value
import Idealize.ShloMosaic.Lib.StableHlo.Run

/-! The kernel program's run at the ideal instance: core row `r` of the output array ends at the sum of the statistics
    of images `4 r … 4 r + 3` (the accumulator is reset at each core's first point and flushed after its last), and the
    host operations after the region add the two rows and apply the loss formula.

    The grid is 2 × 4, row-major: point `t` is step `t % 4` of core row `t / 4` and reads image `t` of the batch. The
    accumulator after point `t` is the sum of the statistics of images `4 (t / 4) … t`, added in that order; the output
    block holds the same. The output array has one row per core row, written back after the row's last step, so row `r`
    ends at `((s(4r) + s(4r+1)) + s(4r+2)) + s(4r+3)` with `s(b)` the 62 statistics of image `b`. Adding the two rows
    onto zero gives the batch's totals, by associativity of addition alone. -/

noncomputable section

namespace Cert.SegLoss.Kernel

open Idealize.ShloMosaic Idealize.ShloMosaic.TcCoe Idealize.ShloMosaic.Tactic Idealize.SL.Sem Idealize.ShloMosaic.ValueIdx Cert.KernelIdeal Cert.KernelIdeal.Gen
open Cert.SegLoss

variable (m : (ℓ : Loc nD τ sig) → Buf (Elt Ideal) ℓ)

/-! ## The blocks a grid point reads -/

/-- The batch's logits and labels, as the region finds them. -/
abbrev xarr (c : Dev nD) : Logits := V m c main_arg0
abbrev tarr (c : Dev nD) : Labels := V m c main_arg1
/-- The logits block and the labels block of grid point `t`. -/
abbrev xblk (c : Dev nD) (t : Fin cfg0.N) : Vec Ideal S1x10x512x512 .f32 := iblk m c 0 t
abbrev lblk (c : Dev nD) (t : Fin cfg0.N) : Vec Ideal S1x512x512 .i32 := iblk m c 1 t

/-- The index maps over the grid: both inputs' blocks are numbered by the point itself (`4 i + j` at core row `i`, step
    `j`), the output's by the core row; every other block coordinate is zero. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 3) = t.val ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0) :=
  (by decide +kernel : ∀ t : Fin grid0.N, _)

/-- A grid point is one of eight. -/
theorem pt_lt (t : Fin cfg0.N) : t.val < 8 := lt_of_lt_of_eq t.isLt (show cfg0.N = 8 from N_0)

/-- The logits block of point `t` is image `t` of the batch: a block's coordinate in the array is its index times its
    extent plus the coordinate inside, and the blocks are one image each. -/
theorem xblk_apply (c : Dev nD) (t : Fin cfg0.N) (cl : Fin 10) (h w : Fin 512) :
    xblk m c t (ix4 (0 : Fin 1) cl h w) = xarr m c (ix4 (⟨t.val, pt_lt t⟩ : Fin 8) cl h w) := by
  obtain ⟨⟨e0, e1, e2, e3⟩, -, -⟩ := idx_facts t
  unfold xblk iblk
  rw [View.read_apply]
  show V m c main_arg0 _ = V m c main_arg0 _
  congr 1
  funext a
  apply Fin.ext
  match a with
  | ⟨0, _⟩ => show win0_0.index t 0 * 1 + 1 * 0 = t.val; omega
  | ⟨1, _⟩ => show win0_0.index t 1 * 10 + 1 * cl.val = cl.val; omega
  | ⟨2, _⟩ => show win0_0.index t 2 * 512 + 1 * h.val = h.val; omega
  | ⟨3, _⟩ => show win0_0.index t 3 * 512 + 1 * w.val = w.val; omega

/-- The labels block of point `t` is the labels of image `t`. -/
theorem lblk_apply (c : Dev nD) (t : Fin cfg0.N) (h w : Fin 512) :
    lblk m c t (ix3 (0 : Fin 1) h w) = tarr m c (ix3 (⟨t.val, pt_lt t⟩ : Fin 8) h w) := by
  obtain ⟨-, ⟨e0, e1, e2⟩, -⟩ := idx_facts t
  unfold lblk iblk
  rw [View.read_apply]
  show V m c main_arg1 _ = V m c main_arg1 _
  congr 1
  funext a
  apply Fin.ext
  match a with
  | ⟨0, _⟩ => show win0_1.index t 0 * 1 + 1 * 0 = t.val; omega
  | ⟨1, _⟩ => show win0_1.index t 1 * 512 + 1 * h.val = h.val; omega
  | ⟨2, _⟩ => show win0_1.index t 2 * 512 + 1 * w.val = w.val; omega

theorem blockImg_xblk (c : Dev nD) (t : Fin cfg0.N) : blockImg (xblk m c t) = img (xarr m c) ⟨t.val, pt_lt t⟩ :=
  funext fun cl => funext fun h => funext fun w => xblk_apply m c t cl h w

theorem blockLab_lblk (c : Dev nD) (t : Fin cfg0.N) : blockLab (lblk m c t) = lab (tarr m c) ⟨t.val, pt_lt t⟩ :=
  funext fun h => funext fun w => lblk_apply m c t h w

/-! ## The accumulator, point by point -/
/-- The 62 statistics of image `b` of the batch (zero for a number past the batch). -/
def stat (c : Dev nD) (b : ℕ) (k : Fin 62) : EReal :=
  if h : b < 8 then statVec (img (xarr m c) ⟨b, h⟩) (lab (tarr m c) ⟨b, h⟩) k else 0

/-- What a point adds: the statistics of the image its blocks hold, image `t`'s. -/
theorem stat_blk (c : Dev nD) (t : Fin cfg0.N) (k : Fin 62) :
    statVec (blockImg (xblk m c t)) (blockLab (lblk m c t)) k = stat m c t.val k := by
  rw [blockImg_xblk, blockLab_lblk]
  unfold stat
  rw [dif_pos (pt_lt t)]

/-- The accumulator after point `n`: reset at the points divisible by four, otherwise the point's statistics added
    onto what the point before left. -/
def acc (c : Dev nD) : ℕ → Fin 62 → EReal
  | 0, k => stat m c 0 k
  | n + 1, k => if (n + 1) % 4 = 0 then stat m c (n + 1) k else acc c n k + stat m c (n + 1) k

/-- At a core row's first point both the accumulator and the output block are left at the point's statistics. -/
theorem outsAt_A (c : Dev nD) (t : Fin cfg0.N) (h0 : t.val % 4 = 0) (k : Fin 62) :
    (outsAt0 m c t.val t.isLt).1 (ix3 (0 : Fin 1) (0 : Fin 1) k) = stat m c t.val k
    ∧ (outsAt0 m c t.val t.isLt).2 (ix2 (0 : Fin 1) k) = stat m c t.val k := by
  rw [outsAt0_A m c t h0]
  dsimp only
  exact ⟨(out_A c (grid0.coords t) (ms0_0 t) (hs0_0 t) (ms0_1 t) (hs0_1 t) (ms0_2 t) (hs0_2 t) scM0_0 (Memref.isWhole_whole _) ((hcond0_0 t).mpr h0) (xblk m c t) (lblk m c t) k).trans (stat_blk m c t k),
    (sout_A c (grid0.coords t) (ms0_0 t) (hs0_0 t) (ms0_1 t) (hs0_1 t) (ms0_2 t) (hs0_2 t) scM0_0 (Memref.isWhole_whole _) ((hcond0_0 t).mpr h0) (xblk m c t) (lblk m c t) k).trans (stat_blk m c t k)⟩

/-- At a later point both are left at what the accumulator held before plus the point's statistics. -/
theorem outsAt_B (c : Dev nD) (t : Fin cfg0.N) (h0 : ¬t.val % 4 = 0) (k : Fin 62) :
    (outsAt0 m c t.val t.isLt).1 (ix3 (0 : Fin 1) (0 : Fin 1) k)
        = (outsAt0 m c (t.val - 1) (Nat.lt_of_le_of_lt (Nat.sub_le _ _) t.isLt)).2 (ix2 (0 : Fin 1) k) + stat m c t.val k
    ∧ (outsAt0 m c t.val t.isLt).2 (ix2 (0 : Fin 1) k)
        = (outsAt0 m c (t.val - 1) (Nat.lt_of_le_of_lt (Nat.sub_le _ _) t.isLt)).2 (ix2 (0 : Fin 1) k) + stat m c t.val k := by
  rw [outsAt0_B m c t h0]
  dsimp only
  exact ⟨(out_B c (grid0.coords t) (ms0_0 t) (hs0_0 t) (ms0_1 t) (hs0_1 t) (ms0_2 t) (hs0_2 t) scM0_0 (Memref.isWhole_whole _) (fun h => h0 ((hcond0_0 t).mp h)) (xblk m c t) (lblk m c t) (outsAt0 m c (t.val - 1) (Nat.lt_of_le_of_lt (Nat.sub_le _ _) t.isLt)).2 k).trans (congrArg (_ + ·) (stat_blk m c t k)),
    (sout_B c (grid0.coords t) (ms0_0 t) (hs0_0 t) (ms0_1 t) (hs0_1 t) (ms0_2 t) (hs0_2 t) scM0_0 (Memref.isWhole_whole _) (fun h => h0 ((hcond0_0 t).mp h)) (xblk m c t) (lblk m c t) (outsAt0 m c (t.val - 1) (Nat.lt_of_le_of_lt (Nat.sub_le _ _) t.isLt)).2 k).trans (congrArg (_ + ·) (stat_blk m c t k))⟩

/-- The two cases of the running sum's recursion. -/
theorem acc_succ_A (c : Dev nD) (n : ℕ) (k : Fin 62) (h0 : (n + 1) % 4 = 0) : acc m c (n + 1) k = stat m c (n + 1) k := by
  rw [acc, if_pos h0]
theorem acc_succ_B (c : Dev nD) (n : ℕ) (k : Fin 62) (h0 : ¬(n + 1) % 4 = 0) : acc m c (n + 1) k = acc m c n k + stat m c (n + 1) k := by
  rw [acc, if_neg h0]

/-- After every point both the accumulator and the output block hold the running sum. -/
theorem outsAt_eq (c : Dev nD) : ∀ (n : ℕ) (h : n < cfg0.N) (k : Fin 62),
    (outsAt0 m c n h).1 (ix3 (0 : Fin 1) (0 : Fin 1) k) = acc m c n k ∧ (outsAt0 m c n h).2 (ix2 (0 : Fin 1) k) = acc m c n k
  | 0, h, k => outsAt_A m c ⟨0, h⟩ rfl k
  | n + 1, h, k => by
    by_cases h0 : (n + 1) % 4 = 0
    · rw [acc_succ_A m c n k h0]
      exact outsAt_A m c ⟨n + 1, h⟩ h0 k
    · rw [acc_succ_B m c n k h0]
      have ih := (outsAt_eq c n (Nat.lt_of_succ_lt h) k).2
      have hB := outsAt_B m c ⟨n + 1, h⟩ h0 k
      exact ⟨hB.1.trans (congrArg (· + stat m c (n + 1) k) ih), hB.2.trans (congrArg (· + stat m c (n + 1) k) ih)⟩

/-! ## The output array after the run -/

/-- What the output array ends holding: core row `r` at the running sum after its last point, `4 r + 3`. -/
def outArr (c : Dev nD) : S2x1x62.Idx → EReal := fun i => acc m c (4 * (i 0).val + 3) ⟨(i 2).val, (i 2).isLt⟩

/-- At a core row's last point (`t % 4 = 3`) the output block's entry `k` is row `t / 4`, entry `k` of `outArr`. -/
theorem out_at (c : Dev nD) (t : Fin cfg0.N) (h3 : t.val % 4 = 3) (k : Fin 62) (i : S2x1x62.Idx)
    (hi0 : (i 0).val = t.val / 4) (hi2 : (i 2).val = k.val) :
    (outsAt0 m c t.val t.isLt).1 (ix3 (0 : Fin 1) (0 : Fin 1) k) = outArr m c i := by
  rw [(outsAt_eq m c t.val t.isLt k).1]
  unfold outArr
  have e1 : 4 * (i 0).val + 3 = t.val := by omega
  have e2 : (⟨(i 2).val, (i 2).isLt⟩ : Fin 62) = k := Fin.ext hi2
  rw [e1, e2]

/-- The block written back after a core row's last point is that row of `outArr`. -/
theorem flushed_eq (c : Dev nD) (t : Fin cfg0.N) (hf : (cfg0.win 2).flush t = true) :
    (dats m 0 c).flushed 2 t = ((cfg0.win 2).blk t).view.read (Elt Ideal) (outArr m c) := by
  have h3 : t.val % 4 = 3 := (flush0_2 t).mp hf
  obtain ⟨-, -, ⟨e0, e1, e2⟩⟩ := idx_facts t
  show (cfg0.win 2).cut (grid0.coords t) ((dats m 0 c).after 2 t) = _
  rw [after0_2]
  funext j
  show (outsAt0 m c t.val t.isLt).1 j = outArr m c (((cfg0.win 2).blk t).view.emb j)
  have hj0 : (j 0).val < 1 := (j 0).isLt
  have hj1 : (j 1).val < 1 := (j 1).isLt
  have hj2 : (j 2).val < 62 := (j 2).isLt
  have hj : j = ix3 (0 : Fin 1) (0 : Fin 1) (⟨(j 2).val, hj2⟩ : Fin 62) := by
    funext a
    apply Fin.ext
    match a with
    | ⟨0, _⟩ => show (j 0).val = 0; omega
    | ⟨1, _⟩ => show (j 1).val = 0; omega
    | ⟨2, _⟩ => rfl
  refine (congrArg (outsAt0 m c t.val t.isLt).1 hj).trans ?_
  refine out_at m c t h3 ⟨(j 2).val, hj2⟩ _ ?_ ?_
  · show win0_2.index t (0 : Fin 3) * 1 + 1 * (j 0).val = t.val / 4
    omega
  · show win0_2.index t (2 : Fin 3) * 62 + 1 * (j 2).val = (j 2).val
    omega

/-- An index of the output array lies in point `t`'s block iff each coordinate lies in the block's range on its axis. -/
theorem mem_blk (t : Fin cfg0.N) (i : S2x1x62.Idx) :
    i ∈ ((cfg0.win 2).blk t).view.set ↔ ∀ a : Fin 3, win0_2.index t a * S1x1x62.size a ≤ (i a).val ∧ (i a).val < win0_2.index t a * S1x1x62.size a + S1x1x62.size a := by
  show i ∈ ((View.whole main_v0).slice (win0_2.rect t)).set ↔ _
  rw [View.set_slice_whole, Rect.mem_set_unit]
  exact Iff.rfl

/-- After the run the output array holds, row by row, each core row's sum of its four images' statistics. -/
theorem final_out (c : Dev nD) : (dats m 0 c).arrAt 2 cfg0.N = outArr m c :=
  (dats m 0 c).arrAt_eq_of_cover 2 (outArr m c) (flushed_eq m c) fun i => by
    have hi0 : (i 0).val < 2 := (i 0).isLt
    have hi1 : (i 1).val < 1 := (i 1).isLt
    have hi2 : (i 2).val < 62 := (i 2).isLt
    have hN : cfg0.N = 8 := N_0
    let t : Fin cfg0.N := ⟨4 * (i 0).val + 3, by omega⟩
    have ht : t.val = 4 * (i 0).val + 3 := rfl
    obtain ⟨-, -, ⟨e0, e1, e2⟩⟩ := idx_facts t
    refine ⟨t, (flush0_2 t).mpr (by omega), ?_⟩
    rw [mem_blk]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1 ≤ (i 1).val ∧ (i 1).val < win0_2.index t (1 : Fin 3) * 1 + 1; omega
    | ⟨2, _⟩ => show win0_2.index t (2 : Fin 3) * 62 ≤ (i 2).val ∧ (i 2).val < win0_2.index t (2 : Fin 3) * 62 + 62; omega

/-! ## The two rows added are the batch's totals -/

/-- Row `r` of the output array is the running sum after point `4 r + 3`. -/
theorem outArr_row (c : Dev nD) (r : Fin 2) (k : Fin 62) : outArr m c (ix3 r (0 : Fin 1) k) = acc m c (4 * r.val + 3) k := rfl

/-- The statistics of an image of the batch. -/
theorem stat_at (c : Dev nD) (b : Fin 8) (k : Fin 62) :
    stat m c b.val k = statVec (img (xarr m c) b) (lab (tarr m c) b) k := by
  unfold stat
  rw [dif_pos b.isLt]

/-- The two rows of the output array added are the batch's totals: each row is four consecutive images' statistics
    added in order, and addition of extended reals is associative. -/
theorem rows_total (c : Dev nD) (k : Fin 62) :
    0 + ∑ r : Fin 2, outArr m c (ix3 r (0 : Fin 1) k) = total (xarr m c) (tarr m c) k := by
  rw [Fin.sum_univ_two, outArr_row, outArr_row]
  have a1 : acc m c 1 k = acc m c 0 k + stat m c 1 k := acc_succ_B m c 0 k (by decide)
  have a2 : acc m c 2 k = acc m c 1 k + stat m c 2 k := acc_succ_B m c 1 k (by decide)
  have a3 : acc m c 3 k = acc m c 2 k + stat m c 3 k := acc_succ_B m c 2 k (by decide)
  have a4 : acc m c 4 k = stat m c 4 k := acc_succ_A m c 3 k (by decide)
  have a5 : acc m c 5 k = acc m c 4 k + stat m c 5 k := acc_succ_B m c 4 k (by decide)
  have a6 : acc m c 6 k = acc m c 5 k + stat m c 6 k := acc_succ_B m c 5 k (by decide)
  have a7 : acc m c 7 k = acc m c 6 k + stat m c 7 k := acc_succ_B m c 6 k (by decide)
  have a0 : acc m c 0 k = stat m c 0 k := rfl
  have s0 : stat m c 0 k = statVec (img (xarr m c) 0) (lab (tarr m c) 0) k := stat_at m c 0 k
  have s1 : stat m c 1 k = statVec (img (xarr m c) 1) (lab (tarr m c) 1) k := stat_at m c 1 k
  have s2 : stat m c 2 k = statVec (img (xarr m c) 2) (lab (tarr m c) 2) k := stat_at m c 2 k
  have s3 : stat m c 3 k = statVec (img (xarr m c) 3) (lab (tarr m c) 3) k := stat_at m c 3 k
  have s4 : stat m c 4 k = statVec (img (xarr m c) 4) (lab (tarr m c) 4) k := stat_at m c 4 k
  have s5 : stat m c 5 k = statVec (img (xarr m c) 5) (lab (tarr m c) 5) k := stat_at m c 5 k
  have s6 : stat m c 6 k = statVec (img (xarr m c) 6) (lab (tarr m c) 6) k := stat_at m c 6 k
  have s7 : stat m c 7 k = statVec (img (xarr m c) 7) (lab (tarr m c) 7) k := stat_at m c 7 k
  show 0 + (acc m c 3 k + acc m c 7 k) = _
  rw [a3, a2, a1, a0, a7, a6, a5, a4, s0, s1, s2, s3, s4, s5, s6, s7]
  unfold total
  rw [Fin.sum_univ_eight]
  simp only [zero_add, add_assoc]

/-! ## The run -/

/-- The result of the host operations after the region: the loss of the batch's totals. The operations read the output
    array only through its two rows added onto zero, entry by entry. -/
theorem tail_eq (c : Dev nD) :
    Pipeline.afterTail₀ cfgs (dats m) 0 (V0 m) [hostOps1] c main_v44 = lossOfTotals (total (xarr m c) (tarr m c)) := by
  unfold Pipeline.afterTail₀
  show StableHlo.after hostOps1 _ (Proc.devRef .tc main_v44) = _
  rw [tail_value _ (outArr m c) ((Pipeline.withArrays_arr spec0 launch0.win.arr_inj c _ _ 2).trans (final_out m c))]
  exact congrArg lossOfTotals (funext fun k => rows_total m c k)

/-- Every weakly fair execution of the idealized kernel program ends with the result at the loss of the batch's totals, the
    arguments unchanged. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v44)
            = lossOfTotals (total (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (Cert.KernelIdeal.defs (F := Ideal)) _ _).mono (fun r h c =>
    ⟨((h c).2 main_v44 (Pipeline.mem_restRefs_of main_v44 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.SegLoss.Kernel

end
-- ==== Proof.FiniteInputs.lean ====
import proofs.«401271_j53171695125135_2_alg».proof.Pre_finite_inputs
import proofs.«401271_j53171695125135_2_alg».proof.Proof.Gen.Pre_finite_inputs
import proofs.«401271_j53171695125135_2_alg».proof.Proof.Spec
import Idealize.ShloMosaic.Lib.ReduceAll
import Idealize.ShloMosaic.Lib.Pipeline.Value

/-! The precondition — every logit's magnitude below +∞ — says every logit is a real number. -/

noncomputable section

namespace Cert.SegLoss

open Idealize.ShloMosaic Idealize.ShloMosaic.ValueIdx

/-- The precondition is the conjunction over every entry of `max x (-x) < +∞`; a conjunction that holds holds at each
    entry, and `max x (-x) < +∞` excludes `x = +∞` (the first argument) and `x = -∞` (the second, `-(-∞) = +∞`). -/
theorem finite_of_pre [Cert.Pre_finite_inputs.Facts] (x0 : Logits) (x1 : Labels)
    (h : Cert.Pre_finite_inputs.fn (F := Ideal) x0 x1 = fun _ => 1#1) : Finite x0 := by
  intro i
  -- the scalar shape has one index
  haveI : Subsingleton Cert.Pre_finite_inputs.S_.Idx := ⟨fun a b => funext fun d => d.elim0⟩
  have h0 := congrFun h ix0
  dsimp only [Cert.Pre_finite_inputs.fn] at h0
  -- the entry's comparison bit is 1
  have hi := Host.reduce_andi_all _ _ _ _ _ h0 i
  rw [cmpf_apply, broadcastInDim_apply _ _ _ i ix0 (fun a => a.elim0)] at hi
  have hi' : Ideal.cmp .olt (max (x0 i) (-(x0 i))) (Ideal.ofBits .f32 0x7F800000#32) = 1#1 := hi
  rw [ofBits_posInf] at hi'
  have hlt : max (x0 i) (-(x0 i)) < ⊤ := by
    by_contra hn
    simp [Ideal.cmp, hn] at hi'
  rw [max_lt_iff] at hlt
  refine ⟨ne_of_lt hlt.1, fun e => ?_⟩
  have h2 := hlt.2
  rw [e, EReal.neg_bot] at h2
  exact lt_irrefl _ h2

end Cert.SegLoss

end
-- ==== Proof.lean ====
/- The certificate's claims, assembled.

   Both programs reduce each of the eight images to 62 statistics (Proof/Spec.lean), add them over the images, and apply one
   scalar formula to the totals (Proof/Combine.lean). The kernel program's run ends with the result at that formula of the
   totals (Proof/KernelRun.lean, over the generated frame run: the accumulator carried over a core's four grid points, the
   two cores' rows added by the host operations after the region); the reference's run, read stretch by stretch (Proof/RefRunStaged.lean), ends with its result at
   its last stage, which is the same formula of the same totals (Proof/RefLoss.lean) once every logit is a real number,
   which is what the precondition says (Proof/FiniteInputs.lean). The three frames are the generated frame certificates and
   the reference's run with the result dropped; the idealization ledger is empty. -/
import proofs.«401271_j53171695125135_2_alg».proof.Defs
import proofs.«401271_j53171695125135_2_alg».proof.Proof.Gen.Kernel
import proofs.«401271_j53171695125135_2_alg».proof.Proof.Gen.Kernel.Frame
import proofs.«401271_j53171695125135_2_alg».proof.Proof.Gen.KernelIdeal
import proofs.«401271_j53171695125135_2_alg».proof.Proof.Gen.KernelIdeal.Frame
import proofs.«401271_j53171695125135_2_alg».proof.Proof.Gen.ReferenceIdeal
import proofs.«401271_j53171695125135_2_alg».proof.Proof.Gen.Pre_finite_inputs
import proofs.«401271_j53171695125135_2_alg».proof.Proof.RefRunStaged
import proofs.«401271_j53171695125135_2_alg».proof.Proof.RefLoss
import proofs.«401271_j53171695125135_2_alg».proof.Proof.KernelRun
import proofs.«401271_j53171695125135_2_alg».proof.Proof.FiniteInputs
import Idealize.ShloMosaic.Adequacy
import Idealize.ShloMosaic.Init

noncomputable section

namespace Cert.Proof

open Idealize.ShloMosaic Idealize.SL.Sem

section Claims

variable [hK : Cert.Kernel.Facts] [hKI : Cert.KernelIdeal.Facts] [hRI : Cert.ReferenceIdeal.Facts] [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.SegLoss.Ref.run_staged m ρ)

/-- Both runs end with the loss formula of the batch's totals: the kernel program by its run, the reference because its last
    stage is that formula of its eight sums and each sum is a total, the logits being real numbers under the precondition. -/
theorem algebraic : Cert.algebraic_KernelIdeal_ReferenceIdeal := by
  intro m ρ m' ρ' hpre hagree
  refine ⟨fun c => Cert.SegLoss.lossOfTotals (Cert.SegLoss.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.SegLoss.Kernel.kernel_run m ρ, ?_⟩
  refine (θ_run Cert.ReferenceIdeal.defs _ _).mono (fun _ h c => ⟨?_, (h c).2⟩)
    (Cert.SegLoss.Ref.run_staged m' ρ')
  rw [(h c).1, (hagree c).1, (hagree c).2]
  exact Cert.SegLoss.Ref.loss_eq _ _ (Cert.SegLoss.finite_of_pre _ _ (hpre c))

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
